-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S1x1 : Shape := ⟨2, ![1, 1]⟩
abbrev S64x64 : Shape := ⟨2, ![64, 64]⟩
abbrev S8192 : Shape := ⟨1, ![8192]⟩
abbrev S8192x1 : Shape := ⟨2, ![8192, 1]⟩
abbrev S64 : Shape := ⟨1, ![64]⟩
abbrev S1x64 : Shape := ⟨2, ![1, 64]⟩
abbrev S1x8192x64 : Shape := ⟨3, ![1, 8192, 64]⟩
abbrev S1 : Shape := ⟨1, ![1]⟩
abbrev S1x1x1 : Shape := ⟨3, ![1, 1, 1]⟩
abbrev S_ : Shape := ⟨0, ![]⟩

abbrev nBuf : Space → Nat
  | .hbm => 3
  | .vmem => 2
  | .smem => 0
  | _ => 0

abbrev bufTy : (tb : Table) → Fin (tcTables nBuf tb) → BufTy
  | .hbm, ⟨0, _⟩ => ⟨S8192x64, .f32⟩
  | .hbm, ⟨1, _⟩ => ⟨S1x1, .f32⟩
  | .hbm, ⟨2, _⟩ => ⟨S_, .f32⟩
  | .local _ .vmem, ⟨0, _⟩ => ⟨S8192x64, .f32⟩
  | .local _ .vmem, ⟨1, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S8192x64_S8192x64_0_0 : ∀ a, (![0, 0] : Fin 2 → Nat) a + S8192x64.size a ≤ S8192x64.size a
  h_S8192x64 : 0 < S8192x64.numel
  slices_S8192x64_o0_0_S64x64 : S8192x64.Slices ![0, 0] S64x64
  reduces_S8192x64_S8192 : S8192x64.Reduces [1] S8192
  shapeCasts_S8192_S8192x1 : S8192.ShapeCasts S8192x1
  reduces_S64x64_S64 : S64x64.Reduces [1] S64
  shapeCasts_S64_S1x64 : S64.ShapeCasts S1x64
  broadcasts_S8192x1_S8192x64 : S8192x1.Broadcasts S8192x64
  broadcasts_S1x64_S8192x64 : S1x64.Broadcasts S8192x64
  shapeCasts_S8192x64_S1x8192x64 : S8192x64.ShapeCasts S1x8192x64
  reduces_S1x8192x64_S1 : S1x8192x64.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S8192x64_S64x64_S8192x64_1_1_0_0_n_n_wf : DotDims.WF S8192x64 S64x64 S8192x64 [1] [1] [0] [0] [] []
  hstage0_0 : ∀ j, (stage0_0 j).IsWhole
  hstage0_1 : ∀ j, (stage0_1 j).IsWhole

variable [Facts₀]

def dot_S8192x64_S64x64_S8192x64_1_1_0_0_n_n : DotDims S8192x64 S64x64 S8192x64 where
  lhsContracting := [1]
  rhsContracting := [1]
  lhsNonContracting := [0]
  rhsNonContracting := [0]
  lhsBatch := []
  rhsBatch := []
  wf := dot_S8192x64_S64x64_S8192x64_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S524288 : Shape := ⟨1, ![524288]⟩
abbrev S524288x1 : Shape := ⟨2, ![524288, 1]⟩
abbrev S524288x2 : Shape := ⟨2, ![524288, 2]⟩
abbrev S524288x2x1 : Shape := ⟨3, ![524288, 2, 1]⟩
abbrev S524288x2x64 : Shape := ⟨3, ![524288, 2, 64]⟩
abbrev S524288x64 : Shape := ⟨2, ![524288, 64]⟩

abbrev nBuf : Space → Nat
  | .hbm => 161
  | .vmem => 0
  | .smem => 0
  | _ => 0

abbrev hbmTy0_0 (i : Nat) : BufTy := match i % 128 with
  | 0 => ⟨S8192x64, .f32⟩
  | 1 => ⟨S_, .f32⟩
  | 2 => ⟨S8192x64, .f32⟩
  | 3 => ⟨S8192x64, .i1⟩
  | 4 => ⟨S524288, .i1⟩
  | 5 => ⟨S524288, .i32⟩
  | 6 => ⟨S_, .i32⟩
  | 7 => ⟨S_, .i32⟩
  | 8 => ⟨S524288, .i32⟩
  | 9 => ⟨S_, .i32⟩
  | 10 => ⟨S524288, .i32⟩
  | 11 => ⟨S_, .i32⟩
  | 12 => ⟨S_, .i32⟩
  | 13 => ⟨S524288, .i32⟩
  | 14 => ⟨S524288, .i32⟩
  | 15 => ⟨S_, .i32⟩
  | 16 => ⟨S524288, .i32⟩
  | 17 => ⟨S524288, .i1⟩
  | 18 => ⟨S_, .i32⟩
  | 19 => ⟨S524288, .i32⟩
  | 20 => ⟨S524288, .i32⟩
  | 21 => ⟨S524288, .i32⟩
  | 22 => ⟨S524288x1, .i32⟩
  | 23 => ⟨S_, .i32⟩
  | 24 => ⟨S524288, .i32⟩
  | 25 => ⟨S524288, .i32⟩
  | 26 => ⟨S_, .i32⟩
  | 27 => ⟨S_, .i32⟩
  | 28 => ⟨S524288, .i32⟩
  | 29 => ⟨S_, .i32⟩
  | 30 => ⟨S524288, .i32⟩
  | 31 => ⟨S524288, .i32⟩
  | 32 => ⟨S524288, .i32⟩
  | 33 => ⟨S_, .i32⟩
  | 34 => ⟨S524288, .i32⟩
  | 35 => ⟨S524288, .i1⟩
  | 36 => ⟨S524288, .i32⟩
  | 37 => ⟨S524288, .i32⟩
  | 38 => ⟨S_, .i32⟩
  | 39 => ⟨S524288, .i32⟩
  | 40 => ⟨S524288, .i1⟩
  | 41 => ⟨S524288, .i1⟩
  | 42 => ⟨S_, .i32⟩
  | 43 => ⟨S524288, .i32⟩
  | 44 => ⟨S524288, .i32⟩
  | 45 => ⟨S524288, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S524288, .i32⟩
  | 53 => ⟨S524288, .i32⟩
  | 54 => ⟨S_, .i32⟩
  | 55 => ⟨S524288, .i32⟩
  | 56 => ⟨S524288, .i1⟩
  | 57 => ⟨S_, .i32⟩
  | 58 => ⟨S524288, .i32⟩
  | 59 => ⟨S524288, .i1⟩
  | 60 => ⟨S_, .i32⟩
  | 61 => ⟨S_, .i1⟩
  | 62 => ⟨S524288, .i1⟩
  | 63 => ⟨S524288, .i1⟩
  | 64 => ⟨S524288, .i1⟩
  | 65 => ⟨S524288, .i32⟩
  | 66 => ⟨S524288, .i32⟩
  | 67 => ⟨S524288, .i32⟩
  | 68 => ⟨S_, .i32⟩
  | 69 => ⟨S524288, .i32⟩
  | 70 => ⟨S524288, .i32⟩
  | 71 => ⟨S524288, .i32⟩
  | 72 => ⟨S_, .i32⟩
  | 73 => ⟨S524288, .i32⟩
  | 74 => ⟨S524288, .i1⟩
  | 75 => ⟨S524288, .i32⟩
  | 76 => ⟨S524288, .i32⟩
  | 77 => ⟨S_, .i32⟩
  | 78 => ⟨S524288, .i32⟩
  | 79 => ⟨S524288, .i1⟩
  | 80 => ⟨S524288, .i1⟩
  | 81 => ⟨S_, .i32⟩
  | 82 => ⟨S524288, .i32⟩
  | 83 => ⟨S524288, .i32⟩
  | 84 => ⟨S524288, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S524288, .i32⟩
  | 92 => ⟨S524288, .i32⟩
  | 93 => ⟨S_, .i32⟩
  | 94 => ⟨S524288, .i32⟩
  | 95 => ⟨S524288, .i1⟩
  | 96 => ⟨S_, .i32⟩
  | 97 => ⟨S524288, .i32⟩
  | 98 => ⟨S524288, .i1⟩
  | 99 => ⟨S_, .i32⟩
  | 100 => ⟨S_, .i1⟩
  | 101 => ⟨S524288, .i1⟩
  | 102 => ⟨S524288, .i1⟩
  | 103 => ⟨S524288, .i1⟩
  | 104 => ⟨S524288, .i32⟩
  | 105 => ⟨S524288, .i32⟩
  | 106 => ⟨S524288, .i32⟩
  | 107 => ⟨S524288, .i32⟩
  | 108 => ⟨S8192x64, .i32⟩
  | 109 => ⟨S_, .i32⟩
  | 110 => ⟨S_, .i32⟩
  | 111 => ⟨S524288, .i32⟩
  | 112 => ⟨S524288, .i1⟩
  | 113 => ⟨S_, .i32⟩
  | 114 => ⟨S_, .i32⟩
  | 115 => ⟨S524288, .i32⟩
  | 116 => ⟨S524288, .i32⟩
  | 117 => ⟨S_, .i32⟩
  | 118 => ⟨S_, .i32⟩
  | 119 => ⟨S524288, .i32⟩
  | 120 => ⟨S524288, .i32⟩
  | 121 => ⟨S524288x1, .i32⟩
  | 122 => ⟨S524288x1, .i32⟩
  | 123 => ⟨S524288x2, .i32⟩
  | 124 => ⟨S_, .i32⟩
  | 125 => ⟨S524288x2, .i32⟩
  | 126 => ⟨S524288x2, .i1⟩
  | 127 => ⟨S_, .i32⟩
  | _ => ⟨S8192x64, .f32⟩

abbrev hbmTy0_1 (i : Nat) : BufTy := match i % 128 with
  | 0 => ⟨S524288x2, .i32⟩
  | 1 => ⟨S524288x2, .i32⟩
  | 2 => ⟨S524288x2, .i32⟩
  | 3 => ⟨S524288x2x1, .i32⟩
  | 4 => ⟨S524288x2x64, .f32⟩
  | 5 => ⟨S_, .f32⟩
  | 6 => ⟨S524288x64, .f32⟩
  | 7 => ⟨S_, .f32⟩
  | 8 => ⟨S524288x64, .f32⟩
  | 9 => ⟨S524288x64, .f32⟩
  | 10 => ⟨S_, .f32⟩
  | 11 => ⟨S524288x64, .f32⟩
  | 12 => ⟨S524288x64, .f32⟩
  | 13 => ⟨S8192x64, .i32⟩
  | 14 => ⟨S_, .i32⟩
  | 15 => ⟨S_, .i32⟩
  | 16 => ⟨S524288, .i32⟩
  | 17 => ⟨S524288, .i32⟩
  | 18 => ⟨S524288, .i1⟩
  | 19 => ⟨S524288x1, .i1⟩
  | 20 => ⟨S524288x64, .f32⟩
  | 21 => ⟨S_, .f32⟩
  | 22 => ⟨S_, .f32⟩
  | 23 => ⟨S524288x64, .i1⟩
  | 24 => ⟨S524288x64, .f32⟩
  | 25 => ⟨S524288x64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_call2_call0_c : Ref sig .tc := ⟨.hbm, 26, rfl⟩
abbrev main_call2_call0_v0 : Ref sig .tc := ⟨.hbm, 27, rfl⟩
abbrev main_v13 : Ref sig .tc := ⟨.hbm, 28, rfl⟩
abbrev main_c_4 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_call3_v5 : Ref sig .tc := ⟨.hbm, 35, rfl⟩
abbrev main_call3_v6 : Ref sig .tc := ⟨.hbm, 36, rfl⟩
abbrev main_call3_v7 : Ref sig .tc := ⟨.hbm, 37, rfl⟩
abbrev main_call3_c : Ref sig .tc := ⟨.hbm, 38, rfl⟩
abbrev main_call3_v8 : Ref sig .tc := ⟨.hbm, 39, rfl⟩
abbrev main_call3_v9 : Ref sig .tc := ⟨.hbm, 40, rfl⟩
abbrev main_call3_v10 : Ref sig .tc := ⟨.hbm, 41, rfl⟩
abbrev main_call3_c_0 : Ref sig .tc := ⟨.hbm, 42, rfl⟩
abbrev main_call3_v11 : Ref sig .tc := ⟨.hbm, 43, rfl⟩
abbrev main_call3_v12 : Ref sig .tc := ⟨.hbm, 44, rfl⟩
abbrev main_v14 : Ref sig .tc := ⟨.hbm, 45, rfl⟩
abbrev main_c_5 : Ref sig .tc := ⟨.hbm, 46, rfl⟩
abbrev main_call4_v0 : Ref sig .tc := ⟨.hbm, 47, rfl⟩
abbrev main_call4_c : Ref sig .tc := ⟨.hbm, 48, rfl⟩
abbrev main_call4_v1 : Ref sig .tc := ⟨.hbm, 49, rfl⟩
abbrev main_call4_c_0 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_call4_c_1 : Ref sig .tc := ⟨.hbm, 54, rfl⟩
abbrev main_call4_v5 : Ref sig .tc := ⟨.hbm, 55, rfl⟩
abbrev main_call4_v6 : Ref sig .tc := ⟨.hbm, 56, rfl⟩
abbrev main_call4_c_2 : Ref sig .tc := ⟨.hbm, 57, rfl⟩
abbrev main_call4_v7 : Ref sig .tc := ⟨.hbm, 58, rfl⟩
abbrev main_call4_v8 : Ref sig .tc := ⟨.hbm, 59, rfl⟩
abbrev main_call4_c_3 : Ref sig .tc := ⟨.hbm, 60, rfl⟩
abbrev main_call4_v9 : Ref sig .tc := ⟨.hbm, 61, rfl⟩
abbrev main_call4_v10 : Ref sig .tc := ⟨.hbm, 62, rfl⟩
abbrev main_call4_v11 : Ref sig .tc := ⟨.hbm, 63, rfl⟩
abbrev main_call4_v12 : Ref sig .tc := ⟨.hbm, 64, rfl⟩
abbrev main_call4_v13 : Ref sig .tc := ⟨.hbm, 65, rfl⟩
abbrev main_call4_v14 : Ref sig .tc := ⟨.hbm, 66, rfl⟩
abbrev main_v15 : Ref sig .tc := ⟨.hbm, 67, rfl⟩
abbrev main_c_6 : Ref sig .tc := ⟨.hbm, 68, rfl⟩
abbrev main_call5_v0 : Ref sig .tc := ⟨.hbm, 69, rfl⟩
abbrev main_call5_v1 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_call5_v5 : Ref sig .tc := ⟨.hbm, 74, rfl⟩
abbrev main_call5_v6 : Ref sig .tc := ⟨.hbm, 75, rfl⟩
abbrev main_call5_v7 : Ref sig .tc := ⟨.hbm, 76, rfl⟩
abbrev main_call5_c : Ref sig .tc := ⟨.hbm, 77, rfl⟩
abbrev main_call5_v8 : Ref sig .tc := ⟨.hbm, 78, rfl⟩
abbrev main_call5_v9 : Ref sig .tc := ⟨.hbm, 79, rfl⟩
abbrev main_call5_v10 : Ref sig .tc := ⟨.hbm, 80, rfl⟩
abbrev main_call5_c_0 : Ref sig .tc := ⟨.hbm, 81, rfl⟩
abbrev main_call5_v11 : Ref sig .tc := ⟨.hbm, 82, rfl⟩
abbrev main_call5_v12 : Ref sig .tc := ⟨.hbm, 83, rfl⟩
abbrev main_v16 : Ref sig .tc := ⟨.hbm, 84, rfl⟩
abbrev main_c_7 : Ref sig .tc := ⟨.hbm, 85, rfl⟩
abbrev main_call6_v0 : Ref sig .tc := ⟨.hbm, 86, rfl⟩
abbrev main_call6_c : Ref sig .tc := ⟨.hbm, 87, rfl⟩
abbrev main_call6_v1 : Ref sig .tc := ⟨.hbm, 88, rfl⟩
abbrev main_call6_c_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_c_1 : Ref sig .tc := ⟨.hbm, 93, rfl⟩
abbrev main_call6_v5 : Ref sig .tc := ⟨.hbm, 94, rfl⟩
abbrev main_call6_v6 : Ref sig .tc := ⟨.hbm, 95, rfl⟩
abbrev main_call6_c_2 : Ref sig .tc := ⟨.hbm, 96, rfl⟩
abbrev main_call6_v7 : Ref sig .tc := ⟨.hbm, 97, rfl⟩
abbrev main_call6_v8 : Ref sig .tc := ⟨.hbm, 98, rfl⟩
abbrev main_call6_c_3 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_v12 : Ref sig .tc := ⟨.hbm, 103, rfl⟩
abbrev main_call6_v13 : Ref sig .tc := ⟨.hbm, 104, rfl⟩
abbrev main_call6_v14 : Ref sig .tc := ⟨.hbm, 105, rfl⟩
abbrev main_v17 : Ref sig .tc := ⟨.hbm, 106, rfl⟩
abbrev main_v18 : Ref sig .tc := ⟨.hbm, 107, rfl⟩
abbrev main_v19 : Ref sig .tc := ⟨.hbm, 108, rfl⟩
abbrev main_c_8 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_c_9 : Ref sig .tc := ⟨.hbm, 113, rfl⟩
abbrev main_call7_v0 : Ref sig .tc := ⟨.hbm, 114, rfl⟩
abbrev main_call7_v1 : Ref sig .tc := ⟨.hbm, 115, rfl⟩
abbrev main_v23 : Ref sig .tc := ⟨.hbm, 116, rfl⟩
abbrev main_c_10 : Ref sig .tc := ⟨.hbm, 117, rfl⟩
abbrev main_call8_v0 : Ref sig .tc := ⟨.hbm, 118, rfl⟩
abbrev main_call8_v1 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_c_11 : Ref sig .tc := ⟨.hbm, 124, rfl⟩
abbrev main_v28 : Ref sig .tc := ⟨.hbm, 125, rfl⟩
abbrev main_v29 : Ref sig .tc := ⟨.hbm, 126, rfl⟩
abbrev main_c_12 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_v34 : Ref sig .tc := ⟨.hbm, 132, rfl⟩
abbrev main_cst_13 : Ref sig .tc := ⟨.hbm, 133, rfl⟩
abbrev main_v35 : Ref sig .tc := ⟨.hbm, 134, rfl⟩
abbrev main_cst_14 : Ref sig .tc := ⟨.hbm, 135, rfl⟩
abbrev main_v36 : Ref sig .tc := ⟨.hbm, 136, rfl⟩
abbrev main_v37 : Ref sig .tc := ⟨.hbm, 137, rfl⟩
abbrev main_cst_15 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_c_16 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_cst_17 : Ref sig .tc := ⟨.hbm, 149, rfl⟩
abbrev main_call9_v0 : Ref sig .tc := ⟨.hbm, 150, rfl⟩
abbrev main_call9_v1 : Ref sig .tc := ⟨.hbm, 151, rfl⟩
abbrev main_call9_v2 : Ref sig .tc := ⟨.hbm, 152, rfl⟩
abbrev main_v47 : Ref sig .tc := ⟨.hbm, 153, rfl⟩
abbrev main_cst_18 : Ref sig .tc := ⟨.hbm, 154, rfl⟩
abbrev main_v48 : Ref sig .tc := ⟨.hbm, 155, rfl⟩
abbrev main_v49 : Ref sig .tc := ⟨.hbm, 156, rfl⟩
abbrev main_cst_19 : Ref sig .tc := ⟨.hbm, 157, rfl⟩
abbrev main_v50 : Ref sig .tc := ⟨.hbm, 158, rfl⟩
abbrev main_cst_20 : Ref sig .tc := ⟨.hbm, 159, rfl⟩
abbrev main_v51 : Ref sig .tc := ⟨.hbm, 160, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  shapeCasts_S8192x64_S524288 : S8192x64.ShapeCasts S524288
  natLt_1_32 : 1 < 32
  bcast_S_S_ : S_.BroadcastsInDim S_ (![] : Fin 0 → Fin S_.rank)
  reduceWindows_S524288_S524288_w524288s1p524287_0 : S524288.ReduceWindows (![524288] : Fin 1 → Nat) ![1] ![524287] ![0] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  reducesTo_S8192x64_S_d0_1 : S8192x64.ReducesTo [0, 1] S_
  concatenates_S524288x1_S524288x1_S524288x2_d1 : Shape.Concatenates [S524288x1, S524288x1] S524288x2 1
  bcast_S_S524288x2 : S_.BroadcastsInDim S524288x2 (![] : Fin 0 → Fin S524288x2.rank)
  bcast_S524288x2_S524288x2x1_0_1 : S524288x2.BroadcastsInDim S524288x2x1 (![0, 1] : Fin 2 → Fin S524288x2x1.rank)
  reducesTo_S524288x2x64_S524288x64_d1 : S524288x2x64.ReducesTo [1] S524288x64
  bcast_S_S524288x64 : S_.BroadcastsInDim S524288x64 (![] : Fin 0 → Fin S524288x64.rank)
  bcast_S524288x1_S524288x64_0_1 : S524288x1.BroadcastsInDim S524288x64 (![0, 1] : Fin 2 → Fin S524288x64.rank)
  reducesTo_S524288x64_S_d0_1 : S524288x64.ReducesTo [0, 1] S_
  scatter_S524288_S524288x1_S524288_n_0_0_1_wf : ScatterDims.WF S524288 S524288x1 S524288 [] [0] [0] 1
  gather_S8192x64_S524288x2x1_S524288x2x64_2_0_n_n_0_2_164_wf : GatherDims.WF S8192x64 S524288x2x1 S524288x2x64 [2] [0] [] [0] [] 2 ![1, 64]

variable [Facts₀]

def scatter_S524288_S524288x1_S524288_n_0_0_1 : ScatterDims S524288 S524288x1 S524288 where
  updateWindowDims := []
  insertedWindowDims := [0]
  scatterDimsToOperandDims := [0]
  indexVectorDim := 1
  wf := scatter_S524288_S524288x1_S524288_n_0_0_1_wf
def gather_S8192x64_S524288x2x1_S524288x2x64_2_0_n_n_0_2_164 : GatherDims S8192x64 S524288x2x1 S524288x2x64 where
  offsetDims := [2]
  collapsedSliceDims := [0]
  operandBatchingDims := []
  startIndicesBatchingDims := []
  startIndexMap := [0]
  indexVectorDim := 2
  sliceSizes := ![1, 64]
  wf := gather_S8192x64_S524288x2x1_S524288x2x64_2_0_n_n_0_2_164_wf

class Facts : Prop extends Facts₀ where

variable [Facts]
-- ==== Proof.KernelRun.lean ====
/-
  The kernel's run: the one region stages the whole input, the body stores one number into the 1 × 1 output, and the
  program returns that number as a scalar. Every execution ends with the result at the body's value of the input
  and the input unchanged.
-/
import proofs.«162556_g44856638440002_cont_sun_c4_349_4_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Value

open Cert.KernelIdeal Cert.KernelIdeal.Gen Idealize.ShloMosaic Idealize.ShloMosaic.TcCoe Idealize.SL.Sem
  Idealize.ShloMosaic.ValueIdx

variable {F : FTy → Type} [FloatOps F]

/-! ## From the one block to the scalar result

The region has a single point, and at that point each window's block is its whole array: the block index is zero on
every axis, so a position inside the block is the same position in the array. The body's single store therefore
determines the whole 1 × 1 output, and the trailing reshape reads that one entry. -/

section Blocks

variable (m : (ℓ : Loc nD τ sig) → Buf (Elt F) ℓ)

/-- The offsets of a rectangle that starts at the origin of a rank-2 buffer. -/
private theorem zeroOffsets : (![0, 0] : Fin 2 → Nat) = fun _ => 0 := funext fun a => by fin_cases a <;> rfl

/-- At every point, both windows sit at block index zero on both axes. -/
private theorem blockIndex_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's block is the whole input array: position `j` of the block is position
    `0 · size + j = j` of the array on each axis. -/
private theorem inputBlock_eq (c : Dev nD) (t : Fin cfg0.N) : iblk m c 0 t = m ((c.tc : Thread nD τ).loc main_arg0) := by
  obtain ⟨e0, e1, -, -⟩ := blockIndex_zero t
  funext j
  show V m c main_arg0 (((cfg0.win 0).blk t).view.emb j) = V m c main_arg0 j
  refine congrArg (V m c main_arg0) ?_
  funext a; apply Fin.ext
  match a with
  | ⟨0, _⟩ => show win0_0.index t (0 : Fin 2) * 8192 + 1 * (j 0).val = (j 0).val; omega
  | ⟨1, _⟩ => show win0_0.index t (1 : Fin 2) * 64 + 1 * (j 1).val = (j 1).val; omega

/-- What a point writes back to the output array is the block, at that point, of ONE 1 × 1 array: the body's value of the
    whole input. The body stores once, through the rectangle that is the whole buffer, what it computed from a load of
    the whole input buffer; so the buffer ends at that payload, and the payload is taken at the whole input. -/
private theorem written_eq (c : Dev nD) (t : Fin cfg0.N) :
    (dats m 0 c).flushed 1 t = ((cfg0.win 1).blk t).view.read (Elt F) (k0_pay1 (m ((c.tc : Thread nD τ).loc main_arg0))) := by
  show (cfg0.win 1).cut (grid0.coords t) ((dats m 0 c).after 1 t) = _
  rw [after0_1]
  unfold out0_1
  rw [View.canon_unit_zero zeroOffsets]
  simp only [View.ld_unit_zero (S := S8192x64) zeroOffsets]
  rw [inputBlock_eq]
  obtain ⟨-, -, e0, e1⟩ := blockIndex_zero t
  funext j
  show k0_pay1 (m ((c.tc : Thread nD τ).loc main_arg0)) j = k0_pay1 (m ((c.tc : Thread nD τ).loc main_arg0)) (((cfg0.win 1).blk t).view.emb j)
  refine congrArg (k0_pay1 (m ((c.tc : Thread nD τ).loc main_arg0))) ?_
  funext a; apply Fin.ext
  match a with
  | ⟨0, _⟩ => show (j 0).val = win0_1.index t (0 : Fin 2) * 1 + 1 * (j 0).val; omega
  | ⟨1, _⟩ => show (j 1).val = win0_1.index t (1 : Fin 2) * 1 + 1 * (j 1).val; omega

/-- A position of the output array lies in a point's block exactly when each coordinate lies in the block's range. -/
private theorem mem_outBlock (t : Fin cfg0.N) (i : S1x1.Idx) :
    i ∈ ((cfg0.win 1).blk t).view.set ↔ ∀ a : Fin 2, win0_1.index t a * S1x1.size a ≤ (i a).val ∧ (i a).val < win0_1.index t a * S1x1.size a + S1x1.size a := by
  show i ∈ ((View.whole main_v0).slice (win0_1.rect t)).set ↔ _
  rw [View.set_slice_whole, Rect.mem_set_unit]
  exact Iff.rfl

/-- The one point's block covers the output array: each coordinate of a 1 × 1 array is `0`, and the block is `[0, 1)`
    on each axis. -/
private theorem outBlock_covers (i : S1x1.Idx) :
    ∃ t : Fin cfg0.N, (cfg0.win 1).flush t = true ∧ i ∈ ((cfg0.win 1).blk t).view.set := by
  refine ⟨t0_0, flush0_1 t0_0, ?_⟩
  obtain ⟨-, -, e0, e1⟩ := blockIndex_zero t0_0
  rw [mem_outBlock]
  intro a
  match a with
  | ⟨0, _⟩ => show win0_1.index t0_0 (0 : Fin 2) * 1 ≤ (i 0).val ∧ (i 0).val < win0_1.index t0_0 (0 : Fin 2) * 1 + 1; have h : (i 0).val < 1 := (i 0).isLt; omega
  | ⟨1, _⟩ => show win0_1.index t0_0 (1 : Fin 2) * 1 ≤ (i 1).val ∧ (i 1).val < win0_1.index t0_0 (1 : Fin 2) * 1 + 1; have h : (i 1).val < 1 := (i 1).isLt; omega

/-- So after the region the output array IS the body's value of the whole input. -/
private theorem outArray_eq (c : Dev nD) : (dats m 0 c).arrAt 1 cfg0.N = k0_pay1 (m ((c.tc : Thread nD τ).loc main_arg0)) :=
  (dats m 0 c).arrAt_eq_of_cover 1 _ (fun t _ => written_eq m c t) outBlock_covers

/-- The scalar result after the trailing reshape: the reshape reads the output array as the region left it, and its one
    rank-0 position has row-major position `0`, the position of entry `(0, 0)` of the 1 × 1 array. -/
private theorem scalar_eq (c : Dev nD) :
    Pipeline.afterTail₀ cfgs (dats m) 0 (V0 m) [hostOps1] c main_v1
      = (fun _ => k0_pay1 (m ((c.tc : Thread nD τ).loc main_arg0)) (ix2 (0 : Fin 1) (0 : Fin 1))) := by
  unfold Pipeline.afterTail₀
  show StableHlo.after hostOps1 _ (Proc.devRef .tc main_v1) = _
  after_results
  have e := (Pipeline.withArrays_arr spec0 launch0.win.arr_inj c (V0 m c) (fun w => (dats m 0 c).arrAt w cfg0.N) 1).trans (outArray_eq m c)
  funext i
  show shapeCast S_ (Pipeline.withArrays spec0 c (V0 m c) (fun w => (dats m 0 c).arrAt w cfg0.N) (Proc.devRef .tc main_v0)) shapeCasts_S1x1_S_ i = _
  rw [e]
  refine shapeCast_apply _ _ i (ix2 (0 : Fin 1) (0 : Fin 1)) ?_
  rw [Shape.rowMajor_val_two]
  show _ = (Shape.rowMajorPi _ i).val
  rw [Shape.rowMajorPi_zero]
  rfl

end Blocks

/-- On the one device, from any memory with zero counters: every weakly fair execution of the kernel's program
    terminates with its scalar result at the body's one stored number, computed from the input, and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
        = (fun _ => k0_pay1 (m ((c.tc : Thread nD τ).loc main_arg0)) (ix2 (0 : Fin 1) (0 : Fin 1)))
      ∧ r.2.mem ((c.tc : Thread nD τ).loc main_arg0) = m ((c.tc : Thread nD τ).loc main_arg0) :=
  -- The scalar buffer is no window's array and is never scoped, so it ends as the trailing reshape leaves it; the input
  -- is a window that is only ever fetched, so it ends as it started.
  (θ_run defs _ _).mono (fun r h c => ⟨((h c).2 main_v1 (Pipeline.mem_restRefs_of main_v1 rfl (by decide))).trans (scalar_eq m c),
      ((h c).1 0).trans (((dats m 0 c).arrAt_in 0 rfl _).trans ((A_eq m c 0).trans (V_main_arg0 m c)))⟩)
    (run_main m ρ)

end Cert.KernelIdeal.Value

end
-- ==== Proof.Spec.lean ====
/-
  The common value of the two programs, over the real numbers.

  The input is an 8192 × 64 array `x` of finite numbers. A position `(r, c)` is SELECTED when `x r c` exceeds the
  threshold; because `c < 64 ≤ 8192`, the column index of a selected position is also read as a ROW index. Each selected
  position contributes the squared distance of the channel vector `(x r j + x c j) / 64` from the all-ones vector,
  `∑ j, (1 - (x r j + x c j) / 64) ^ 2`, and `total` is the sum of the contributions. Both programs return a fixed
  multiple of the square root of `total`.
-/
import Idealize.ShloMosaic.PureOps.Ideal
import Idealize.ShloMosaic.Lib.ValueIdx

noncomputable section

namespace Cert.Spec

open Idealize.ShloMosaic Idealize.ShloMosaic.ValueIdx
open scoped BigOperators

/-- The input's shape: 8192 rows of 64 channels. -/
abbrev SX : Shape := ⟨2, ![8192, 64]⟩

/-- The threshold, as the extended real its f32 word denotes. -/
def thr : EReal := Ideal.ofBits .f32 0x37FBA882#32

/-- A column index read as a row index (64 ≤ 8192). -/
abbrev rowOf (c : Fin 64) : Fin 8192 := ⟨c.val, by have := c.isLt; omega⟩

/-- The contribution of position `(r, c)`: the squared distance from the all-ones vector of the mean of rows `r` and `c`
    scaled by 2/64, channel by channel. -/
def pairTerm (x : SX.Idx → ℝ) (r : Fin 8192) (c : Fin 64) : ℝ :=
  ∑ j : Fin 64, (1 - (x (ix2 r j) + x (ix2 (rowOf c) j)) / 64) ^ 2

/-- Position `(r, c)` is selected: its entry exceeds the threshold. -/
def sel (x : SX.Idx → ℝ) (r : Fin 8192) (c : Fin 64) : Prop := thr < ((x (ix2 r c) : ℝ) : EReal)

instance (x : SX.Idx → ℝ) (r : Fin 8192) (c : Fin 64) : Decidable (sel x r c) := Classical.dec _

/-- The sum of the contributions of the selected positions. -/
def total (x : SX.Idx → ℝ) : ℝ :=
  ∑ r : Fin 8192, ∑ c : Fin 64, if sel x r c then pairTerm x r c else 0

end Cert.Spec

end
-- ==== Proof.KernelAlgebra.lean ====
/-
  The expanded square.

  For a real array `x` write `S r = ∑ j, x r j`, `Q r = ∑ j, (x r j)²` and `G r c = ∑ j, x r j · x c j` (row `r` against row
  `c`, a column index read as a row index). Then
    `∑ j, (1 - (x r j + x c j) / 64)² = (64 - S r / 32 + Q r / 4096) + (Q c / 4096 - S c / 32) + G r c / 2048`:
  the square expands to `1 - (a + b) / 32 + (a² + 2ab + b²) / 4096`, and the sum of 64 ones is 64.
-/
import proofs.«162556_g44856638440002_cont_sun_c4_349_4_alg».proof.Proof.Spec
import Mathlib.Algebra.BigOperators.Ring.Finset
import Mathlib.Tactic.Ring
import Mathlib.Tactic.Linarith

noncomputable section

namespace Cert.KernelAlgebra

open Idealize.ShloMosaic Idealize.ShloMosaic.ValueIdx Cert.Spec
open scoped BigOperators

/-- The sum of row `r`. -/
def rowSum (x : SX.Idx → ℝ) (r : Fin 8192) : ℝ := ∑ j : Fin 64, x (ix2 r j)

/-- The sum of the squares of row `r`. -/
def rowSq (x : SX.Idx → ℝ) (r : Fin 8192) : ℝ := ∑ j : Fin 64, x (ix2 r j) * x (ix2 r j)

/-- The inner product of row `r` with the row a column index `c` names. -/
def gram (x : SX.Idx → ℝ) (r : Fin 8192) (c : Fin 64) : ℝ := ∑ j : Fin 64, x (ix2 r j) * x (ix2 (rowOf c) j)

/-- What the kernel adds for position `(r, c)`: a term of row `r`, a term of row `c`, and the cross term, with the
    kernel's own grouping and its constants `1/32`, `1/4096`, `1/2048`. -/
def contrib (x : SX.Idx → ℝ) (r : Fin 8192) (c : Fin 64) : ℝ :=
  ((64 - rowSum x r * (1 / 32) + rowSq x r * (1 / 4096))
      + (rowSq x (rowOf c) * (1 / 4096) - rowSum x (rowOf c) * (1 / 32)))
    + gram x r c * (1 / 2048)

/-- The kernel's total: its term over the selected positions. -/
def totalK (x : SX.Idx → ℝ) : ℝ :=
  ∑ r : Fin 8192, ∑ c : Fin 64, if sel x r c then contrib x r c else 0

/-- The expansion for two arbitrary families of 64 reals: each square is
    `1 - a/32 - b/32 + a²/4096 + b²/4096 + ab/2048`, the sum splits term by term, the constants come out of the sums,
    and the 64 ones add up to 64. -/
private theorem expand_sum (a b : Fin 64 → ℝ) :
    ∑ j : Fin 64, (1 - (a j + b j) / 64) ^ 2
      = ((64 - (∑ j : Fin 64, a j) * (1 / 32) + (∑ j : Fin 64, a j * a j) * (1 / 4096))
          + ((∑ j : Fin 64, b j * b j) * (1 / 4096) - (∑ j : Fin 64, b j) * (1 / 32)))
        + (∑ j : Fin 64, a j * b j) * (1 / 2048) := by
  have hterm : ∀ j : Fin 64, (1 - (a j + b j) / 64) ^ 2
      = 1 - a j * (1 / 32) - b j * (1 / 32) + (a j * a j) * (1 / 4096) + (b j * b j) * (1 / 4096)
        + (a j * b j) * (1 / 2048) := by
    intro j
    ring
  have hone : ∑ _j : Fin 64, (1 : ℝ) = 64 := by
    rw [Finset.sum_const, Finset.card_univ, Fintype.card_fin, nsmul_eq_mul, mul_one]
    norm_cast
  rw [Finset.sum_congr rfl (fun j _ => hterm j)]
  rw [Finset.sum_add_distrib, Finset.sum_add_distrib, Finset.sum_add_distrib, Finset.sum_sub_distrib,
    Finset.sum_sub_distrib, hone, ← Finset.sum_mul, ← Finset.sum_mul, ← Finset.sum_mul, ← Finset.sum_mul,
    ← Finset.sum_mul]
  ring

/-- The expanded square is the square. -/
theorem contrib_eq (x : SX.Idx → ℝ) (r : Fin 8192) (c : Fin 64) : contrib x r c = pairTerm x r c := by
  unfold contrib pairTerm rowSum rowSq gram
  exact (expand_sum (fun j => x (ix2 r j)) (fun j => x (ix2 (rowOf c) j))).symm

/-- So the two totals agree. -/
theorem totalK_eq (x : SX.Idx → ℝ) : totalK x = total x := by
  unfold totalK total
  refine Finset.sum_congr rfl (fun r _ => ?_)
  refine Finset.sum_congr rfl (fun c _ => ?_)
  rw [contrib_eq]

end Cert.KernelAlgebra

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.KernelValue.lean ====
/-
  The kernel body's number for a real input: `(0.01 / 64) · √total`.

  With `S r`, `Q r` the sum and the sum of squares of row `r` and `G r c` the inner product of rows `r` and `c`, the
  body adds, over the selected positions, `(64 - S r / 32 + Q r / 4096) + (Q c / 4096 - S c / 32) + G r c / 2048`.
  Expanding the square, `∑ j, (1 - (a j + b j) / 64)² = 64 - (∑ a + ∑ b) / 32 + (∑ a² + ∑ b² + 2 ∑ a b) / 4096`, which is
  that expression; over the real numbers this is plain algebra.
-/
import proofs.«162556_g44856638440002_cont_sun_c4_349_4_alg».proof.Proof.Gen.KernelIdeal.Skeleton
import proofs.«162556_g44856638440002_cont_sun_c4_349_4_alg».proof.Proof.Spec
import proofs.«162556_g44856638440002_cont_sun_c4_349_4_alg».proof.Proof.KernelAlgebra
import proofs.«162556_g44856638440002_cont_sun_c4_349_4_alg».proof.Proof.LibRealSums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Idealize.ShloMosaic Idealize.ShloMosaic.ValueIdx Cert.KernelIdeal Cert.KernelIdeal.Gen

/-! ## Layout and reduction operations read at coordinates -/

/-- The first 64 rows of the array, read at `(c, j)`: row `c` of the array itself. -/
private theorem slice_at (x : FVec Ideal S8192x64 .f32) (c j : Fin 64) :
    extractStridedSlice S64x64 ![0, 0] x slices_S8192x64_o0_0_S64x64 (ix2 c j) = x (ix2 (Cert.Spec.rowOf c) j) :=
  slice2_axis0_apply 0 x slices_S8192x64_o0_0_S64x64 c j (Cert.Spec.rowOf c) (Nat.zero_add _).symm

/-- A sum along the rows of the 8192 × 64 array, read at row `r`: the sum over the 64 columns. -/
private theorem rowred_at (v : FVec Ideal S8192x64 .f32) (hφ : FKind.Formats .f32)
    (hacc : (0x00000000#32 : BitVec 32) = 0x00000000#32) (r : Fin 8192) :
    multiReduction (F := Ideal) .add [1] S8192 v 0x00000000#32 reduces_S8192x64_S8192 hφ hacc (ix1 r)
      = ∑ j : Fin 64, v (ix2 r j) := by
  refine (Ideal.multiReduction_add_single v 0x00000000#32 reduces_S8192x64_S8192 hφ hacc (ix1 r)).trans ?_
  refine Finset.sum_congr rfl fun k _ => congrArg v (funext fun a => Fin.ext ?_)
  match a with
  | ⟨0, _⟩ => rfl
  | ⟨1, _⟩ => rfl

/-- The same for the 64 × 64 array. -/
private theorem rowred64_at (v : FVec Ideal S64x64 .f32) (hφ : FKind.Formats .f32)
    (hacc : (0x00000000#32 : BitVec 32) = 0x00000000#32) (c : Fin 64) :
    multiReduction (F := Ideal) .add [1] S64 v 0x00000000#32 reduces_S64x64_S64 hφ hacc (ix1 c)
      = ∑ j : Fin 64, v (ix2 c j) := by
  refine (Ideal.multiReduction_add_single v 0x00000000#32 reduces_S64x64_S64 hφ hacc (ix1 c)).trans ?_
  refine Finset.sum_congr rfl fun k _ => congrArg v (funext fun a => Fin.ext ?_)
  match a with
  | ⟨0, _⟩ => rfl
  | ⟨1, _⟩ => rfl

/-- A vector `[a]` viewed as a column `[a, 1]` reads, at `(i, u)`, the vector at `i`: the two row-major positions
    are `i` and `i · 1 + 0`. -/
private theorem cast_col_at {a : ℕ} {α : Type} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A column `[a, 1]` repeated along `b` columns reads, at `(p, c)`, the column at `p`. -/
private theorem bcast_col_at {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product's operand indices, axis by axis: the left operand is read at (output row, contraction position),
the right one at (output column, contraction position). -/

private theorem lhs_ax0 (j : S8192x64.Idx) (k : dot_S8192x64_S64x64_S8192x64_1_1_0_0_n_n.contr.Idx) :
    (dot_S8192x64_S64x64_S8192x64_1_1_0_0_n_n.lhsIdx j k 0).val = (j 0).val := rfl
private theorem lhs_ax1 (j : S8192x64.Idx) (k : dot_S8192x64_S64x64_S8192x64_1_1_0_0_n_n.contr.Idx) :
    (dot_S8192x64_S64x64_S8192x64_1_1_0_0_n_n.lhsIdx j k 1).val = (k ⟨0, by decide⟩).val := rfl
private theorem rhs_ax0 (j : S8192x64.Idx) (k : dot_S8192x64_S64x64_S8192x64_1_1_0_0_n_n.contr.Idx) :
    (dot_S8192x64_S64x64_S8192x64_1_1_0_0_n_n.rhsIdx j k 0).val = (j 1).val := rfl
private theorem rhs_ax1 (j : S8192x64.Idx) (k : dot_S8192x64_S64x64_S8192x64_1_1_0_0_n_n.contr.Idx) :
    (dot_S8192x64_S64x64_S8192x64_1_1_0_0_n_n.rhsIdx j k 1).val = (k ⟨0, by decide⟩).val := rfl

/-- The product into a zero accumulator, read at `(r, c)`: the inner product of row `r` of the left operand with row
    `c` of the right one (both operands contract their second axis). The contraction index is its one coordinate. -/
private theorem gram_at (x : FVec Ideal S8192x64 .f32) (w : FVec Ideal S64x64 .f32) (r : Fin 8192) (c : Fin 64) :
    matmul (F := Ideal) dot_S8192x64_S64x64_S8192x64_1_1_0_0_n_n none x w (constant S8192x64 .f32 0x00000000#32) (ix2 r c)
      = ∑ j : Fin 64, x (ix2 r j) * w (ix2 c j) := by
  refine (Ideal.matmul_constant_zero_apply dot_S8192x64_S64x64_S8192x64_1_1_0_0_n_n none x w (ix2 r c)).trans ?_
  refine (Equiv.sum_comp (contrEquiv1 dot_S8192x64_S64x64_S8192x64_1_1_0_0_n_n 64 rfl rfl).symm _).symm.trans ?_
  refine Finset.sum_congr rfl fun i _ => ?_
  have hk := contrEquiv1_symm_val dot_S8192x64_S64x64_S8192x64_1_1_0_0_n_n 64 rfl rfl i
  congr 1
  · refine congrArg x (funext fun a => Fin.ext ?_)
    match a with
    | ⟨0, _⟩ => exact lhs_ax0 _ _
    | ⟨1, _⟩ => exact (lhs_ax1 _ _).trans hk
  · refine congrArg w (funext fun a => Fin.ext ?_)
    match a with
    | ⟨0, _⟩ => exact rhs_ax0 _ _
    | ⟨1, _⟩ => exact (rhs_ax1 _ _).trans hk

/-- A rank-3 index set is the product of its three coordinate ranges … -/
private def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of the 1 × 8192 × 64 array over its last two axes, read at its one index: the double sum over rows and
    columns (the result's one axis has extent one, so every index of the array is summed). -/
private theorem total_at (v : FVec Ideal S1x8192x64 .f32) (hφ : FKind.Formats .f32)
    (hacc : (0x00000000#32 : BitVec 32) = 0x00000000#32) (u : Fin 1) :
    multiReduction (F := Ideal) .add [1, 2] S1 v 0x00000000#32 reduces_S1x8192x64_S1 hφ hacc (ix1 u)
      = ∑ r : Fin 8192, ∑ c : Fin 64, v (ix3 (0 : Fin 1) r c) := by
  refine (Ideal.multiReduction_add_total v 0x00000000#32 reduces_S1x8192x64_S1
    (fun b => match b with | ⟨0, _⟩ => rfl) hφ hacc (ix1 u)).trans ?_
  rw [sum_idx3, Fin.sum_univ_one]

/-- A one-element vector viewed as a 1 × 1 × 1 array reads its one element: every coordinate is zero. -/
private theorem cast111_at {α : Type} (v : S1.Idx → α) (h : S1.ShapeCasts S1x1x1) (p : S1x1x1.Idx) :
    shapeCast S1x1x1 v h p = v (ix1 (0 : Fin 1)) :=
  shapeCast_apply v h _ _ (by
    rw [Shape.rowMajor_val_three, Shape.rowMajor_val_one]
    have h0 : (p 0).val < 1 := (p 0).isLt
    have h1 : (p 1).val < 1 := (p 1).isLt
    have h2 : (p 2).val < 1 := (p 2).isLt
    show (0 : ℕ) = ((p 0).val * 1 + (p 1).val) * 1 + (p 2).val
    omega)

/-! ## The constants and the comparison -/

private theorem c64 : Ideal.ofBits .f32 0x42800000#32 = ((64 : ℝ) : EReal) := by
  simp [Ideal.ofBits, Ideal.ieee]
  norm_num
  rw [← EReal.coe_mul, EReal.coe_eq_coe_iff]
  norm_num

private theorem c32 : Ideal.ofBits .f32 0x3D000000#32 = ((1 / 32 : ℝ) : EReal) := by
  simp [Ideal.ofBits, Ideal.ieee]
  norm_num
  rw [← EReal.coe_mul, EReal.coe_eq_coe_iff]
  norm_num

private theorem c4096 : Ideal.ofBits .f32 0x39800000#32 = ((1 / 4096 : ℝ) : EReal) := by
  simp [Ideal.ofBits, Ideal.ieee]
  norm_num
  rw [← EReal.coe_mul, EReal.coe_eq_coe_iff]
  norm_num

private theorem c2048 : Ideal.ofBits .f32 0x3A000000#32 = ((1 / 2048 : ℝ) : EReal) := by
  simp [Ideal.ofBits, Ideal.ieee]
  norm_num
  rw [← EReal.coe_mul, EReal.coe_eq_coe_iff]
  norm_num

/-- A select on "`a` exceeds `b`" is the `if` on `b < a`. -/
private theorem select_ogt (a b p q : EReal) :
    Scalar.select (Ideal.cmp .ogt a b) p q = if b < a then p else q := by
  unfold Scalar.select Ideal.cmp
  by_cases h : b < a <;> simp [h]

/-! ## The body's stages, named -/

/-- The first 64 rows. -/
private def xh (x : FVec Ideal S8192x64 .f32) : FVec Ideal S64x64 .f32 :=
  extractStridedSlice S64x64 ![0, 0] x slices_S8192x64_o0_0_S64x64

/-- The term of row `r`, as a column: `(64 - S r · (1/32)) + Q r · (1/4096)`. -/
private def rowT (x : FVec Ideal S8192x64 .f32) : FVec Ideal S8192x1 .f32 :=
  addf
    (subf (broadcast S8192x1 (Scalar.ofBits (F := Ideal) .f32 0x42800000#32))
      (mulf
        (shapeCast S8192x1 (multiReduction (F := Ideal) .add [1] S8192 x 0x00000000#32 reduces_S8192x64_S8192 (.inl rfl) rfl)
          shapeCasts_S8192_S8192x1)
        (broadcast S8192x1 (Scalar.ofBits (F := Ideal) .f32 0x3D000000#32))))
    (mulf
      (shapeCast S8192x1
        (multiReduction (F := Ideal) .add [1] S8192 (mulf x x) 0x00000000#32 reduces_S8192x64_S8192 (.inl rfl) rfl)
        shapeCasts_S8192_S8192x1)
      (broadcast S8192x1 (Scalar.ofBits (F := Ideal) .f32 0x39800000#32)))

/-- The term of column index `c`: `Q c · (1/4096) - S c · (1/32)`, over the first 64 rows. -/
private def colT (x : FVec Ideal S8192x64 .f32) : FVec Ideal S64 .f32 :=
  subf
    (mulf
      (multiReduction (F := Ideal) .add [1] S64 (mulf (xh x) (xh x)) 0x00000000#32 reduces_S64x64_S64 (.inl rfl) rfl)
      (broadcast S64 (Scalar.ofBits (F := Ideal) .f32 0x39800000#32)))
    (mulf
      (multiReduction (F := Ideal) .add [1] S64 (xh x) 0x00000000#32 reduces_S64x64_S64 (.inl rfl) rfl)
      (broadcast S64 (Scalar.ofBits (F := Ideal) .f32 0x3D000000#32)))

/-- The term of position `(r, c)`: the row term, the column term and the scaled inner product. -/
private def posT (x : FVec Ideal S8192x64 .f32) : FVec Ideal S8192x64 .f32 :=
  addf
    (addf (broadcastTo S8192x64 (rowT x) broadcasts_S8192x1_S8192x64)
      (broadcastTo S8192x64 (shapeCast S1x64 (colT x) shapeCasts_S64_S1x64) broadcasts_S1x64_S8192x64))
    (mulf
      (matmul (F := Ideal) dot_S8192x64_S64x64_S8192x64_1_1_0_0_n_n none x (xh x) (constant S8192x64 .f32 0x00000000#32))
      (broadcast S8192x64 (Scalar.ofBits (F := Ideal) .f32 0x3A000000#32)))

/-- The term kept where the entry exceeds the threshold, zero elsewhere. -/
private def selT (x : FVec Ideal S8192x64 .f32) : FVec Ideal S8192x64 .f32 :=
  select (cmpf .ogt x (broadcast S8192x64 (Scalar.ofBits (F := Ideal) .f32 0x37FBA882#32))) (posT x)
    (broadcast S8192x64 (Scalar.ofBits (F := Ideal) .f32 0x00000000#32))

/-- The body's value is the constant times the root of the sum of the kept terms over all positions. -/
private theorem pay_unfold (x : FVec Ideal S8192x64 .f32) :
    k0_pay1 (F := Ideal) x
      = mulf (broadcast S1x1 (Scalar.ofBits (F := Ideal) .f32 0x3923D70A#32))
          (sqrt (broadcast S1x1
            (extractAt ![0, 0, 0]
              (shapeCast S1x1x1
                (multiReduction (F := Ideal) .add [1, 2] S1 (shapeCast S1x8192x64 (selT x) shapeCasts_S8192x64_S1x8192x64)
                  0x00000000#32 reduces_S1x8192x64_S1 (.inl rfl) rfl)
                shapeCasts_S1_S1x1x1)
              inpos_S1x1x1_p0_0_0))) := rfl

/-! ## Each stage read at coordinates -/

private theorem xh_at (x : FVec Ideal S8192x64 .f32) (c j : Fin 64) :
    xh x (ix2 c j) = x (ix2 (Cert.Spec.rowOf c) j) := slice_at x c j

private theorem rowT_at (x : FVec Ideal S8192x64 .f32) (r : Fin 8192) (u : Fin 1) :
    rowT x (ix2 r u)
      = (Ideal.ofBits .f32 0x42800000#32 - (∑ j : Fin 64, x (ix2 r j)) * Ideal.ofBits .f32 0x3D000000#32)
        + (∑ j : Fin 64, x (ix2 r j) * x (ix2 r j)) * Ideal.ofBits .f32 0x39800000#32 := by
  unfold rowT
  rw [addf_apply, subf_apply, mulf_apply, mulf_apply, cast_col_at, cast_col_at, rowred_at, rowred_at]
  rfl

private theorem colT_at (x : FVec Ideal S8192x64 .f32) (c : Fin 64) :
    colT x (ix1 c)
      = (∑ j : Fin 64, x (ix2 (Cert.Spec.rowOf c) j) * x (ix2 (Cert.Spec.rowOf c) j)) * Ideal.ofBits .f32 0x39800000#32
        - (∑ j : Fin 64, x (ix2 (Cert.Spec.rowOf c) j)) * Ideal.ofBits .f32 0x3D000000#32 := by
  unfold colT
  rw [subf_apply, mulf_apply, mulf_apply, rowred64_at, rowred64_at]
  simp only [mulf_apply, xh_at]
  rfl

private theorem posT_at (x : FVec Ideal S8192x64 .f32) (r : Fin 8192) (c : Fin 64) :
    posT x (ix2 r c)
      = (rowT x (ix2 r (0 : Fin 1)) + colT x (ix1 c))
        + (∑ j : Fin 64, x (ix2 r j) * x (ix2 (Cert.Spec.rowOf c) j)) * Ideal.ofBits .f32 0x3A000000#32 := by
  unfold posT
  rw [addf_apply, addf_apply, mulf_apply, bcast_col_at, broadcastTo_1b_ab_apply, shapeCast_a_1a_apply, gram_at]
  simp only [xh_at]
  rfl

private theorem selT_at (x : FVec Ideal S8192x64 .f32) (r : Fin 8192) (c : Fin 64) :
    selT x (ix2 r c)
      = Scalar.select (Ideal.cmp .ogt (x (ix2 r c)) (Ideal.ofBits .f32 0x37FBA882#32)) (posT x (ix2 r c)) 0 := by
  show Scalar.select (Ideal.cmp .ogt (x (ix2 r c)) (Ideal.ofBits .f32 0x37FBA882#32)) (posT x (ix2 r c))
    (Ideal.ofBits .f32 0x00000000#32) = _
  rw [Ideal.ofBits_zero_f32]

/-- The tail of the body: the one element of the total, its root, and the constant factor. -/
private theorem tail_at (T : FVec Ideal S1 .f32) (w : BitVec 32) :
    mulf (broadcast S1x1 (Scalar.ofBits (F := Ideal) .f32 w))
        (sqrt (broadcast S1x1
          (extractAt ![0, 0, 0] (shapeCast S1x1x1 T shapeCasts_S1_S1x1x1) inpos_S1x1x1_p0_0_0)))
        (ix2 (0 : Fin 1) (0 : Fin 1))
      = Ideal.ofBits .f32 w * Ideal.sqrt (T (ix1 (0 : Fin 1))) := by
  show Ideal.ofBits .f32 w * Ideal.sqrt (shapeCast S1x1x1 T shapeCasts_S1_S1x1x1 _) = _
  rw [cast111_at]

/-! ## At a real input every stage is a real number -/

/-- A sum of 64 reals, term by term in the extended reals. -/
private theorem coe_sum64 (f : Fin 64 → ℝ) :
    ∑ j : Fin 64, ((f j : ℝ) : EReal) = ((∑ j : Fin 64, f j : ℝ) : EReal) :=
  (Idealize.ShloMosaic.RealSums.coe_sum _ _).symm

/-- A sum of 64 products of reals likewise. -/
private theorem coe_sum64_mul (f g : Fin 64 → ℝ) :
    ∑ j : Fin 64, ((f j : ℝ) : EReal) * ((g j : ℝ) : EReal) = ((∑ j : Fin 64, f j * g j : ℝ) : EReal) := by
  rw [Idealize.ShloMosaic.RealSums.coe_sum]
  exact Finset.sum_congr rfl fun j _ => (EReal.coe_mul _ _).symm

private theorem rowT_real (xR : Cert.Spec.SX.Idx → ℝ) (r : Fin 8192) (u : Fin 1) :
    rowT (fun i => ((xR i : ℝ) : EReal)) (ix2 r u)
      = ((64 - Cert.KernelAlgebra.rowSum xR r * (1 / 32) + Cert.KernelAlgebra.rowSq xR r * (1 / 4096) : ℝ) : EReal) := by
  rw [rowT_at]
  beta_reduce
  rw [coe_sum64 (fun j => xR (ix2 r j)), coe_sum64_mul (fun j => xR (ix2 r j)) (fun j => xR (ix2 r j)), c64, c32, c4096,
    ← EReal.coe_mul, ← EReal.coe_sub, ← EReal.coe_mul, ← EReal.coe_add]
  rfl

private theorem colT_real (xR : Cert.Spec.SX.Idx → ℝ) (c : Fin 64) :
    colT (fun i => ((xR i : ℝ) : EReal)) (ix1 c)
      = ((Cert.KernelAlgebra.rowSq xR (Cert.Spec.rowOf c) * (1 / 4096)
          - Cert.KernelAlgebra.rowSum xR (Cert.Spec.rowOf c) * (1 / 32) : ℝ) : EReal) := by
  rw [colT_at]
  beta_reduce
  rw [coe_sum64 (fun j => xR (ix2 (Cert.Spec.rowOf c) j)),
    coe_sum64_mul (fun j => xR (ix2 (Cert.Spec.rowOf c) j)) (fun j => xR (ix2 (Cert.Spec.rowOf c) j)), c32, c4096,
    ← EReal.coe_mul, ← EReal.coe_mul, ← EReal.coe_sub]
  rfl

private theorem posT_real (xR : Cert.Spec.SX.Idx → ℝ) (r : Fin 8192) (c : Fin 64) :
    posT (fun i => ((xR i : ℝ) : EReal)) (ix2 r c) = ((Cert.KernelAlgebra.contrib xR r c : ℝ) : EReal) := by
  rw [posT_at, rowT_real, colT_real]
  beta_reduce
  rw [coe_sum64_mul (fun j => xR (ix2 r j)) (fun j => xR (ix2 (Cert.Spec.rowOf c) j)), c2048,
    ← EReal.coe_add, ← EReal.coe_mul, ← EReal.coe_add]
  rfl

private theorem selT_real (xR : Cert.Spec.SX.Idx → ℝ) (r : Fin 8192) (c : Fin 64) :
    selT (fun i => ((xR i : ℝ) : EReal)) (ix2 r c)
      = ((if Cert.Spec.sel xR r c then Cert.KernelAlgebra.contrib xR r c else 0 : ℝ) : EReal) := by
  rw [selT_at, select_ogt, posT_real]
  beta_reduce
  by_cases h : Cert.Spec.sel xR r c
  · rw [if_pos h, if_pos (show Ideal.ofBits .f32 0x37FBA882#32 < ((xR (ix2 r c) : ℝ) : EReal) from h)]
  · rw [if_neg h, if_neg (show ¬ Ideal.ofBits .f32 0x37FBA882#32 < ((xR (ix2 r c) : ℝ) : EReal) from h)]
    rfl

/-- The body's stored number at a real input, read operation by operation: the kernel's own total under the root. -/
theorem pay_read (xR : Cert.Spec.SX.Idx → ℝ) :
    k0_pay1 (F := Ideal) (fun i => ((xR i : ℝ) : EReal)) (ix2 (0 : Fin 1) (0 : Fin 1))
      = Ideal.ofBits .f32 0x3923D70A#32 * Ideal.sqrt ((Cert.KernelAlgebra.totalK xR : ℝ) : EReal) := by
  have hsum : ∑ r : Fin 8192, ∑ c : Fin 64,
      shapeCast S1x8192x64 (selT (fun i => ((xR i : ℝ) : EReal))) shapeCasts_S8192x64_S1x8192x64 (ix3 (0 : Fin 1) r c)
        = ((Cert.KernelAlgebra.totalK xR : ℝ) : EReal) := by
    unfold Cert.KernelAlgebra.totalK
    rw [Idealize.ShloMosaic.RealSums.coe_sum]
    refine Finset.sum_congr rfl fun r _ => ?_
    rw [Idealize.ShloMosaic.RealSums.coe_sum]
    refine Finset.sum_congr rfl fun c _ => ?_
    rw [shapeCast_ab_1ab_apply, selT_real]
  rw [pay_unfold, tail_at, total_at, hsum]

/-- The body's stored number at a real input. -/
theorem pay_eq (xR : Cert.Spec.SX.Idx → ℝ) :
    k0_pay1 (F := Ideal) (fun i => ((xR i : ℝ) : EReal)) (ix2 (0 : Fin 1) (0 : Fin 1))
      = Ideal.ofBits .f32 0x3923D70A#32 * Ideal.sqrt ((Cert.Spec.total xR : ℝ) : EReal) := by
  rw [pay_read, Cert.KernelAlgebra.totalK_eq]

end Cert.KernelIdeal.KValue

end
-- ==== Proof.RefTerm.lean ====
/-
  What the reference computes, as a chain of pure array functions of its one argument.

  From the input `x` (8192 × 64): the selection mask `x > threshold`; its flattened running count; the count of positions
  per running-count value; the running sum of those counts, which lists the flat positions of the selected entries in
  order; their row and column numbers by floor division and remainder; past the number of selected entries, zeros;
  the two rows of `x` each pair names, added channel by channel; `1 - sum / 64`, squared, kept only below the number of
  selected entries; the total; and `0.01 · (√total / 64)`.
  Each definition is one stage, written with the operations the reference applies, in its order.
-/
import proofs.«162556_g44856638440002_cont_sun_c4_349_4_alg».proof.ReferenceIdeal

noncomputable section

namespace Cert.ReferenceIdeal.Term

open Idealize.ShloMosaic Cert.ReferenceIdeal

variable {F : FTy → Type} [FloatOps F] [Facts]
open Facts₀ Facts

/-- A rank-0 integer spread over the flat positions. -/
abbrev spread (v : IVec S_ 32) : IVec S524288 32 := broadcastInDim S524288 ![] bcast_S_S524288 v

/-- The selection mask: `x` above the threshold, entry by entry. -/
def cond (x : FVec F S8192x64 .f32) : IVec S8192x64 1 :=
  cmpf .ogt x (broadcastInDim S8192x64 ![] bcast_S_S8192x64 (constant S_ .f32 0x37FBA882#32))

/-- The inclusive running sum of a flat integer array: a window of the array's length, padded low by one less. -/
def runSum (a : IVec S524288 32) : IVec S524288 32 :=
  Host.reduceWindow IntOp.addi ![524288] ![1] ![524287] ![0] a
    (broadcastInDim S_ ![] bcast_S_S_ (constantI S_ 32 0#32))
    reduceWindows_S524288_S524288_w524288s1p524287_0 h_S_

/-- The mask flattened row by row and widened to 0 / 1. -/
def maskFlat (x : FVec F S8192x64 .f32) : IVec S524288 32 :=
  extui 32 (shapeCast S524288 (cond x) shapeCasts_S8192x64_S524288) natLt_1_32

/-- The running count of selected entries. -/
def count1 (x : FVec F S8192x64 .f32) : IVec S524288 32 := runSum (maskFlat x)

/-- The running count clipped below at zero. -/
def clipped (x : FVec F S8192x64 .f32) : IVec S524288 32 :=
  maxsi (spread (id (constantI S_ 32 0#32))) (count1 x)

/-- The clipped running count with a negative value wrapped by the array's length: the position each entry adds to. -/
def binIdx (x : FVec F S8192x64 .f32) : IVec S524288 32 :=
  select (cmpi .slt (clipped x) (spread (constantI S_ 32 0#32)))
    (addi (clipped x) (spread (constantI S_ 32 524288#32))) (clipped x)

/-- How many entries have each running-count value: ones added into zeros at `binIdx`. -/
def bins (x : FVec F S8192x64 .f32) : IVec S524288 32 :=
  Host.scatter scatter_S524288_S524288x1_S524288_n_0_0_1 IntOp.addi (spread (constantI S_ 32 0#32))
    (broadcastInDim S524288x1 ![0] bcast_S524288_S524288x1_0 (binIdx x)) (spread (constantI S_ 32 1#32))

/-- The running sum of the bins: entry `k` is the flat position of the `k`-th selected entry. -/
def flatPos (x : FVec F S8192x64 .f32) : IVec S524288 32 := runSum (bins x)

/-- Floor division of a flat integer array by a rank-0 divisor: the truncating quotient, less one where the signs
    differ and the remainder is not zero. -/
def floorDiv (a : IVec S524288 32) (d : IVec S_ 32) : IVec S524288 32 :=
  select
    (andi (cmpi .ne (signi a) (spread (signi d)))
      (cmpi .ne (Host.remsi a (spread d)) (spread (constantI S_ 32 0#32))))
    (subi (Host.divsi a (spread d)) (spread (constantI S_ 32 1#32)))
    (Host.divsi a (spread d))

/-- The divisor a remainder is taken by: one in place of zero. -/
def safeDiv (d : IVec S_ 32) : IVec S_ 32 :=
  select (cmpi .eq (id d) (constantI S_ 32 0#32)) (constantI S_ 32 1#32) (id d)

/-- The remainder with the divisor's sign: the truncating remainder, plus the divisor where it is not zero and its sign
    differs from the divisor's. -/
def floorRem (a : IVec S524288 32) (d : IVec S_ 32) : IVec S524288 32 :=
  select
    (andi
      (cmpi .ne (cmpi .slt (Host.remsi a (spread (safeDiv d))) (spread (constantI S_ 32 0#32)))
        (broadcastInDim S524288 ![] bcast_S_S524288 (cmpi .slt (safeDiv d) (constantI S_ 32 0#32))))
      (cmpi .ne (Host.remsi a (spread (safeDiv d))) (spread (constantI S_ 32 0#32))))
    (addi (Host.remsi a (spread (safeDiv d))) (spread (safeDiv d)))
    (Host.remsi a (spread (safeDiv d)))

/-- The row number of each listed position: `(position div 64) mod 8192`. -/
def rows0 (x : FVec F S8192x64 .f32) : IVec S524288 32 :=
  floorRem (floorDiv (flatPos x) (constantI S_ 32 64#32)) (constantI S_ 32 8192#32)

/-- The column number of each listed position: `(position div 1) mod 64`. -/
def cols0 (x : FVec F S8192x64 .f32) : IVec S524288 32 :=
  floorRem (floorDiv (flatPos x) (constantI S_ 32 1#32)) (constantI S_ 32 64#32)

/-- The number of selected entries. -/
def total (x : FVec F S8192x64 .f32) : IVec S_ 32 :=
  Host.reduce IntOp.addi (extui 32 (cond x) natLt_1_32) (constantI S_ 32 0#32) reducesTo_S8192x64_S_d0_1 h_S_

/-- List index `k` is at or past the number of selected entries. -/
def pastEnd (x : FVec F S8192x64 .f32) : IVec S524288 1 :=
  cmpi .sge (iotaInDim S524288 32 0) (spread (total x))

/-- The row numbers, zero past the end of the list. -/
def rows (x : FVec F S8192x64 .f32) : IVec S524288 32 :=
  select (pastEnd x) (spread (id (constantI S_ 32 0#32))) (rows0 x)

/-- The column numbers, zero past the end of the list. -/
def cols (x : FVec F S8192x64 .f32) : IVec S524288 32 :=
  select (pastEnd x) (spread (id (constantI S_ 32 0#32))) (cols0 x)

/-- Row and column number side by side: entry `(k, 0)` the row, `(k, 1)` the column. -/
def pairs (x : FVec F S8192x64 .f32) : IVec S524288x2 32 :=
  concatenate S524288x2 1
    [⟨S524288x1, broadcastInDim S524288x1 ![0] bcast_S524288_S524288x1_0 (rows x)⟩,
     ⟨S524288x1, broadcastInDim S524288x1 ![0] bcast_S524288_S524288x1_0 (cols x)⟩]
    concatenates_S524288x1_S524288x1_S524288x2_d1

/-- The pairs with a negative number wrapped by the number of rows: the row of `x` each reads. -/
def pairsWrapped (x : FVec F S8192x64 .f32) : IVec S524288x2 32 :=
  select (cmpi .slt (pairs x) (broadcastInDim S524288x2 ![] bcast_S_S524288x2 (constantI S_ 32 0#32)))
    (addi (pairs x) (broadcastInDim S524288x2 ![] bcast_S_S524288x2 (constantI S_ 32 8192#32))) (pairs x)

/-- The two rows of `x` each pair names. -/
def gathered (x : FVec F S8192x64 .f32) : FVec F S524288x2x64 .f32 :=
  Host.gather gather_S8192x64_S524288x2x1_S524288x2x64_2_0_n_n_0_2_164 x
    (broadcastInDim S524288x2x1 ![0, 1] bcast_S524288x2_S524288x2x1_0_1 (pairsWrapped x))

/-- The two rows added, channel by channel. -/
def pairSum (x : FVec F S8192x64 .f32) : FVec F S524288x64 .f32 :=
  Host.reduceAdd (gathered x) (constant S_ .f32 0x00000000#32) reducesTo_S524288x2x64_S524288x64_d1 h_S_

/-- `1 - sum / 64`. -/
def dist (x : FVec F S8192x64 .f32) : FVec F S524288x64 .f32 :=
  subf (broadcastInDim S524288x64 ![] bcast_S_S524288x64 (constant S_ .f32 0x3F800000#32))
    (Host.divf (pairSum x) (broadcastInDim S524288x64 ![] bcast_S_S524288x64 (constant S_ .f32 0x42800000#32)))

/-- List index `k` is below the number of selected entries. -/
def valid (x : FVec F S8192x64 .f32) : IVec S524288 1 :=
  cmpi .slt (iotaInDim S524288 32 0) (spread (total x))

/-- The squares, kept below the number of selected entries and zero past it. -/
def kept (x : FVec F S8192x64 .f32) : FVec F S524288x64 .f32 :=
  select
    (broadcastInDim S524288x64 ![0, 1] bcast_S524288x1_S524288x64_0_1
      (broadcastInDim S524288x1 ![0] bcast_S524288_S524288x1_0 (valid x)))
    (mulf (dist x) (dist x))
    (broadcastInDim S524288x64 ![] bcast_S_S524288x64 (id (constant S_ .f32 0x00000000#32)))

/-- The sum of the kept squares. -/
def sumSq (x : FVec F S8192x64 .f32) : FVec F S_ .f32 :=
  Host.reduceAdd (kept x) (constant S_ .f32 0x00000000#32) reducesTo_S524288x64_S_d0_1 h_S_

/-- The reference's result: `0.01 · (√(sum of squares) / 64)`. -/
def out (x : FVec F S8192x64 .f32) : FVec F S_ .f32 :=
  mulf (constant S_ .f32 0x3C23D70A#32)
    (Host.divf (Host.sqrt (sumSq x)) (constant S_ .f32 0x42800000#32))

end Cert.ReferenceIdeal.Term

end
-- ==== Proof.RefOps.lean ====
/-
  The reference's operations as one list: the program's statements in order, each outlined function's operations in place of
  its call, over that call's own buffers; and that every one of them touches buffers of the one device only.
-/
import proofs.«162556_g44856638440002_cont_sun_c4_349_4_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem
  Idealize.ShloMosaic.StableHlo

variable {F : FTy → Type} [FloatOps F]

/-- The reference's operations in program order, each outlined function's operations in place of its call, over that
    call's own buffers. -/
abbrev ops : List (HloOp τ sig (Elt F)) :=
  [ nullary main_cst (constant S_ .f32 0x37FBA882#32),
    unary main_cst main_v0 (broadcastInDim S8192x64 ![] bcast_S_S8192x64 : (⟨S_, .f32⟩ : BufTy).Contents (Elt F) → (⟨S8192x64, .f32⟩ : BufTy).Contents (Elt F)),
    binary main_arg0 main_v0 main_v1 (cmpf .ogt : (⟨S8192x64, .f32⟩ : BufTy).Contents (Elt F) → (⟨S8192x64, .f32⟩ : BufTy).Contents (Elt F) → (⟨S8192x64, .i1⟩ : BufTy).Contents (Elt F)),
    TRef.reshape (.of main_v1 : TRef sig ⟨S8192x64, .i1⟩) main_call0.v0 rfl shapeCasts_S8192x64_S524288,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![524288] ![1] ![524287] ![0] x v reduceWindows_S524288_S524288_w524288s1p524287_0 h_S_),
    nullary main_c (constantI S_ 32 0#32),
    unary main_c main_v3 (broadcastInDim S524288 ![] bcast_S_S524288 : (⟨S_, .i32⟩ : BufTy).Contents (Elt F) → (⟨S524288, .i32⟩ : BufTy).Contents (Elt F)),
    nullary main_c_0 (constantI S_ 32 0#32),
    TRef.unary (.of main_c_0 : TRef sig ⟨S_, .i32⟩) main_call1.v0 id,
    TRef.unary main_call1.v0 main_call1.v1 (broadcastInDim S524288 ![] bcast_S_S524288),
    TRef.binary main_call1.v1 (.of main_v2 : TRef sig ⟨S524288, .i32⟩) main_call1.v2 maxsi,
    nullary main_c_1 (constantI S_ 32 0#32),
    unary main_c_1 main_v5 (broadcastInDim S524288 ![] bcast_S_S524288 : (⟨S_, .i32⟩ : BufTy).Contents (Elt F) → (⟨S524288, .i32⟩ : BufTy).Contents (Elt F)),
    binary main_v4 main_v5 main_v6 (cmpi .slt : (⟨S524288, .i32⟩ : BufTy).Contents (Elt F) → (⟨S524288, .i32⟩ : BufTy).Contents (Elt F) → (⟨S524288, .i1⟩ : BufTy).Contents (Elt F)),
    nullary main_c_2 (constantI S_ 32 524288#32),
    unary main_c_2 main_v7 (broadcastInDim S524288 ![] bcast_S_S524288 : (⟨S_, .i32⟩ : BufTy).Contents (Elt F) → (⟨S524288, .i32⟩ : BufTy).Contents (Elt F)),
    binary main_v4 main_v7 main_v8 (addi : (⟨S524288, .i32⟩ : BufTy).Contents (Elt F) → (⟨S524288, .i32⟩ : BufTy).Contents (Elt F) → (⟨S524288, .i32⟩ : BufTy).Contents (Elt F)),
    ternary main_v6 main_v8 main_v4 main_v9 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v9 main_v10 (broadcastInDim S524288x1 ![0] bcast_S524288_S524288x1_0 : (⟨S524288, .i32⟩ : BufTy).Contents (Elt F) → (⟨S524288x1, .i32⟩ : BufTy).Contents (Elt F)),
    nullary main_c_3 (constantI S_ 32 1#32),
    unary main_c_3 main_v11 (broadcastInDim S524288 ![] bcast_S_S524288 : (⟨S_, .i32⟩ : BufTy).Contents (Elt F) → (⟨S524288, .i32⟩ : BufTy).Contents (Elt F)),
    ternary main_v3 main_v10 main_v11 main_v12 ((fun x i u => Host.scatter scatter_S524288_S524288x1_S524288_n_0_0_1 IntOp.addi x i u) : (⟨S524288, .i32⟩ : BufTy).Contents (Elt F) → (⟨S524288x1, .i32⟩ : BufTy).Contents (Elt F) → (⟨S524288, .i32⟩ : BufTy).Contents (Elt F) → (⟨S524288, .i32⟩ : BufTy).Contents (Elt F)),
    TRef.nullary main_call2.call0.c (constantI S_ 32 0#32),
    TRef.unary main_call2.call0.c main_call2.call0.v0 (broadcastInDim S_ ![] bcast_S_S_),
    TRef.binary (.of main_v12 : TRef sig ⟨S524288, .i32⟩) main_call2.call0.v0 main_call2.call0.v1 (fun x v => Host.reduceWindow IntOp.addi ![524288] ![1] ![524287] ![0] x v reduceWindows_S524288_S524288_w524288s1p524287_0 h_S_),
    nullary main_c_4 (constantI S_ 32 64#32),
    TRef.unary (.of main_c_4 : TRef sig ⟨S_, .i32⟩) main_call3.v0 (broadcastInDim S524288 ![] bcast_S_S524288),
    TRef.binary (.of main_v13 : TRef sig ⟨S524288, .i32⟩) main_call3.v0 main_call3.v1 Host.divsi,
    TRef.unary (.of main_v13 : TRef sig ⟨S524288, .i32⟩) main_call3.v2 signi,
    TRef.unary (.of main_c_4 : TRef sig ⟨S_, .i32⟩) main_call3.v3 signi,
    TRef.unary main_call3.v3 main_call3.v4 (broadcastInDim S524288 ![] bcast_S_S524288),
    TRef.binary main_call3.v2 main_call3.v4 main_call3.v5 (cmpi .ne),
    TRef.unary (.of main_c_4 : TRef sig ⟨S_, .i32⟩) main_call3.v6 (broadcastInDim S524288 ![] bcast_S_S524288),
    TRef.binary (.of main_v13 : TRef sig ⟨S524288, .i32⟩) main_call3.v6 main_call3.v7 Host.remsi,
    TRef.nullary main_call3.c (constantI S_ 32 0#32),
    TRef.unary main_call3.c main_call3.v8 (broadcastInDim S524288 ![] bcast_S_S524288),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S524288 ![] bcast_S_S524288),
    TRef.binary main_call3.v1 main_call3.v11 main_call3.v12 subi,
    TRef.ternary main_call3.v10 main_call3.v12 main_call3.v1 main_call3.call0.v0 select,
    nullary main_c_5 (constantI S_ 32 8192#32),
    TRef.unary (.of main_c_5 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S524288 ![] bcast_S_S524288),
    TRef.binary (.of main_v14 : TRef sig ⟨S524288, .i32⟩) main_call4.v3 main_call4.v4 Host.remsi,
    TRef.nullary main_call4.c_1 (constantI S_ 32 0#32),
    TRef.unary main_call4.c_1 main_call4.v5 (broadcastInDim S524288 ![] bcast_S_S524288),
    TRef.binary main_call4.v4 main_call4.v5 main_call4.v6 (cmpi .ne),
    TRef.nullary main_call4.c_2 (constantI S_ 32 0#32),
    TRef.unary main_call4.c_2 main_call4.v7 (broadcastInDim S524288 ![] bcast_S_S524288),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S524288 ![] bcast_S_S524288),
    TRef.binary main_call4.v8 main_call4.v10 main_call4.v11 (cmpi .ne),
    TRef.binary main_call4.v11 main_call4.v6 main_call4.v12 andi,
    TRef.unary main_call4.call0.v0 main_call4.v13 (broadcastInDim S524288 ![] bcast_S_S524288),
    TRef.binary main_call4.v4 main_call4.v13 main_call4.v14 addi,
    TRef.ternary main_call4.v12 main_call4.v14 main_call4.v4 main_call4.v15 select,
    nullary main_c_6 (constantI S_ 32 1#32),
    TRef.unary (.of main_c_6 : TRef sig ⟨S_, .i32⟩) main_call5.v0 (broadcastInDim S524288 ![] bcast_S_S524288),
    TRef.binary (.of main_v13 : TRef sig ⟨S524288, .i32⟩) main_call5.v0 main_call5.v1 Host.divsi,
    TRef.unary (.of main_v13 : TRef sig ⟨S524288, .i32⟩) main_call5.v2 signi,
    TRef.unary (.of main_c_6 : TRef sig ⟨S_, .i32⟩) main_call5.v3 signi,
    TRef.unary main_call5.v3 main_call5.v4 (broadcastInDim S524288 ![] bcast_S_S524288),
    TRef.binary main_call5.v2 main_call5.v4 main_call5.v5 (cmpi .ne),
    TRef.unary (.of main_c_6 : TRef sig ⟨S_, .i32⟩) main_call5.v6 (broadcastInDim S524288 ![] bcast_S_S524288),
    TRef.binary (.of main_v13 : TRef sig ⟨S524288, .i32⟩) main_call5.v6 main_call5.v7 Host.remsi,
    TRef.nullary main_call5.c (constantI S_ 32 0#32),
    TRef.unary main_call5.c main_call5.v8 (broadcastInDim S524288 ![] bcast_S_S524288),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S524288 ![] bcast_S_S524288),
    TRef.binary main_call5.v1 main_call5.v11 main_call5.v12 subi,
    TRef.ternary main_call5.v10 main_call5.v12 main_call5.v1 main_call5.call0.v0 select,
    nullary main_c_7 (constantI S_ 32 64#32),
    TRef.unary (.of main_c_7 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S524288 ![] bcast_S_S524288),
    TRef.binary (.of main_v16 : TRef sig ⟨S524288, .i32⟩) main_call6.v3 main_call6.v4 Host.remsi,
    TRef.nullary main_call6.c_1 (constantI S_ 32 0#32),
    TRef.unary main_call6.c_1 main_call6.v5 (broadcastInDim S524288 ![] bcast_S_S524288),
    TRef.binary main_call6.v4 main_call6.v5 main_call6.v6 (cmpi .ne),
    TRef.nullary main_call6.c_2 (constantI S_ 32 0#32),
    TRef.unary main_call6.c_2 main_call6.v7 (broadcastInDim S524288 ![] bcast_S_S524288),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S524288 ![] bcast_S_S524288),
    TRef.binary main_call6.v8 main_call6.v10 main_call6.v11 (cmpi .ne),
    TRef.binary main_call6.v11 main_call6.v6 main_call6.v12 andi,
    TRef.unary main_call6.call0.v0 main_call6.v13 (broadcastInDim S524288 ![] bcast_S_S524288),
    TRef.binary main_call6.v4 main_call6.v13 main_call6.v14 addi,
    TRef.ternary main_call6.v12 main_call6.v14 main_call6.v4 main_call6.v15 select,
    nullary main_v18 (iotaInDim S524288 32 0),
    unary main_v1 main_v19 ((extui 32 · natLt_1_32) : (⟨S8192x64, .i1⟩ : BufTy).Contents (Elt F) → (⟨S8192x64, .i32⟩ : BufTy).Contents (Elt F)),
    nullary main_c_8 (constantI S_ 32 0#32),
    binary main_v19 main_c_8 main_v20 ((fun x v => Host.reduce IntOp.addi x v reducesTo_S8192x64_S_d0_1 h_S_) : (⟨S8192x64, .i32⟩ : BufTy).Contents (Elt F) → (⟨S_, .i32⟩ : BufTy).Contents (Elt F) → (⟨S_, .i32⟩ : BufTy).Contents (Elt F)),
    unary main_v20 main_v21 (broadcastInDim S524288 ![] bcast_S_S524288 : (⟨S_, .i32⟩ : BufTy).Contents (Elt F) → (⟨S524288, .i32⟩ : BufTy).Contents (Elt F)),
    binary main_v18 main_v21 main_v22 (cmpi .sge : (⟨S524288, .i32⟩ : BufTy).Contents (Elt F) → (⟨S524288, .i32⟩ : BufTy).Contents (Elt F) → (⟨S524288, .i1⟩ : BufTy).Contents (Elt F)),
    nullary main_c_9 (constantI S_ 32 0#32),
    TRef.unary (.of main_c_9 : TRef sig ⟨S_, .i32⟩) main_call7.v0 id,
    TRef.unary main_call7.v0 main_call7.v1 (broadcastInDim S524288 ![] bcast_S_S524288),
    TRef.ternary (.of main_v22 : TRef sig ⟨S524288, .i1⟩) main_call7.v1 (.of main_v15 : TRef sig ⟨S524288, .i32⟩) main_call7.v2 select,
    nullary main_c_10 (constantI S_ 32 0#32),
    TRef.unary (.of main_c_10 : TRef sig ⟨S_, .i32⟩) main_call8.v0 id,
    TRef.unary main_call8.v0 main_call8.v1 (broadcastInDim S524288 ![] bcast_S_S524288),
    TRef.ternary (.of main_v22 : TRef sig ⟨S524288, .i1⟩) main_call8.v1 (.of main_v17 : TRef sig ⟨S524288, .i32⟩) main_call8.v2 select,
    unary main_v23 main_v25 (broadcastInDim S524288x1 ![0] bcast_S524288_S524288x1_0 : (⟨S524288, .i32⟩ : BufTy).Contents (Elt F) → (⟨S524288x1, .i32⟩ : BufTy).Contents (Elt F)),
    unary main_v24 main_v26 (broadcastInDim S524288x1 ![0] bcast_S524288_S524288x1_0 : (⟨S524288, .i32⟩ : BufTy).Contents (Elt F) → (⟨S524288x1, .i32⟩ : BufTy).Contents (Elt F)),
    binary main_v25 main_v26 main_v27 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    nullary main_c_11 (constantI S_ 32 0#32),
    unary main_c_11 main_v28 (broadcastInDim S524288x2 ![] bcast_S_S524288x2 : (⟨S_, .i32⟩ : BufTy).Contents (Elt F) → (⟨S524288x2, .i32⟩ : BufTy).Contents (Elt F)),
    binary main_v27 main_v28 main_v29 (cmpi .slt : (⟨S524288x2, .i32⟩ : BufTy).Contents (Elt F) → (⟨S524288x2, .i32⟩ : BufTy).Contents (Elt F) → (⟨S524288x2, .i1⟩ : BufTy).Contents (Elt F)),
    nullary main_c_12 (constantI S_ 32 8192#32),
    unary main_c_12 main_v30 (broadcastInDim S524288x2 ![] bcast_S_S524288x2 : (⟨S_, .i32⟩ : BufTy).Contents (Elt F) → (⟨S524288x2, .i32⟩ : BufTy).Contents (Elt F)),
    binary main_v27 main_v30 main_v31 (addi : (⟨S524288x2, .i32⟩ : BufTy).Contents (Elt F) → (⟨S524288x2, .i32⟩ : BufTy).Contents (Elt F) → (⟨S524288x2, .i32⟩ : BufTy).Contents (Elt F)),
    ternary main_v29 main_v31 main_v27 main_v32 (select : (⟨S524288x2, .i1⟩ : BufTy).Contents (Elt F) → (⟨S524288x2, .i32⟩ : BufTy).Contents (Elt F) → (⟨S524288x2, .i32⟩ : BufTy).Contents (Elt F) → (⟨S524288x2, .i32⟩ : BufTy).Contents (Elt F)),
    unary main_v32 main_v33 (broadcastInDim S524288x2x1 ![0, 1] bcast_S524288x2_S524288x2x1_0_1 : (⟨S524288x2, .i32⟩ : BufTy).Contents (Elt F) → (⟨S524288x2x1, .i32⟩ : BufTy).Contents (Elt F)),
    binary main_arg0 main_v33 main_v34 ((fun x i => Host.gather gather_S8192x64_S524288x2x1_S524288x2x64_2_0_n_n_0_2_164 x i) : (⟨S8192x64, .f32⟩ : BufTy).Contents (Elt F) → (⟨S524288x2x1, .i32⟩ : BufTy).Contents (Elt F) → (⟨S524288x2x64, .f32⟩ : BufTy).Contents (Elt F)),
    nullary main_cst_13 (constant S_ .f32 0x00000000#32),
    binary main_v34 main_cst_13 main_v35 ((fun x v => Host.reduceAdd x v reducesTo_S524288x2x64_S524288x64_d1 h_S_) : (⟨S524288x2x64, .f32⟩ : BufTy).Contents (Elt F) → (⟨S_, .f32⟩ : BufTy).Contents (Elt F) → (⟨S524288x64, .f32⟩ : BufTy).Contents (Elt F)),
    nullary main_cst_14 (constant S_ .f32 0x42800000#32),
    unary main_cst_14 main_v36 (broadcastInDim S524288x64 ![] bcast_S_S524288x64 : (⟨S_, .f32⟩ : BufTy).Contents (Elt F) → (⟨S524288x64, .f32⟩ : BufTy).Contents (Elt F)),
    binary main_v35 main_v36 main_v37 (Host.divf : (⟨S524288x64, .f32⟩ : BufTy).Contents (Elt F) → (⟨S524288x64, .f32⟩ : BufTy).Contents (Elt F) → (⟨S524288x64, .f32⟩ : BufTy).Contents (Elt F)),
    nullary main_cst_15 (constant S_ .f32 0x3F800000#32),
    unary main_cst_15 main_v38 (broadcastInDim S524288x64 ![] bcast_S_S524288x64 : (⟨S_, .f32⟩ : BufTy).Contents (Elt F) → (⟨S524288x64, .f32⟩ : BufTy).Contents (Elt F)),
    binary main_v38 main_v37 main_v39 (subf : (⟨S524288x64, .f32⟩ : BufTy).Contents (Elt F) → (⟨S524288x64, .f32⟩ : BufTy).Contents (Elt F) → (⟨S524288x64, .f32⟩ : BufTy).Contents (Elt F)),
    unary main_v1 main_v40 ((extui 32 · natLt_1_32) : (⟨S8192x64, .i1⟩ : BufTy).Contents (Elt F) → (⟨S8192x64, .i32⟩ : BufTy).Contents (Elt F)),
    nullary main_c_16 (constantI S_ 32 0#32),
    binary main_v40 main_c_16 main_v41 ((fun x v => Host.reduce IntOp.addi x v reducesTo_S8192x64_S_d0_1 h_S_) : (⟨S8192x64, .i32⟩ : BufTy).Contents (Elt F) → (⟨S_, .i32⟩ : BufTy).Contents (Elt F) → (⟨S_, .i32⟩ : BufTy).Contents (Elt F)),
    nullary main_v42 (iotaInDim S524288 32 0),
    unary main_v41 main_v43 (broadcastInDim S524288 ![] bcast_S_S524288 : (⟨S_, .i32⟩ : BufTy).Contents (Elt F) → (⟨S524288, .i32⟩ : BufTy).Contents (Elt F)),
    binary main_v42 main_v43 main_v44 (cmpi .slt : (⟨S524288, .i32⟩ : BufTy).Contents (Elt F) → (⟨S524288, .i32⟩ : BufTy).Contents (Elt F) → (⟨S524288, .i1⟩ : BufTy).Contents (Elt F)),
    unary main_v44 main_v45 (broadcastInDim S524288x1 ![0] bcast_S524288_S524288x1_0 : (⟨S524288, .i1⟩ : BufTy).Contents (Elt F) → (⟨S524288x1, .i1⟩ : BufTy).Contents (Elt F)),
    binary main_v39 main_v39 main_v46 (mulf : (⟨S524288x64, .f32⟩ : BufTy).Contents (Elt F) → (⟨S524288x64, .f32⟩ : BufTy).Contents (Elt F) → (⟨S524288x64, .f32⟩ : BufTy).Contents (Elt F)),
    nullary main_cst_17 (constant S_ .f32 0x00000000#32),
    TRef.unary (.of main_cst_17 : TRef sig ⟨S_, .f32⟩) main_call9.v0 id,
    TRef.unary (.of main_v45 : TRef sig ⟨S524288x1, .i1⟩) main_call9.v1 (broadcastInDim S524288x64 ![0, 1] bcast_S524288x1_S524288x64_0_1),
    TRef.unary main_call9.v0 main_call9.v2 (broadcastInDim S524288x64 ![] bcast_S_S524288x64),
    TRef.ternary main_call9.v1 (.of main_v46 : TRef sig ⟨S524288x64, .f32⟩) main_call9.v2 main_call9.v3 select,
    nullary main_cst_18 (constant S_ .f32 0x00000000#32),
    binary main_v47 main_cst_18 main_v48 ((fun x v => Host.reduceAdd x v reducesTo_S524288x64_S_d0_1 h_S_) : (⟨S524288x64, .f32⟩ : BufTy).Contents (Elt F) → (⟨S_, .f32⟩ : BufTy).Contents (Elt F) → (⟨S_, .f32⟩ : BufTy).Contents (Elt F)),
    unary main_v48 main_v49 (Host.sqrt : (⟨S_, .f32⟩ : BufTy).Contents (Elt F) → (⟨S_, .f32⟩ : BufTy).Contents (Elt F)),
    nullary main_cst_19 (constant S_ .f32 0x42800000#32),
    binary main_v49 main_cst_19 main_v50 (Host.divf : (⟨S_, .f32⟩ : BufTy).Contents (Elt F) → (⟨S_, .f32⟩ : BufTy).Contents (Elt F) → (⟨S_, .f32⟩ : BufTy).Contents (Elt F)),
    nullary main_cst_20 (constant S_ .f32 0x3C23D70A#32),
    binary main_cst_20 main_v50 main_v51 (mulf : (⟨S_, .f32⟩ : BufTy).Contents (Elt F) → (⟨S_, .f32⟩ : BufTy).Contents (Elt F) → (⟨S_, .f32⟩ : BufTy).Contents (Elt F)) ]

/-- Every operation touches buffers of the one device only. -/
theorem ops_sub : (ops : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., binary_bufs_sub .., nullary_bufs_sub .., unary_bufs_sub .., unary_bufs_sub .., unary_bufs_sub .., ternary_bufs_sub .., nullary_bufs_sub .., binary_bufs_sub .., unary_bufs_sub .., nullary_bufs_sub .., binary_bufs_sub .., nullary_bufs_sub .., binary_bufs_sub ..⟩

end Cert.ReferenceIdeal.Value

end
-- ==== Proof.RefWindows.lean ====
/-
  The list of the reference's operations read window by window.

  The list is cut into 23 consecutive windows, one per stage of the staged term. For each window: the buffers that are still read
  later, what each holds after the window (an invariant over any contents whose argument is `x`), and the step from the invariant
  before the window to the one after: the one new value is its stage applied to the values before it, every other live buffer is
  not written. Chained, the steps give the whole line: the argument unchanged and the result buffer at the staged term of it.
-/
import proofs.«162556_g44856638440002_cont_sun_c4_349_4_alg».proof.Proof.RefOps
import proofs.«162556_g44856638440002_cont_sun_c4_349_4_alg».proof.Proof.RefTerm

noncomputable section

namespace Cert.ReferenceIdeal.Value

open Cert.ReferenceIdeal Cert.ReferenceIdeal.Gen Idealize.ShloMosaic Idealize.ShloMosaic.TcCoe Idealize.SL.Sem
  Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0 to 2 of the line: the selection mask. -/
abbrev w0 : List (HloOp τ sig (Elt F)) :=
  [ nullary main_cst (constant S_ .f32 0x37FBA882#32),
    unary main_cst main_v0 (broadcastInDim S8192x64 ![] bcast_S_S8192x64 : (⟨S_, .f32⟩ : BufTy).Contents (Elt F) → (⟨S8192x64, .f32⟩ : BufTy).Contents (Elt F)),
    binary main_arg0 main_v0 main_v1 (cmpf .ogt : (⟨S8192x64, .f32⟩ : BufTy).Contents (Elt F) → (⟨S8192x64, .f32⟩ : BufTy).Contents (Elt F) → (⟨S8192x64, .i1⟩ : BufTy).Contents (Elt F)) ]

/-- What the buffers still read later hold once operations 0 to 2 have run from contents whose argument is `x`. -/
abbrev Inv0 (W : Valuation τ sig (Elt F)) (x : FVec F S8192x64 .f32) : Prop :=
  W (main_arg0 : DevRef τ sig) = x
  ∧ W (main_v1 : DevRef τ sig) = Term.cond x

attribute [local irreducible] Host.reduce Host.reduceWindow Host.scatter Host.gather Host.reduceAdd concatenate in
set_option maxRecDepth 8192 in
/-- Operations 0 to 2 carry the buffers' contents forward: the one new value is its stage of the values before
    it, and no other live buffer is written. -/
theorem step0 (x : FVec F S8192x64 .f32) (W : Valuation τ sig (Elt F)) (h : W (main_arg0 : DevRef τ sig) = x) :
    Inv0 (after w0 W) x := by
  have h_arg0 := h
  refine ⟨?_, ?_⟩
  · after_results_simp; exact h_arg0
  · after_results_simp; simp only [h_arg0]; rfl

/-- Operations 3 to 7 of the line: the running count of selected entries. -/
abbrev w1 : List (HloOp τ sig (Elt F)) :=
  [ TRef.reshape (.of main_v1 : TRef sig ⟨S8192x64, .i1⟩) main_call0.v0 rfl shapeCasts_S8192x64_S524288,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![524288] ![1] ![524287] ![0] x v reduceWindows_S524288_S524288_w524288s1p524287_0 h_S_) ]

/-- What the buffers still read later hold once operations 0 to 7 have run from contents whose argument is `x`. -/
abbrev Inv1 (W : Valuation τ sig (Elt F)) (x : FVec F S8192x64 .f32) : Prop :=
  W (main_arg0 : DevRef τ sig) = x
  ∧ W (main_v1 : DevRef τ sig) = Term.cond x
  ∧ W (main_v2 : DevRef τ sig) = Term.count1 x

attribute [local irreducible] Host.reduce Host.reduceWindow Host.scatter Host.gather Host.reduceAdd concatenate in
set_option maxRecDepth 8192 in
/-- Operations 3 to 7 carry the buffers' contents forward: the one new value is its stage of the values before
    it, and no other live buffer is written. -/
theorem step1 (x : FVec F S8192x64 .f32) (W : Valuation τ sig (Elt F)) (h : Inv0 W x) :
    Inv1 (after w1 W) x := by
  obtain ⟨h_arg0, h_v1⟩ := h
  refine ⟨?_, ?_, ?_⟩
  · after_results_simp; exact h_arg0
  · after_results_simp; exact h_v1
  · after_results_simp; simp only [eqRec_eq_cast, eq_mp_eq_cast, eq_mpr_eq_cast, cast_eq, h_v1]; rfl

/-- Operations 8 to 9 of the line: zero spread over the flat positions. -/
abbrev w2 : List (HloOp τ sig (Elt F)) :=
  [ nullary main_c (constantI S_ 32 0#32),
    unary main_c main_v3 (broadcastInDim S524288 ![] bcast_S_S524288 : (⟨S_, .i32⟩ : BufTy).Contents (Elt F) → (⟨S524288, .i32⟩ : BufTy).Contents (Elt F)) ]

/-- What the buffers still read later hold once operations 0 to 9 have run from contents whose argument is `x`. -/
abbrev Inv2 (W : Valuation τ sig (Elt F)) (x : FVec F S8192x64 .f32) : Prop :=
  W (main_arg0 : DevRef τ sig) = x
  ∧ W (main_v1 : DevRef τ sig) = Term.cond x
  ∧ W (main_v2 : DevRef τ sig) = Term.count1 x
  ∧ W (main_v3 : DevRef τ sig) = Term.spread (constantI S_ 32 0#32)

attribute [local irreducible] Host.reduce Host.reduceWindow Host.scatter Host.gather Host.reduceAdd concatenate in
set_option maxRecDepth 8192 in
/-- Operations 8 to 9 carry the buffers' contents forward: the one new value is its stage of the values before
    it, and no other live buffer is written. -/
theorem step2 (x : FVec F S8192x64 .f32) (W : Valuation τ sig (Elt F)) (h : Inv1 W x) :
    Inv2 (after w2 W) x := by
  obtain ⟨h_arg0, h_v1, h_v2⟩ := h
  refine ⟨?_, ?_, ?_, ?_⟩
  · after_results_simp; exact h_arg0
  · after_results_simp; exact h_v1
  · after_results_simp; exact h_v2
  · after_results_simp <;> rfl

/-- Operations 10 to 13 of the line: the running count clipped below at zero. -/
abbrev w3 : List (HloOp τ sig (Elt F)) :=
  [ nullary main_c_0 (constantI S_ 32 0#32),
    TRef.unary (.of main_c_0 : TRef sig ⟨S_, .i32⟩) main_call1.v0 id,
    TRef.unary main_call1.v0 main_call1.v1 (broadcastInDim S524288 ![] bcast_S_S524288),
    TRef.binary main_call1.v1 (.of main_v2 : TRef sig ⟨S524288, .i32⟩) main_call1.v2 maxsi ]

/-- What the buffers still read later hold once operations 0 to 13 have run from contents whose argument is `x`. -/
abbrev Inv3 (W : Valuation τ sig (Elt F)) (x : FVec F S8192x64 .f32) : Prop :=
  W (main_arg0 : DevRef τ sig) = x
  ∧ W (main_v1 : DevRef τ sig) = Term.cond x
  ∧ W (main_v3 : DevRef τ sig) = Term.spread (constantI S_ 32 0#32)
  ∧ W (main_v4 : DevRef τ sig) = Term.clipped x

attribute [local irreducible] Host.reduce Host.reduceWindow Host.scatter Host.gather Host.reduceAdd concatenate in
set_option maxRecDepth 8192 in
/-- Operations 10 to 13 carry the buffers' contents forward: the one new value is its stage of the values before
    it, and no other live buffer is written. -/
theorem step3 (x : FVec F S8192x64 .f32) (W : Valuation τ sig (Elt F)) (h : Inv2 W x) :
    Inv3 (after w3 W) x := by
  obtain ⟨h_arg0, h_v1, h_v2, h_v3⟩ := h
  refine ⟨?_, ?_, ?_, ?_⟩
  · after_results_simp; exact h_arg0
  · after_results_simp; exact h_v1
  · after_results_simp; exact h_v3
  · after_results_simp; simp only [cast_eq, h_v2]; rfl

/-- Operations 14 to 20 of the line: the position each entry adds to. -/
abbrev w4 : List (HloOp τ sig (Elt F)) :=
  [ nullary main_c_1 (constantI S_ 32 0#32),
    unary main_c_1 main_v5 (broadcastInDim S524288 ![] bcast_S_S524288 : (⟨S_, .i32⟩ : BufTy).Contents (Elt F) → (⟨S524288, .i32⟩ : BufTy).Contents (Elt F)),
    binary main_v4 main_v5 main_v6 (cmpi .slt : (⟨S524288, .i32⟩ : BufTy).Contents (Elt F) → (⟨S524288, .i32⟩ : BufTy).Contents (Elt F) → (⟨S524288, .i1⟩ : BufTy).Contents (Elt F)),
    nullary main_c_2 (constantI S_ 32 524288#32),
    unary main_c_2 main_v7 (broadcastInDim S524288 ![] bcast_S_S524288 : (⟨S_, .i32⟩ : BufTy).Contents (Elt F) → (⟨S524288, .i32⟩ : BufTy).Contents (Elt F)),
    binary main_v4 main_v7 main_v8 (addi : (⟨S524288, .i32⟩ : BufTy).Contents (Elt F) → (⟨S524288, .i32⟩ : BufTy).Contents (Elt F) → (⟨S524288, .i32⟩ : BufTy).Contents (Elt F)),
    ternary main_v6 main_v8 main_v4 main_v9 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]

/-- What the buffers still read later hold once operations 0 to 20 have run from contents whose argument is `x`. -/
abbrev Inv4 (W : Valuation τ sig (Elt F)) (x : FVec F S8192x64 .f32) : Prop :=
  W (main_arg0 : DevRef τ sig) = x
  ∧ W (main_v1 : DevRef τ sig) = Term.cond x
  ∧ W (main_v3 : DevRef τ sig) = Term.spread (constantI S_ 32 0#32)
  ∧ W (main_v9 : DevRef τ sig) = Term.binIdx x

attribute [local irreducible] Host.reduce Host.reduceWindow Host.scatter Host.gather Host.reduceAdd concatenate in
set_option maxRecDepth 8192 in
/-- Operations 14 to 20 carry the buffers' contents forward: the one new value is its stage of the values before
    it, and no other live buffer is written. -/
theorem step4 (x : FVec F S8192x64 .f32) (W : Valuation τ sig (Elt F)) (h : Inv3 W x) :
    Inv4 (after w4 W) x := by
  obtain ⟨h_arg0, h_v1, h_v3, h_v4⟩ := h
  refine ⟨?_, ?_, ?_, ?_⟩
  · after_results_simp; exact h_arg0
  · after_results_simp; exact h_v1
  · after_results_simp; exact h_v3
  · after_results_simp; simp only [h_v4]; rfl

/-- Operations 21 to 24 of the line: how many entries have each running-count value. -/
abbrev w5 : List (HloOp τ sig (Elt F)) :=
  [ unary main_v9 main_v10 (broadcastInDim S524288x1 ![0] bcast_S524288_S524288x1_0 : (⟨S524288, .i32⟩ : BufTy).Contents (Elt F) → (⟨S524288x1, .i32⟩ : BufTy).Contents (Elt F)),
    nullary main_c_3 (constantI S_ 32 1#32),
    unary main_c_3 main_v11 (broadcastInDim S524288 ![] bcast_S_S524288 : (⟨S_, .i32⟩ : BufTy).Contents (Elt F) → (⟨S524288, .i32⟩ : BufTy).Contents (Elt F)),
    ternary main_v3 main_v10 main_v11 main_v12 ((fun x i u => Host.scatter scatter_S524288_S524288x1_S524288_n_0_0_1 IntOp.addi x i u) : (⟨S524288, .i32⟩ : BufTy).Contents (Elt F) → (⟨S524288x1, .i32⟩ : BufTy).Contents (Elt F) → (⟨S524288, .i32⟩ : BufTy).Contents (Elt F) → (⟨S524288, .i32⟩ : BufTy).Contents (Elt F)) ]

/-- What the buffers still read later hold once operations 0 to 24 have run from contents whose argument is `x`. -/
abbrev Inv5 (W : Valuation τ sig (Elt F)) (x : FVec F S8192x64 .f32) : Prop :=
  W (main_arg0 : DevRef τ sig) = x
  ∧ W (main_v1 : DevRef τ sig) = Term.cond x
  ∧ W (main_v12 : DevRef τ sig) = Term.bins x

attribute [local irreducible] Host.reduce Host.reduceWindow Host.scatter Host.gather Host.reduceAdd concatenate in
set_option maxRecDepth 8192 in
/-- Operations 21 to 24 carry the buffers' contents forward: the one new value is its stage of the values before
    it, and no other live buffer is written. -/
theorem step5 (x : FVec F S8192x64 .f32) (W : Valuation τ sig (Elt F)) (h : Inv4 W x) :
    Inv5 (after w5 W) x := by
  obtain ⟨h_arg0, h_v1, h_v3, h_v9⟩ := h
  refine ⟨?_, ?_, ?_⟩
  · after_results_simp; exact h_arg0
  · after_results_simp; exact h_v1
  · after_results_simp; simp only [h_v3, h_v9]; rfl

/-- Operations 25 to 27 of the line: the flat positions of the selected entries. -/
abbrev w6 : List (HloOp τ sig (Elt F)) :=
  [ TRef.nullary main_call2.call0.c (constantI S_ 32 0#32),
    TRef.unary main_call2.call0.c main_call2.call0.v0 (broadcastInDim S_ ![] bcast_S_S_),
    TRef.binary (.of main_v12 : TRef sig ⟨S524288, .i32⟩) main_call2.call0.v0 main_call2.call0.v1 (fun x v => Host.reduceWindow IntOp.addi ![524288] ![1] ![524287] ![0] x v reduceWindows_S524288_S524288_w524288s1p524287_0 h_S_) ]

/-- What the buffers still read later hold once operations 0 to 27 have run from contents whose argument is `x`. -/
abbrev Inv6 (W : Valuation τ sig (Elt F)) (x : FVec F S8192x64 .f32) : Prop :=
  W (main_arg0 : DevRef τ sig) = x
  ∧ W (main_v1 : DevRef τ sig) = Term.cond x
  ∧ W (main_v13 : DevRef τ sig) = Term.flatPos x

attribute [local irreducible] Host.reduce Host.reduceWindow Host.scatter Host.gather Host.reduceAdd concatenate in
set_option maxRecDepth 8192 in
/-- Operations 25 to 27 carry the buffers' contents forward: the one new value is its stage of the values before
    it, and no other live buffer is written. -/
theorem step6 (x : FVec F S8192x64 .f32) (W : Valuation τ sig (Elt F)) (h : Inv5 W x) :
    Inv6 (after w6 W) x := by
  obtain ⟨h_arg0, h_v1, h_v12⟩ := h
  refine ⟨?_, ?_, ?_⟩
  · after_results_simp; exact h_arg0
  · after_results_simp; exact h_v1
  · after_results_simp; simp only [cast_eq]; rw [h_v12]; rfl

/-- Operations 28 to 44 of the line: the listed positions floor-divided by 64. -/
abbrev w7 : List (HloOp τ sig (Elt F)) :=
  [ nullary main_c_4 (constantI S_ 32 64#32),
    TRef.unary (.of main_c_4 : TRef sig ⟨S_, .i32⟩) main_call3.v0 (broadcastInDim S524288 ![] bcast_S_S524288),
    TRef.binary (.of main_v13 : TRef sig ⟨S524288, .i32⟩) main_call3.v0 main_call3.v1 Host.divsi,
    TRef.unary (.of main_v13 : TRef sig ⟨S524288, .i32⟩) main_call3.v2 signi,
    TRef.unary (.of main_c_4 : TRef sig ⟨S_, .i32⟩) main_call3.v3 signi,
    TRef.unary main_call3.v3 main_call3.v4 (broadcastInDim S524288 ![] bcast_S_S524288),
    TRef.binary main_call3.v2 main_call3.v4 main_call3.v5 (cmpi .ne),
    TRef.unary (.of main_c_4 : TRef sig ⟨S_, .i32⟩) main_call3.v6 (broadcastInDim S524288 ![] bcast_S_S524288),
    TRef.binary (.of main_v13 : TRef sig ⟨S524288, .i32⟩) main_call3.v6 main_call3.v7 Host.remsi,
    TRef.nullary main_call3.c (constantI S_ 32 0#32),
    TRef.unary main_call3.c main_call3.v8 (broadcastInDim S524288 ![] bcast_S_S524288),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S524288 ![] bcast_S_S524288),
    TRef.binary main_call3.v1 main_call3.v11 main_call3.v12 subi,
    TRef.ternary main_call3.v10 main_call3.v12 main_call3.v1 main_call3.call0.v0 select ]

/-- What the buffers still read later hold once operations 0 to 44 have run from contents whose argument is `x`. -/
abbrev Inv7 (W : Valuation τ sig (Elt F)) (x : FVec F S8192x64 .f32) : Prop :=
  W (main_arg0 : DevRef τ sig) = x
  ∧ W (main_v1 : DevRef τ sig) = Term.cond x
  ∧ W (main_v13 : DevRef τ sig) = Term.flatPos x
  ∧ W (main_v14 : DevRef τ sig) = Term.floorDiv (Term.flatPos x) (constantI S_ 32 64#32)

attribute [local irreducible] Host.reduce Host.reduceWindow Host.scatter Host.gather Host.reduceAdd concatenate in
set_option maxRecDepth 8192 in
/-- Operations 28 to 44 carry the buffers' contents forward: the one new value is its stage of the values before
    it, and no other live buffer is written. -/
theorem step7 (x : FVec F S8192x64 .f32) (W : Valuation τ sig (Elt F)) (h : Inv6 W x) :
    Inv7 (after w7 W) x := by
  obtain ⟨h_arg0, h_v1, h_v13⟩ := h
  refine ⟨?_, ?_, ?_, ?_⟩
  · after_results_simp; exact h_arg0
  · after_results_simp; exact h_v1
  · after_results_simp; exact h_v13
  · after_results_simp; simp only [cast_eq, h_v13]; rfl

/-- Operations 45 to 66 of the line: the row numbers. -/
abbrev w8 : List (HloOp τ sig (Elt F)) :=
  [ nullary main_c_5 (constantI S_ 32 8192#32),
    TRef.unary (.of main_c_5 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S524288 ![] bcast_S_S524288),
    TRef.binary (.of main_v14 : TRef sig ⟨S524288, .i32⟩) main_call4.v3 main_call4.v4 Host.remsi,
    TRef.nullary main_call4.c_1 (constantI S_ 32 0#32),
    TRef.unary main_call4.c_1 main_call4.v5 (broadcastInDim S524288 ![] bcast_S_S524288),
    TRef.binary main_call4.v4 main_call4.v5 main_call4.v6 (cmpi .ne),
    TRef.nullary main_call4.c_2 (constantI S_ 32 0#32),
    TRef.unary main_call4.c_2 main_call4.v7 (broadcastInDim S524288 ![] bcast_S_S524288),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S524288 ![] bcast_S_S524288),
    TRef.binary main_call4.v8 main_call4.v10 main_call4.v11 (cmpi .ne),
    TRef.binary main_call4.v11 main_call4.v6 main_call4.v12 andi,
    TRef.unary main_call4.call0.v0 main_call4.v13 (broadcastInDim S524288 ![] bcast_S_S524288),
    TRef.binary main_call4.v4 main_call4.v13 main_call4.v14 addi,
    TRef.ternary main_call4.v12 main_call4.v14 main_call4.v4 main_call4.v15 select ]

/-- What the buffers still read later hold once operations 0 to 66 have run from contents whose argument is `x`. -/
abbrev Inv8 (W : Valuation τ sig (Elt F)) (x : FVec F S8192x64 .f32) : Prop :=
  W (main_arg0 : DevRef τ sig) = x
  ∧ W (main_v1 : DevRef τ sig) = Term.cond x
  ∧ W (main_v13 : DevRef τ sig) = Term.flatPos x
  ∧ W (main_v15 : DevRef τ sig) = Term.rows0 x

attribute [local irreducible] Host.reduce Host.reduceWindow Host.scatter Host.gather Host.reduceAdd concatenate in
set_option maxRecDepth 8192 in
/-- Operations 45 to 66 carry the buffers' contents forward: the one new value is its stage of the values before
    it, and no other live buffer is written. -/
theorem step8 (x : FVec F S8192x64 .f32) (W : Valuation τ sig (Elt F)) (h : Inv7 W x) :
    Inv8 (after w8 W) x := by
  obtain ⟨h_arg0, h_v1, h_v13, h_v14⟩ := h
  refine ⟨?_, ?_, ?_, ?_⟩
  · after_results_simp; exact h_arg0
  · after_results_simp; exact h_v1
  · after_results_simp; exact h_v13
  · after_results_simp; simp only [cast_eq, h_v14]; rfl

/-- Operations 67 to 83 of the line: the listed positions floor-divided by 1. -/
abbrev w9 : List (HloOp τ sig (Elt F)) :=
  [ nullary main_c_6 (constantI S_ 32 1#32),
    TRef.unary (.of main_c_6 : TRef sig ⟨S_, .i32⟩) main_call5.v0 (broadcastInDim S524288 ![] bcast_S_S524288),
    TRef.binary (.of main_v13 : TRef sig ⟨S524288, .i32⟩) main_call5.v0 main_call5.v1 Host.divsi,
    TRef.unary (.of main_v13 : TRef sig ⟨S524288, .i32⟩) main_call5.v2 signi,
    TRef.unary (.of main_c_6 : TRef sig ⟨S_, .i32⟩) main_call5.v3 signi,
    TRef.unary main_call5.v3 main_call5.v4 (broadcastInDim S524288 ![] bcast_S_S524288),
    TRef.binary main_call5.v2 main_call5.v4 main_call5.v5 (cmpi .ne),
    TRef.unary (.of main_c_6 : TRef sig ⟨S_, .i32⟩) main_call5.v6 (broadcastInDim S524288 ![] bcast_S_S524288),
    TRef.binary (.of main_v13 : TRef sig ⟨S524288, .i32⟩) main_call5.v6 main_call5.v7 Host.remsi,
    TRef.nullary main_call5.c (constantI S_ 32 0#32),
    TRef.unary main_call5.c main_call5.v8 (broadcastInDim S524288 ![] bcast_S_S524288),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S524288 ![] bcast_S_S524288),
    TRef.binary main_call5.v1 main_call5.v11 main_call5.v12 subi,
    TRef.ternary main_call5.v10 main_call5.v12 main_call5.v1 main_call5.call0.v0 select ]

/-- What the buffers still read later hold once operations 0 to 83 have run from contents whose argument is `x`. -/
abbrev Inv9 (W : Valuation τ sig (Elt F)) (x : FVec F S8192x64 .f32) : Prop :=
  W (main_arg0 : DevRef τ sig) = x
  ∧ W (main_v1 : DevRef τ sig) = Term.cond x
  ∧ W (main_v15 : DevRef τ sig) = Term.rows0 x
  ∧ W (main_v16 : DevRef τ sig) = Term.floorDiv (Term.flatPos x) (constantI S_ 32 1#32)

attribute [local irreducible] Host.reduce Host.reduceWindow Host.scatter Host.gather Host.reduceAdd concatenate in
set_option maxRecDepth 8192 in
/-- Operations 67 to 83 carry the buffers' contents forward: the one new value is its stage of the values before
    it, and no other live buffer is written. -/
theorem step9 (x : FVec F S8192x64 .f32) (W : Valuation τ sig (Elt F)) (h : Inv8 W x) :
    Inv9 (after w9 W) x := by
  obtain ⟨h_arg0, h_v1, h_v13, h_v15⟩ := h
  refine ⟨?_, ?_, ?_, ?_⟩
  · after_results_simp; exact h_arg0
  · after_results_simp; exact h_v1
  · after_results_simp; exact h_v15
  · after_results_simp; simp only [cast_eq, h_v13]; rfl

/-- Operations 84 to 105 of the line: the column numbers. -/
abbrev w10 : List (HloOp τ sig (Elt F)) :=
  [ nullary main_c_7 (constantI S_ 32 64#32),
    TRef.unary (.of main_c_7 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S524288 ![] bcast_S_S524288),
    TRef.binary (.of main_v16 : TRef sig ⟨S524288, .i32⟩) main_call6.v3 main_call6.v4 Host.remsi,
    TRef.nullary main_call6.c_1 (constantI S_ 32 0#32),
    TRef.unary main_call6.c_1 main_call6.v5 (broadcastInDim S524288 ![] bcast_S_S524288),
    TRef.binary main_call6.v4 main_call6.v5 main_call6.v6 (cmpi .ne),
    TRef.nullary main_call6.c_2 (constantI S_ 32 0#32),
    TRef.unary main_call6.c_2 main_call6.v7 (broadcastInDim S524288 ![] bcast_S_S524288),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S524288 ![] bcast_S_S524288),
    TRef.binary main_call6.v8 main_call6.v10 main_call6.v11 (cmpi .ne),
    TRef.binary main_call6.v11 main_call6.v6 main_call6.v12 andi,
    TRef.unary main_call6.call0.v0 main_call6.v13 (broadcastInDim S524288 ![] bcast_S_S524288),
    TRef.binary main_call6.v4 main_call6.v13 main_call6.v14 addi,
    TRef.ternary main_call6.v12 main_call6.v14 main_call6.v4 main_call6.v15 select ]

/-- What the buffers still read later hold once operations 0 to 105 have run from contents whose argument is `x`. -/
abbrev Inv10 (W : Valuation τ sig (Elt F)) (x : FVec F S8192x64 .f32) : Prop :=
  W (main_arg0 : DevRef τ sig) = x
  ∧ W (main_v1 : DevRef τ sig) = Term.cond x
  ∧ W (main_v15 : DevRef τ sig) = Term.rows0 x
  ∧ W (main_v17 : DevRef τ sig) = Term.cols0 x

attribute [local irreducible] Host.reduce Host.reduceWindow Host.scatter Host.gather Host.reduceAdd concatenate in
set_option maxRecDepth 8192 in
/-- Operations 84 to 105 carry the buffers' contents forward: the one new value is its stage of the values before
    it, and no other live buffer is written. -/
theorem step10 (x : FVec F S8192x64 .f32) (W : Valuation τ sig (Elt F)) (h : Inv9 W x) :
    Inv10 (after w10 W) x := by
  obtain ⟨h_arg0, h_v1, h_v15, h_v16⟩ := h
  refine ⟨?_, ?_, ?_, ?_⟩
  · after_results_simp; exact h_arg0
  · after_results_simp; exact h_v1
  · after_results_simp; exact h_v15
  · after_results_simp; simp only [cast_eq, h_v16]; rfl

/-- Operations 106 to 111 of the line: which list indices lie at or past the number of selected entries. -/
abbrev w11 : List (HloOp τ sig (Elt F)) :=
  [ nullary main_v18 (iotaInDim S524288 32 0),
    unary main_v1 main_v19 ((extui 32 · natLt_1_32) : (⟨S8192x64, .i1⟩ : BufTy).Contents (Elt F) → (⟨S8192x64, .i32⟩ : BufTy).Contents (Elt F)),
    nullary main_c_8 (constantI S_ 32 0#32),
    binary main_v19 main_c_8 main_v20 ((fun x v => Host.reduce IntOp.addi x v reducesTo_S8192x64_S_d0_1 h_S_) : (⟨S8192x64, .i32⟩ : BufTy).Contents (Elt F) → (⟨S_, .i32⟩ : BufTy).Contents (Elt F) → (⟨S_, .i32⟩ : BufTy).Contents (Elt F)),
    unary main_v20 main_v21 (broadcastInDim S524288 ![] bcast_S_S524288 : (⟨S_, .i32⟩ : BufTy).Contents (Elt F) → (⟨S524288, .i32⟩ : BufTy).Contents (Elt F)),
    binary main_v18 main_v21 main_v22 (cmpi .sge : (⟨S524288, .i32⟩ : BufTy).Contents (Elt F) → (⟨S524288, .i32⟩ : BufTy).Contents (Elt F) → (⟨S524288, .i1⟩ : BufTy).Contents (Elt F)) ]

/-- What the buffers still read later hold once operations 0 to 111 have run from contents whose argument is `x`. -/
abbrev Inv11 (W : Valuation τ sig (Elt F)) (x : FVec F S8192x64 .f32) : Prop :=
  W (main_arg0 : DevRef τ sig) = x
  ∧ W (main_v1 : DevRef τ sig) = Term.cond x
  ∧ W (main_v15 : DevRef τ sig) = Term.rows0 x
  ∧ W (main_v17 : DevRef τ sig) = Term.cols0 x
  ∧ W (main_v22 : DevRef τ sig) = Term.pastEnd x

attribute [local irreducible] Host.reduce Host.reduceWindow Host.scatter Host.gather Host.reduceAdd concatenate in
set_option maxRecDepth 8192 in
/-- Operations 106 to 111 carry the buffers' contents forward: the one new value is its stage of the values before
    it, and no other live buffer is written. -/
theorem step11 (x : FVec F S8192x64 .f32) (W : Valuation τ sig (Elt F)) (h : Inv10 W x) :
    Inv11 (after w11 W) x := by
  obtain ⟨h_arg0, h_v1, h_v15, h_v17⟩ := h
  refine ⟨?_, ?_, ?_, ?_, ?_⟩
  · after_results_simp; exact h_arg0
  · after_results_simp; exact h_v1
  · after_results_simp; exact h_v15
  · after_results_simp; exact h_v17
  · after_results_simp; simp only [h_v1]; rfl

/-- Operations 112 to 115 of the line: the row numbers, zero past the end. -/
abbrev w12 : List (HloOp τ sig (Elt F)) :=
  [ nullary main_c_9 (constantI S_ 32 0#32),
    TRef.unary (.of main_c_9 : TRef sig ⟨S_, .i32⟩) main_call7.v0 id,
    TRef.unary main_call7.v0 main_call7.v1 (broadcastInDim S524288 ![] bcast_S_S524288),
    TRef.ternary (.of main_v22 : TRef sig ⟨S524288, .i1⟩) main_call7.v1 (.of main_v15 : TRef sig ⟨S524288, .i32⟩) main_call7.v2 select ]

/-- What the buffers still read later hold once operations 0 to 115 have run from contents whose argument is `x`. -/
abbrev Inv12 (W : Valuation τ sig (Elt F)) (x : FVec F S8192x64 .f32) : Prop :=
  W (main_arg0 : DevRef τ sig) = x
  ∧ W (main_v1 : DevRef τ sig) = Term.cond x
  ∧ W (main_v17 : DevRef τ sig) = Term.cols0 x
  ∧ W (main_v22 : DevRef τ sig) = Term.pastEnd x
  ∧ W (main_v23 : DevRef τ sig) = Term.rows x

attribute [local irreducible] Host.reduce Host.reduceWindow Host.scatter Host.gather Host.reduceAdd concatenate in
set_option maxRecDepth 8192 in
/-- Operations 112 to 115 carry the buffers' contents forward: the one new value is its stage of the values before
    it, and no other live buffer is written. -/
theorem step12 (x : FVec F S8192x64 .f32) (W : Valuation τ sig (Elt F)) (h : Inv11 W x) :
    Inv12 (after w12 W) x := by
  obtain ⟨h_arg0, h_v1, h_v15, h_v17, h_v22⟩ := h
  refine ⟨?_, ?_, ?_, ?_, ?_⟩
  · after_results_simp; exact h_arg0
  · after_results_simp; exact h_v1
  · after_results_simp; exact h_v17
  · after_results_simp; exact h_v22
  · after_results_simp; simp only [cast_eq, h_v15, h_v22]; rfl

/-- Operations 116 to 119 of the line: the column numbers, zero past the end. -/
abbrev w13 : List (HloOp τ sig (Elt F)) :=
  [ nullary main_c_10 (constantI S_ 32 0#32),
    TRef.unary (.of main_c_10 : TRef sig ⟨S_, .i32⟩) main_call8.v0 id,
    TRef.unary main_call8.v0 main_call8.v1 (broadcastInDim S524288 ![] bcast_S_S524288),
    TRef.ternary (.of main_v22 : TRef sig ⟨S524288, .i1⟩) main_call8.v1 (.of main_v17 : TRef sig ⟨S524288, .i32⟩) main_call8.v2 select ]

/-- What the buffers still read later hold once operations 0 to 119 have run from contents whose argument is `x`. -/
abbrev Inv13 (W : Valuation τ sig (Elt F)) (x : FVec F S8192x64 .f32) : Prop :=
  W (main_arg0 : DevRef τ sig) = x
  ∧ W (main_v1 : DevRef τ sig) = Term.cond x
  ∧ W (main_v23 : DevRef τ sig) = Term.rows x
  ∧ W (main_v24 : DevRef τ sig) = Term.cols x

attribute [local irreducible] Host.reduce Host.reduceWindow Host.scatter Host.gather Host.reduceAdd concatenate in
set_option maxRecDepth 8192 in
/-- Operations 116 to 119 carry the buffers' contents forward: the one new value is its stage of the values before
    it, and no other live buffer is written. -/
theorem step13 (x : FVec F S8192x64 .f32) (W : Valuation τ sig (Elt F)) (h : Inv12 W x) :
    Inv13 (after w13 W) x := by
  obtain ⟨h_arg0, h_v1, h_v17, h_v22, h_v23⟩ := h
  refine ⟨?_, ?_, ?_, ?_⟩
  · after_results_simp; exact h_arg0
  · after_results_simp; exact h_v1
  · after_results_simp; exact h_v23
  · after_results_simp; simp only [cast_eq, h_v17, h_v22]; rfl

/-- Operations 120 to 122 of the line: row and column number side by side. -/
abbrev w14 : List (HloOp τ sig (Elt F)) :=
  [ unary main_v23 main_v25 (broadcastInDim S524288x1 ![0] bcast_S524288_S524288x1_0 : (⟨S524288, .i32⟩ : BufTy).Contents (Elt F) → (⟨S524288x1, .i32⟩ : BufTy).Contents (Elt F)),
    unary main_v24 main_v26 (broadcastInDim S524288x1 ![0] bcast_S524288_S524288x1_0 : (⟨S524288, .i32⟩ : BufTy).Contents (Elt F) → (⟨S524288x1, .i32⟩ : BufTy).Contents (Elt F)),
    binary main_v25 main_v26 main_v27 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)) ]

/-- What the buffers still read later hold once operations 0 to 122 have run from contents whose argument is `x`. -/
abbrev Inv14 (W : Valuation τ sig (Elt F)) (x : FVec F S8192x64 .f32) : Prop :=
  W (main_arg0 : DevRef τ sig) = x
  ∧ W (main_v1 : DevRef τ sig) = Term.cond x
  ∧ W (main_v27 : DevRef τ sig) = Term.pairs x

attribute [local irreducible] Host.reduce Host.reduceWindow Host.scatter Host.gather Host.reduceAdd concatenate in
set_option maxRecDepth 8192 in
/-- Operations 120 to 122 carry the buffers' contents forward: the one new value is its stage of the values before
    it, and no other live buffer is written. -/
theorem step14 (x : FVec F S8192x64 .f32) (W : Valuation τ sig (Elt F)) (h : Inv13 W x) :
    Inv14 (after w14 W) x := by
  obtain ⟨h_arg0, h_v1, h_v23, h_v24⟩ := h
  refine ⟨?_, ?_, ?_⟩
  · after_results_simp; exact h_arg0
  · after_results_simp; exact h_v1
  · after_results; rw [h_v23, h_v24]; rfl

/-- Operations 123 to 129 of the line: the pairs with a negative number wrapped. -/
abbrev w15 : List (HloOp τ sig (Elt F)) :=
  [ nullary main_c_11 (constantI S_ 32 0#32),
    unary main_c_11 main_v28 (broadcastInDim S524288x2 ![] bcast_S_S524288x2 : (⟨S_, .i32⟩ : BufTy).Contents (Elt F) → (⟨S524288x2, .i32⟩ : BufTy).Contents (Elt F)),
    binary main_v27 main_v28 main_v29 (cmpi .slt : (⟨S524288x2, .i32⟩ : BufTy).Contents (Elt F) → (⟨S524288x2, .i32⟩ : BufTy).Contents (Elt F) → (⟨S524288x2, .i1⟩ : BufTy).Contents (Elt F)),
    nullary main_c_12 (constantI S_ 32 8192#32),
    unary main_c_12 main_v30 (broadcastInDim S524288x2 ![] bcast_S_S524288x2 : (⟨S_, .i32⟩ : BufTy).Contents (Elt F) → (⟨S524288x2, .i32⟩ : BufTy).Contents (Elt F)),
    binary main_v27 main_v30 main_v31 (addi : (⟨S524288x2, .i32⟩ : BufTy).Contents (Elt F) → (⟨S524288x2, .i32⟩ : BufTy).Contents (Elt F) → (⟨S524288x2, .i32⟩ : BufTy).Contents (Elt F)),
    ternary main_v29 main_v31 main_v27 main_v32 (select : (⟨S524288x2, .i1⟩ : BufTy).Contents (Elt F) → (⟨S524288x2, .i32⟩ : BufTy).Contents (Elt F) → (⟨S524288x2, .i32⟩ : BufTy).Contents (Elt F) → (⟨S524288x2, .i32⟩ : BufTy).Contents (Elt F)) ]

/-- What the buffers still read later hold once operations 0 to 129 have run from contents whose argument is `x`. -/
abbrev Inv15 (W : Valuation τ sig (Elt F)) (x : FVec F S8192x64 .f32) : Prop :=
  W (main_arg0 : DevRef τ sig) = x
  ∧ W (main_v1 : DevRef τ sig) = Term.cond x
  ∧ W (main_v32 : DevRef τ sig) = Term.pairsWrapped x

attribute [local irreducible] Host.reduce Host.reduceWindow Host.scatter Host.gather Host.reduceAdd concatenate in
set_option maxRecDepth 8192 in
/-- Operations 123 to 129 carry the buffers' contents forward: the one new value is its stage of the values before
    it, and no other live buffer is written. -/
theorem step15 (x : FVec F S8192x64 .f32) (W : Valuation τ sig (Elt F)) (h : Inv14 W x) :
    Inv15 (after w15 W) x := by
  obtain ⟨h_arg0, h_v1, h_v27⟩ := h
  refine ⟨?_, ?_, ?_⟩
  · after_results_simp; exact h_arg0
  · after_results_simp; exact h_v1
  · after_results_simp; simp only [h_v27]; rfl

/-- Operations 130 to 131 of the line: the two rows each pair names. -/
abbrev w16 : List (HloOp τ sig (Elt F)) :=
  [ unary main_v32 main_v33 (broadcastInDim S524288x2x1 ![0, 1] bcast_S524288x2_S524288x2x1_0_1 : (⟨S524288x2, .i32⟩ : BufTy).Contents (Elt F) → (⟨S524288x2x1, .i32⟩ : BufTy).Contents (Elt F)),
    binary main_arg0 main_v33 main_v34 ((fun x i => Host.gather gather_S8192x64_S524288x2x1_S524288x2x64_2_0_n_n_0_2_164 x i) : (⟨S8192x64, .f32⟩ : BufTy).Contents (Elt F) → (⟨S524288x2x1, .i32⟩ : BufTy).Contents (Elt F) → (⟨S524288x2x64, .f32⟩ : BufTy).Contents (Elt F)) ]

/-- What the buffers still read later hold once operations 0 to 131 have run from contents whose argument is `x`. -/
abbrev Inv16 (W : Valuation τ sig (Elt F)) (x : FVec F S8192x64 .f32) : Prop :=
  W (main_arg0 : DevRef τ sig) = x
  ∧ W (main_v1 : DevRef τ sig) = Term.cond x
  ∧ W (main_v34 : DevRef τ sig) = Term.gathered x

attribute [local irreducible] Host.reduce Host.reduceWindow Host.scatter Host.gather Host.reduceAdd concatenate in
set_option maxRecDepth 8192 in
/-- Operations 130 to 131 carry the buffers' contents forward: the one new value is its stage of the values before
    it, and no other live buffer is written. -/
theorem step16 (x : FVec F S8192x64 .f32) (W : Valuation τ sig (Elt F)) (h : Inv15 W x) :
    Inv16 (after w16 W) x := by
  obtain ⟨h_arg0, h_v1, h_v32⟩ := h
  refine ⟨?_, ?_, ?_⟩
  · after_results_simp; exact h_arg0
  · after_results_simp; exact h_v1
  · after_results_simp; simp only [h_arg0, h_v32]; rfl

/-- Operations 132 to 133 of the line: the two rows added. -/
abbrev w17 : List (HloOp τ sig (Elt F)) :=
  [ nullary main_cst_13 (constant S_ .f32 0x00000000#32),
    binary main_v34 main_cst_13 main_v35 ((fun x v => Host.reduceAdd x v reducesTo_S524288x2x64_S524288x64_d1 h_S_) : (⟨S524288x2x64, .f32⟩ : BufTy).Contents (Elt F) → (⟨S_, .f32⟩ : BufTy).Contents (Elt F) → (⟨S524288x64, .f32⟩ : BufTy).Contents (Elt F)) ]

/-- What the buffers still read later hold once operations 0 to 133 have run from contents whose argument is `x`. -/
abbrev Inv17 (W : Valuation τ sig (Elt F)) (x : FVec F S8192x64 .f32) : Prop :=
  W (main_arg0 : DevRef τ sig) = x
  ∧ W (main_v1 : DevRef τ sig) = Term.cond x
  ∧ W (main_v35 : DevRef τ sig) = Term.pairSum x

attribute [local irreducible] Host.reduce Host.reduceWindow Host.scatter Host.gather Host.reduceAdd concatenate in
set_option maxRecDepth 8192 in
/-- Operations 132 to 133 carry the buffers' contents forward: the one new value is its stage of the values before
    it, and no other live buffer is written. -/
theorem step17 (x : FVec F S8192x64 .f32) (W : Valuation τ sig (Elt F)) (h : Inv16 W x) :
    Inv17 (after w17 W) x := by
  obtain ⟨h_arg0, h_v1, h_v34⟩ := h
  refine ⟨?_, ?_, ?_⟩
  · after_results_simp; exact h_arg0
  · after_results_simp; exact h_v1
  · after_results_simp; simp only [h_v34]; rfl

/-- Operations 134 to 139 of the line: one less the sum over 64. -/
abbrev w18 : List (HloOp τ sig (Elt F)) :=
  [ nullary main_cst_14 (constant S_ .f32 0x42800000#32),
    unary main_cst_14 main_v36 (broadcastInDim S524288x64 ![] bcast_S_S524288x64 : (⟨S_, .f32⟩ : BufTy).Contents (Elt F) → (⟨S524288x64, .f32⟩ : BufTy).Contents (Elt F)),
    binary main_v35 main_v36 main_v37 (Host.divf : (⟨S524288x64, .f32⟩ : BufTy).Contents (Elt F) → (⟨S524288x64, .f32⟩ : BufTy).Contents (Elt F) → (⟨S524288x64, .f32⟩ : BufTy).Contents (Elt F)),
    nullary main_cst_15 (constant S_ .f32 0x3F800000#32),
    unary main_cst_15 main_v38 (broadcastInDim S524288x64 ![] bcast_S_S524288x64 : (⟨S_, .f32⟩ : BufTy).Contents (Elt F) → (⟨S524288x64, .f32⟩ : BufTy).Contents (Elt F)),
    binary main_v38 main_v37 main_v39 (subf : (⟨S524288x64, .f32⟩ : BufTy).Contents (Elt F) → (⟨S524288x64, .f32⟩ : BufTy).Contents (Elt F) → (⟨S524288x64, .f32⟩ : BufTy).Contents (Elt F)) ]

/-- What the buffers still read later hold once operations 0 to 139 have run from contents whose argument is `x`. -/
abbrev Inv18 (W : Valuation τ sig (Elt F)) (x : FVec F S8192x64 .f32) : Prop :=
  W (main_arg0 : DevRef τ sig) = x
  ∧ W (main_v1 : DevRef τ sig) = Term.cond x
  ∧ W (main_v39 : DevRef τ sig) = Term.dist x

attribute [local irreducible] Host.reduce Host.reduceWindow Host.scatter Host.gather Host.reduceAdd concatenate in
set_option maxRecDepth 8192 in
/-- Operations 134 to 139 carry the buffers' contents forward: the one new value is its stage of the values before
    it, and no other live buffer is written. -/
theorem step18 (x : FVec F S8192x64 .f32) (W : Valuation τ sig (Elt F)) (h : Inv17 W x) :
    Inv18 (after w18 W) x := by
  obtain ⟨h_arg0, h_v1, h_v35⟩ := h
  refine ⟨?_, ?_, ?_⟩
  · after_results_simp; exact h_arg0
  · after_results_simp; exact h_v1
  · after_results_simp; simp only [h_v35]; rfl

/-- Operations 140 to 145 of the line: which list indices lie below the number of selected entries. -/
abbrev w19 : List (HloOp τ sig (Elt F)) :=
  [ unary main_v1 main_v40 ((extui 32 · natLt_1_32) : (⟨S8192x64, .i1⟩ : BufTy).Contents (Elt F) → (⟨S8192x64, .i32⟩ : BufTy).Contents (Elt F)),
    nullary main_c_16 (constantI S_ 32 0#32),
    binary main_v40 main_c_16 main_v41 ((fun x v => Host.reduce IntOp.addi x v reducesTo_S8192x64_S_d0_1 h_S_) : (⟨S8192x64, .i32⟩ : BufTy).Contents (Elt F) → (⟨S_, .i32⟩ : BufTy).Contents (Elt F) → (⟨S_, .i32⟩ : BufTy).Contents (Elt F)),
    nullary main_v42 (iotaInDim S524288 32 0),
    unary main_v41 main_v43 (broadcastInDim S524288 ![] bcast_S_S524288 : (⟨S_, .i32⟩ : BufTy).Contents (Elt F) → (⟨S524288, .i32⟩ : BufTy).Contents (Elt F)),
    binary main_v42 main_v43 main_v44 (cmpi .slt : (⟨S524288, .i32⟩ : BufTy).Contents (Elt F) → (⟨S524288, .i32⟩ : BufTy).Contents (Elt F) → (⟨S524288, .i1⟩ : BufTy).Contents (Elt F)) ]

/-- What the buffers still read later hold once operations 0 to 145 have run from contents whose argument is `x`. -/
abbrev Inv19 (W : Valuation τ sig (Elt F)) (x : FVec F S8192x64 .f32) : Prop :=
  W (main_arg0 : DevRef τ sig) = x
  ∧ W (main_v39 : DevRef τ sig) = Term.dist x
  ∧ W (main_v44 : DevRef τ sig) = Term.valid x

attribute [local irreducible] Host.reduce Host.reduceWindow Host.scatter Host.gather Host.reduceAdd concatenate in
set_option maxRecDepth 8192 in
/-- Operations 140 to 145 carry the buffers' contents forward: the one new value is its stage of the values before
    it, and no other live buffer is written. -/
theorem step19 (x : FVec F S8192x64 .f32) (W : Valuation τ sig (Elt F)) (h : Inv18 W x) :
    Inv19 (after w19 W) x := by
  obtain ⟨h_arg0, h_v1, h_v39⟩ := h
  refine ⟨?_, ?_, ?_⟩
  · after_results_simp; exact h_arg0
  · after_results_simp; exact h_v39
  · after_results_simp; simp only [h_v1]; rfl

/-- Operations 146 to 152 of the line: the squares kept below the number of selected entries. -/
abbrev w20 : List (HloOp τ sig (Elt F)) :=
  [ unary main_v44 main_v45 (broadcastInDim S524288x1 ![0] bcast_S524288_S524288x1_0 : (⟨S524288, .i1⟩ : BufTy).Contents (Elt F) → (⟨S524288x1, .i1⟩ : BufTy).Contents (Elt F)),
    binary main_v39 main_v39 main_v46 (mulf : (⟨S524288x64, .f32⟩ : BufTy).Contents (Elt F) → (⟨S524288x64, .f32⟩ : BufTy).Contents (Elt F) → (⟨S524288x64, .f32⟩ : BufTy).Contents (Elt F)),
    nullary main_cst_17 (constant S_ .f32 0x00000000#32),
    TRef.unary (.of main_cst_17 : TRef sig ⟨S_, .f32⟩) main_call9.v0 id,
    TRef.unary (.of main_v45 : TRef sig ⟨S524288x1, .i1⟩) main_call9.v1 (broadcastInDim S524288x64 ![0, 1] bcast_S524288x1_S524288x64_0_1),
    TRef.unary main_call9.v0 main_call9.v2 (broadcastInDim S524288x64 ![] bcast_S_S524288x64),
    TRef.ternary main_call9.v1 (.of main_v46 : TRef sig ⟨S524288x64, .f32⟩) main_call9.v2 main_call9.v3 select ]

/-- What the buffers still read later hold once operations 0 to 152 have run from contents whose argument is `x`. -/
abbrev Inv20 (W : Valuation τ sig (Elt F)) (x : FVec F S8192x64 .f32) : Prop :=
  W (main_arg0 : DevRef τ sig) = x
  ∧ W (main_v47 : DevRef τ sig) = Term.kept x

attribute [local irreducible] Host.reduce Host.reduceWindow Host.scatter Host.gather Host.reduceAdd concatenate in
set_option maxRecDepth 8192 in
/-- Operations 146 to 152 carry the buffers' contents forward: the one new value is its stage of the values before
    it, and no other live buffer is written. -/
theorem step20 (x : FVec F S8192x64 .f32) (W : Valuation τ sig (Elt F)) (h : Inv19 W x) :
    Inv20 (after w20 W) x := by
  obtain ⟨h_arg0, h_v39, h_v44⟩ := h
  refine ⟨?_, ?_⟩
  · after_results_simp; exact h_arg0
  · after_results_simp; simp only [cast_eq, h_v39, h_v44]; rfl

/-- Operations 153 to 154 of the line: the sum of the kept squares. -/
abbrev w21 : List (HloOp τ sig (Elt F)) :=
  [ nullary main_cst_18 (constant S_ .f32 0x00000000#32),
    binary main_v47 main_cst_18 main_v48 ((fun x v => Host.reduceAdd x v reducesTo_S524288x64_S_d0_1 h_S_) : (⟨S524288x64, .f32⟩ : BufTy).Contents (Elt F) → (⟨S_, .f32⟩ : BufTy).Contents (Elt F) → (⟨S_, .f32⟩ : BufTy).Contents (Elt F)) ]

/-- What the buffers still read later hold once operations 0 to 154 have run from contents whose argument is `x`. -/
abbrev Inv21 (W : Valuation τ sig (Elt F)) (x : FVec F S8192x64 .f32) : Prop :=
  W (main_arg0 : DevRef τ sig) = x
  ∧ W (main_v48 : DevRef τ sig) = Term.sumSq x

attribute [local irreducible] Host.reduce Host.reduceWindow Host.scatter Host.gather Host.reduceAdd concatenate in
set_option maxRecDepth 8192 in
/-- Operations 153 to 154 carry the buffers' contents forward: the one new value is its stage of the values before
    it, and no other live buffer is written. -/
theorem step21 (x : FVec F S8192x64 .f32) (W : Valuation τ sig (Elt F)) (h : Inv20 W x) :
    Inv21 (after w21 W) x := by
  obtain ⟨h_arg0, h_v47⟩ := h
  refine ⟨?_, ?_⟩
  · after_results_simp; exact h_arg0
  · after_results_simp; simp only [h_v47]; rfl

/-- Operations 155 to 159 of the line: the result. -/
abbrev w22 : List (HloOp τ sig (Elt F)) :=
  [ unary main_v48 main_v49 (Host.sqrt : (⟨S_, .f32⟩ : BufTy).Contents (Elt F) → (⟨S_, .f32⟩ : BufTy).Contents (Elt F)),
    nullary main_cst_19 (constant S_ .f32 0x42800000#32),
    binary main_v49 main_cst_19 main_v50 (Host.divf : (⟨S_, .f32⟩ : BufTy).Contents (Elt F) → (⟨S_, .f32⟩ : BufTy).Contents (Elt F) → (⟨S_, .f32⟩ : BufTy).Contents (Elt F)),
    nullary main_cst_20 (constant S_ .f32 0x3C23D70A#32),
    binary main_cst_20 main_v50 main_v51 (mulf : (⟨S_, .f32⟩ : BufTy).Contents (Elt F) → (⟨S_, .f32⟩ : BufTy).Contents (Elt F) → (⟨S_, .f32⟩ : BufTy).Contents (Elt F)) ]

/-- What the buffers still read later hold once operations 0 to 159 have run from contents whose argument is `x`. -/
abbrev Inv22 (W : Valuation τ sig (Elt F)) (x : FVec F S8192x64 .f32) : Prop :=
  W (main_arg0 : DevRef τ sig) = x
  ∧ W (main_v51 : DevRef τ sig) = Term.out x

attribute [local irreducible] Host.reduce Host.reduceWindow Host.scatter Host.gather Host.reduceAdd concatenate in
set_option maxRecDepth 8192 in
/-- Operations 155 to 159 carry the buffers' contents forward: the one new value is its stage of the values before
    it, and no other live buffer is written. -/
theorem step22 (x : FVec F S8192x64 .f32) (W : Valuation τ sig (Elt F)) (h : Inv21 W x) :
    Inv22 (after w22 W) x := by
  obtain ⟨h_arg0, h_v48⟩ := h
  refine ⟨?_, ?_⟩
  · after_results_simp; exact h_arg0
  · after_results_simp; simp only [h_v48]; rfl

/-- The line is its 23 windows in order. -/
theorem ops_split : (ops : List (HloOp τ sig (Elt F))) = w0 ++ (w1 ++ (w2 ++ (w3 ++ (w4 ++ (w5 ++ (w6 ++ (w7 ++ (w8 ++ (w9 ++ (w10 ++ (w11 ++ (w12 ++ (w13 ++ (w14 ++ (w15 ++ (w16 ++ (w17 ++ (w18 ++ (w19 ++ (w20 ++ (w21 ++ (w22)))))))))))))))))))))) := rfl

/-- After the whole line: the argument is unchanged and the result buffer holds the staged term of it. -/
theorem chain (V : Valuation τ sig (Elt F)) : Inv22 (after ops V) (V (main_arg0 : DevRef τ sig)) := by
  rw [ops_split]
  simp only [after_append]
  have s0 := step0 (V (main_arg0 : DevRef τ sig)) V rfl
  have s1 := step1 _ _ s0
  have s2 := step2 _ _ s1
  have s3 := step3 _ _ s2
  have s4 := step4 _ _ s3
  have s5 := step5 _ _ s4
  have s6 := step6 _ _ s5
  have s7 := step7 _ _ s6
  have s8 := step8 _ _ s7
  have s9 := step9 _ _ s8
  have s10 := step10 _ _ s9
  have s11 := step11 _ _ s10
  have s12 := step12 _ _ s11
  have s13 := step13 _ _ s12
  have s14 := step14 _ _ s13
  have s15 := step15 _ _ s14
  have s16 := step16 _ _ s15
  have s17 := step17 _ _ s16
  have s18 := step18 _ _ s17
  have s19 := step19 _ _ s18
  have s20 := step20 _ _ s19
  have s21 := step21 _ _ s20
  have s22 := step22 _ _ s21
  exact s22

end Cert.ReferenceIdeal.Value

end
-- ==== Proof.RefRun.lean ====
/-
  The reference's run: its program is a straight line of array operations, and every execution of it ends with the
  result at the staged term of the argument and the argument unchanged.
-/
import proofs.«162556_g44856638440002_cont_sun_c4_349_4_alg».proof.Proof.Gen.ReferenceIdeal
import proofs.«162556_g44856638440002_cont_sun_c4_349_4_alg».proof.Proof.RefTerm
import Idealize.ShloMosaic.Lib.StableHlo.Run
import proofs.«162556_g44856638440002_cont_sun_c4_349_4_alg».proof.Proof.RefOps
import proofs.«162556_g44856638440002_cont_sun_c4_349_4_alg».proof.Proof.RefWindows

noncomputable section

namespace Cert.ReferenceIdeal.Value

open Cert.ReferenceIdeal Cert.ReferenceIdeal.Gen Idealize.ShloMosaic Idealize.ShloMosaic.TcCoe Idealize.SL.Sem
  Idealize.ShloMosaic.StableHlo

variable {F : FTy → Type} [FloatOps F]

set_option maxRecDepth 8192 in
/-- The reference is the straight line of its operations: every outlined function unfolded at its call, and sequencing
    reassociated. -/
theorem main_eq (c : Dev nD) : main (F := F) c = seq ops := by
  simp only [main, main_part0, main_part1, fn_cumsum.body, fn_cumsum_0.body, fn_clip.body, fn_cumsum_1.body, fn_where.body,
    fn_floor_divide.body, fn_where_2.body, fn_remainder.body, fn_where_3.body, fn_where_4.body, seq, bind_assoc, pure_bind]

/-- No buffer of the device is scoped. -/
theorem scopedRefs_eq : (Finset.univ.filter fun b : Ref sig .tc => b.isScoped) = ∅ := by decide
/-- No semaphore of the device is scoped. -/
theorem scopedSems_eq : (Finset.univ.filter fun sm : SemLoc sig => sm.isScoped .tc) = ∅ := by decide

/-- After the whole line the result buffer holds the staged term of the argument. -/
theorem out_eq (V : Valuation τ sig (Elt F)) :
    after ops V (main_v51 : DevRef τ sig) = Term.out (V (main_arg0 : DevRef τ sig)) := (chain V).2

/-- No operation writes the argument. -/
theorem arg0_eq (V : Valuation τ sig (Elt F)) :
    after ops V (main_arg0 : DevRef τ sig) = V (main_arg0 : DevRef τ sig) := (chain V).1

/-- On the one device, from any memory with zero counters: every weakly fair execution of the reference terminates
    with its result at `Term.out` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = Term.out (m ((c.tc : Thread nD τ).loc main_arg0))
      ∧ r.2.mem ((c.tc : Thread nD τ).loc main_arg0) = m ((c.tc : Thread nD τ).loc main_arg0) :=
  (θ_run defs _ _).mono (fun _ h c => ⟨(h c main_v51).trans (out_eq _), (h c main_arg0).trans (arg0_eq _)⟩)
    (run_seq scopedRefs_eq scopedSems_eq defs main (fun _ => ops) main_eq (fun _ => ops_sub) m ρ)

end Cert.ReferenceIdeal.Value

end
-- ==== Proof.LibEnum.lean ====
/-
  Enumerating the positions where a predicate holds, by two running counts.

  Over the positions `0, …, N-1` let `pre i` be the number of positions `≤ i` where `p` holds (an inclusive running
  count), `bin v` the number of positions whose running count is exactly `v`, and `flat k` the running sum of `bin` up
  to `k`, that is the number of positions whose running count is at most `k`. Since the running count rises by one
  exactly at the positions where `p` holds, `flat k` is the `(k+1)`-th such position whenever there is one: `k ↦ flat k`
  enumerates them in increasing order, and a sum over `k` below their number is the sum over the positions themselves.
-/
import Mathlib.Data.Real.Basic
import Mathlib.Algebra.BigOperators.Group.Finset.Basic
import Mathlib.Data.Finset.Card

namespace Cert.Enum

open scoped BigOperators

variable (N : ℕ) (p : ℕ → Prop) [DecidablePred p]

/-- The inclusive running count: how many positions `≤ i` satisfy `p`. -/
def pre (i : ℕ) : ℕ := ((Finset.range (i + 1)).filter p).card

/-- How many of the positions below `N` satisfy `p`. -/
def cnt : ℕ := ((Finset.range N).filter p).card

/-- How many positions below `N` have running count exactly `v`. -/
def bin (v : ℕ) : ℕ := ((Finset.range N).filter fun i => pre p i = v).card

/-- The running sum of `bin`: how many positions below `N` have running count at most `k`. -/
def flat (k : ℕ) : ℕ := ∑ v ∈ Finset.range (k + 1), bin N p v

/-- The running count at `i` is the number of positions below `i + 1` satisfying `p`. -/
private theorem pre_eq (i : ℕ) : pre p i = cnt (i + 1) p := rfl

/-- Passing from `N` to `N + 1` positions adds one to the count exactly when `p N` holds. -/
private theorem cnt_succ : cnt (N + 1) p = cnt N p + if p N then 1 else 0 := by
  unfold cnt
  rw [Finset.range_add_one, Finset.filter_insert]
  by_cases h : p N
  · rw [if_pos h, if_pos h, Finset.card_insert_of_notMem]
    simp
  · rw [if_neg h, if_neg h, add_zero]

/-- The count is monotone in the bound. -/
private theorem cnt_mono {M K : ℕ} (h : M ≤ K) : cnt M p ≤ cnt K p := by
  unfold cnt
  exact Finset.card_le_card (Finset.filter_subset_filter _ (Finset.range_mono h))

theorem pre_le_cnt {i : ℕ} (hi : i < N) : pre p i ≤ cnt N p := by
  rw [pre_eq]
  exact cnt_mono p (Nat.succ_le_of_lt hi)

theorem cnt_le : cnt N p ≤ N := by
  unfold cnt
  exact (Finset.card_filter_le _ _).trans (Finset.card_range N).le

/-- The running sum of the bins counts the positions whose running count is at most `k`: these positions are split
according to the value of their running count, which ranges over `0, …, k`. -/
private theorem flat_eq (k : ℕ) :
    flat N p k = ((Finset.range N).filter fun i => pre p i ≤ k).card := by
  unfold flat bin
  rw [Finset.card_eq_sum_card_fiberwise (f := pre p) (t := Finset.range (k + 1))]
  · refine Finset.sum_congr rfl fun v hv => ?_
    rw [Finset.filter_filter]
    refine congrArg Finset.card (Finset.filter_congr fun i _ => ?_)
    have hv' : v < k + 1 := Finset.mem_range.mp hv
    constructor
    · intro h
      exact ⟨by omega, h⟩
    · exact fun h => h.2
  · intro i hi
    have := (Finset.mem_filter.mp hi).2
    exact Finset.mem_range.mpr (Nat.lt_succ_of_le this)

/-- One more position adds one to `flat k` exactly when its running count is at most `k`. -/
private theorem flat_succ (k : ℕ) :
    flat (N + 1) p k = flat N p k + if pre p N ≤ k then 1 else 0 := by
  rw [flat_eq, flat_eq, Finset.range_add_one, Finset.filter_insert]
  by_cases h : pre p N ≤ k
  · rw [if_pos h, if_pos h, Finset.card_insert_of_notMem]
    simp
  · rw [if_neg h, if_neg h, add_zero]

/-- Once `k` reaches the total count, every position has running count at most `k`. -/
private theorem flat_full {k : ℕ} (h : cnt N p ≤ k) : flat N p k = N := by
  rw [flat_eq, Finset.filter_true_of_mem, Finset.card_range]
  intro i hi
  exact (pre_le_cnt N p (Finset.mem_range.mp hi)).trans h

/-- Below the count of the first `N + 1` positions, the position `N` itself has running count above `k`, so it
does not contribute to `flat k`. -/
private theorem flat_step {k : ℕ} (h : k < cnt (N + 1) p) : flat (N + 1) p k = flat N p k := by
  rw [flat_succ, if_neg, add_zero]
  rw [pre_eq]
  omega

/-- The total of all the bins a running sum can reach stays below `N + 1`: every position is counted once. -/
theorem flat_le (k : ℕ) : flat N p k ≤ N := by
  rw [flat_eq]
  exact (Finset.card_filter_le _ _).trans (Finset.card_range N).le

/-- Below the count, `flat k` is a position and satisfies `p`. By induction on the number of positions: either `k`
was already below the count of the first `N` positions and nothing changes, or `k` equals that count, `p N` holds,
and `flat k` is `N` itself. -/
private theorem flat_lt_mem : ∀ k, k < cnt N p → flat N p k < N ∧ p (flat N p k) := by
  induction N with
  | zero =>
    intro k h
    simp [cnt] at h
  | succ N ih =>
    intro k h
    rw [flat_step N p h]
    by_cases hk : k < cnt N p
    · obtain ⟨h1, h2⟩ := ih k hk
      exact ⟨Nat.lt_succ_of_lt h1, h2⟩
    · have hk' : cnt N p ≤ k := Nat.le_of_not_lt hk
      rw [flat_full N p hk']
      refine ⟨Nat.lt_succ_self N, ?_⟩
      by_contra hp
      rw [cnt_succ, if_neg hp] at h
      omega

/-- Below the number of positions satisfying `p`, `flat k` is a position, -/
theorem flat_lt {k : ℕ} (hk : k < cnt N p) : flat N p k < N :=
  (flat_lt_mem N p k hk).1

/-- it satisfies `p`, -/
theorem flat_mem {k : ℕ} (hk : k < cnt N p) : p (flat N p k) :=
  (flat_lt_mem N p k hk).2

/-- A sum over `k < N` of terms that vanish from `c ≤ N` on is the sum over `k < c`. -/
private theorem sum_cut {c : ℕ} (hc : c ≤ N) (f : ℕ → ℝ) :
    ∑ k ∈ Finset.range N, (if k < c then f k else 0) = ∑ k ∈ Finset.range c, f k := by
  rw [← Finset.sum_filter]
  refine Finset.sum_congr ?_ fun _ _ => rfl
  ext k
  simp only [Finset.mem_filter, Finset.mem_range]
  omega

/-- Summing along the enumeration, by induction on the number of positions: a new position satisfying `p` appends
exactly one term, namely the value at that position, and leaves the earlier terms unchanged. -/
private theorem sum_enum_aux (g : ℕ → ℝ) :
    ∑ k ∈ Finset.range (cnt N p), g (flat N p k) = ∑ i ∈ Finset.range N, if p i then g i else 0 := by
  induction N with
  | zero => simp [cnt]
  | succ N ih =>
    rw [Finset.sum_range_succ (fun i => if p i then g i else 0) N, ← ih]
    have hstep : ∀ k ∈ Finset.range (cnt N p), g (flat (N + 1) p k) = g (flat N p k) := by
      intro k hk
      rw [flat_step N p (lt_of_lt_of_le (Finset.mem_range.mp hk) (cnt_mono p (Nat.le_succ N)))]
    by_cases hp : p N
    · have hc : cnt (N + 1) p = cnt N p + 1 := by rw [cnt_succ, if_pos hp]
      rw [if_pos hp, hc, Finset.sum_range_succ, Finset.sum_congr rfl hstep,
        flat_step N p (by omega), flat_full N p le_rfl]
    · have hc : cnt (N + 1) p = cnt N p := by rw [cnt_succ, if_neg hp, add_zero]
      rw [if_neg hp, hc, add_zero, Finset.sum_congr rfl hstep]

/-- and summing over the enumeration is summing over the positions that satisfy `p`. -/
theorem sum_enum (g : ℕ → ℝ) :
    ∑ k ∈ Finset.range N, (if k < cnt N p then g (flat N p k) else 0)
      = ∑ i ∈ Finset.range N, if p i then g i else 0 := by
  rw [sum_cut N (cnt_le N p) fun k => g (flat N p k)]
  exact sum_enum_aux N p g

end Cert.Enum
-- ==== Proof.LibIntCumsum.lean ====
/-
  The inclusive running sum of a flat array of 32-bit integers, as natural numbers.

  The running sum is taken with a window as long as the array, padded on the low side by one less than its length:
  window `j` then holds the padding and the entries `0, …, j`, so entry `j` of the result is the sum of the entries up to
  `j`. When the whole array's sum fits in 32 bits no partial sum wraps, and the word at `j` denotes that sum.
-/
import Idealize.ShloMosaic.PureOps
import Idealize.ShloMosaic.Lib.ValueIdx
import Idealize.ShloMosaic.Lib.StableHlo.Predicate

namespace Cert.IntLemmas

open Idealize.ShloMosaic Idealize.ShloMosaic.ValueIdx
open scoped BigOperators

/-- A left fold of word addition from a word is the word of that word's value plus the sum of the values. -/
private theorem foldl_addi_eq {ι : Type} (l : List ι) (g : ι → BitVec 32) (v : BitVec 32) :
    l.foldl (fun r n => IntOp.addi r (g n)) v = BitVec.ofNat 32 (v.toNat + (l.map fun n => (g n).toNat).sum) := by
  induction l generalizing v with
  | nil => simp
  | cons x l ih =>
    rw [List.foldl_cons, ih]
    apply BitVec.eq_of_toNat_eq
    simp only [BitVec.toNat_ofNat, List.map_cons, List.sum_cons]
    rw [show IntOp.addi v (g x) = v + g x from rfl, BitVec.toNat_add]
    omega

/-- The indices of a flat array are its positions. -/
private def flatIdx (n : ℕ) : (⟨1, ![n]⟩ : Shape).Idx ≃ Fin n where
  toFun i := i 0
  invFun := ix1
  left_inv i := (eq_ix1 i).symm
  right_inv _ := rfl

/-- Shifting a window that ends at `j` back by the padding: the positions `m` with `P ≤ j + m` are the entries `0, …, j`. -/
private theorem sum_shift (f : ℕ → ℕ) {N P j : ℕ} (hP : P + 1 = N) (hj : j < N) :
    ∑ m ∈ Finset.range N, (if P ≤ j + m then f (j + m - P) else 0)
      = ∑ i ∈ Finset.range N, (if i ≤ j then f i else 0) := by
  rw [← Finset.sum_filter, ← Finset.sum_filter]
  refine Finset.sum_nbij' (fun m => j + m - P) (fun i => i + P - j) ?_ ?_ ?_ ?_ ?_
  · intro m hm
    simp only [Finset.mem_filter, Finset.mem_range] at hm ⊢
    omega
  · intro i hi
    simp only [Finset.mem_filter, Finset.mem_range] at hi ⊢
    omega
  · intro m hm
    simp only [Finset.mem_filter, Finset.mem_range] at hm
    show j + m - P + P - j = m
    omega
  · intro i hi
    simp only [Finset.mem_filter, Finset.mem_range] at hi
    show j + (i + P - j) - P = i
    omega
  · intro m _
    rfl

/-- Entry `j` of the running sum of `a` is the sum of `a`'s entries up to `j`, when the whole sum fits in a word. -/
theorem runSum_toNat {N P : ℕ} (hP : P + 1 = N) (a : IVec ⟨1, ![N]⟩ 32) (z : IVec ⟨0, ![]⟩ 32) (hz : ∀ i, z i = 0#32)
    (h : (⟨1, ![N]⟩ : Shape).ReduceWindows (![N] : Fin 1 → Nat) ![1] ![P] ![0] ⟨1, ![N]⟩)
    (hu : 0 < (⟨0, ![]⟩ : Shape).numel)
    (hsum : ∑ i : Fin N, (a (ix1 i)).toNat < 2 ^ 32) (j : Fin N) :
    (Host.reduceWindow IntOp.addi (![N] : Fin 1 → Nat) ![1] ![P] ![0] a z h hu (ix1 j)).toNat
      = ∑ i ∈ Finset.univ.filter (fun i : Fin N => i.val ≤ j.val), (a (ix1 i)).toNat := by
  -- a partial sum is at most the whole sum, so it fits in a word too
  have hR : ∑ i ∈ Finset.univ.filter (fun i : Fin N => i.val ≤ j.val), (a (ix1 i)).toNat < 2 ^ 32 :=
    lt_of_le_of_lt (Finset.sum_le_sum_of_subset (Finset.filter_subset _ _)) hsum
  -- the entries as a function of a natural-number position, zero past the end
  let a' : ℕ → ℕ := fun k => if hk : k < N then (a (ix1 ⟨k, hk⟩)).toNat else 0
  have ha' : ∀ i : Fin N, a' i.val = (a (ix1 i)).toNat := fun i => dif_pos i.isLt
  -- the window's fold is the word of the sum, over the window's positions, of the values it reads
  unfold Host.reduceWindow
  simp only [hz]
  rw [foldl_addi_eq, BitVec.toNat_ofNat, BitVec.toNat_zero, Nat.zero_add, ← Fin.sum_univ_def]
  refine (congrArg (· % 2 ^ 32) ?_).trans (Nat.mod_eq_of_lt hR)
  -- a window position is a number `m` below `N`; it reads entry `j + m - P` when `P ≤ j + m`, else the padding's zero
  refine (Fintype.sum_equiv ((⟨1, ![N]⟩ : Shape).rowMajor.symm.trans (flatIdx N)) _
    (fun m : Fin N => if P ≤ j.val + m.val then a' (j.val + m.val - P) else 0) (fun n => ?_)).trans ?_
  · show _ = if P ≤ j.val + (((⟨1, ![N]⟩ : Shape).rowMajor.symm n) 0).val then a' (j.val + (((⟨1, ![N]⟩ : Shape).rowMajor.symm n) 0).val - P) else 0
    have hw : (((⟨1, ![N]⟩ : Shape).rowMajor.symm n) 0).val < N := ((⟨1, ![N]⟩ : Shape).rowMajor.symm n 0).isLt
    have hjN := j.isLt
    by_cases hc : P ≤ j.val + (((⟨1, ![N]⟩ : Shape).rowMajor.symm n) 0).val
    · have hlt : j.val + (((⟨1, ![N]⟩ : Shape).rowMajor.symm n) 0).val - P < N := by omega
      rw [if_pos hc, dif_pos, show a' (j.val + (((⟨1, ![N]⟩ : Shape).rowMajor.symm n) 0).val - P) = _ from dif_pos hlt]
      · congr 2
        funext b
        match b with
        | ⟨0, _⟩ => exact Fin.ext (by show j.val * 1 + _ - P = _; rw [Nat.mul_one]; rfl)
      · intro b
        match b with
        | ⟨0, _⟩ =>
          show P ≤ j.val * 1 + (((⟨1, ![N]⟩ : Shape).rowMajor.symm n) 0).val ∧ j.val * 1 + (((⟨1, ![N]⟩ : Shape).rowMajor.symm n) 0).val - P < N
          omega
    · rw [if_neg hc, dif_neg]
      · rfl
      · intro hall
        have h0 : P ≤ j.val * 1 + (((⟨1, ![N]⟩ : Shape).rowMajor.symm n) 0).val := (hall 0).1
        omega
  · -- the positions `m` with `P ≤ j + m` are, shifted by `P - j`, the entries `0, …, j`
    rw [Finset.sum_filter]
    rw [Fin.sum_univ_eq_sum_range (fun m => if P ≤ j.val + m then a' (j.val + m - P) else 0) N]
    rw [sum_shift a' hP j.isLt, ← Fin.sum_univ_eq_sum_range (fun i => if i ≤ j.val then a' i else 0) N]
    exact Finset.sum_congr rfl fun i _ => by rw [ha']

end Cert.IntLemmas
-- ==== Proof.LibIntBincount.lean ====
/-
  Counting how often each value occurs: ones added into zeros at given positions.

  Every list entry `n` adds one to the cell its index names, read as a signed integer; an index outside the array is
  dropped. Addition being commutative and associative, the cell `v` ends at the number of entries whose index is `v`,
  which fits in a word because there are fewer than `2^31` entries.
-/
import Idealize.ShloMosaic.PureOps
import Idealize.ShloMosaic.Lib.ValueIdx
import Idealize.ShloMosaic.Lib.StableHlo.Predicate

namespace Cert.IntLemmas

open Idealize.ShloMosaic Idealize.ShloMosaic.ValueIdx
open scoped BigOperators

/-- Where entry `j` lands. The one operand axis is both inserted and index-addressed and the index vector lies along
    the second axis of the column of indices, so the landing position is the signed value of the index in row `j 0`,
    with no window offset; it is the cell `v` exactly when that signed value is `v` (a value outside `[0, N)` lands
    nowhere, and is then no `v`). -/
private theorem resultIdx?_eq_some_iff {N : ℕ} (d : ScatterDims ⟨1, ![N]⟩ ⟨2, ![N, 1]⟩ ⟨1, ![N]⟩)
    (hiw : d.insertedWindowDims = [0]) (hsd : d.scatterDimsToOperandDims = [0])
    (hiv : d.indexVectorDim = 1) (idx : IVec ⟨2, ![N, 1]⟩ 32) (j : (⟨1, ![N]⟩ : Shape).Idx) (v : Fin N) :
    d.resultIdx? j idx = some (ix1 v) ↔ (idx (ix2 (j 0) (0 : Fin 1))).toInt = (v.val : ℤ) := by
  have hm : (0 : Fin 1) ∈ d.scatterDimsToOperandDims := by rw [hsd]; exact List.mem_singleton.mpr rfl
  have hk : (0 : Fin 1) ∉ d.sKept := by
    show (0 : Fin 1) ∉ (List.finRange 1).filter (· ∉ d.insertedWindowDims)
    rw [hiw]; simp
  have hsi : ∀ c, d.siIdx j c = ix2 (j 0) (0 : Fin 1) := by
    intro c
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ => exact Subsingleton.elim (α := Fin 1) _ _
  have hstart : d.start j idx 0 = (idx (ix2 (j 0) (0 : Fin 1))).toInt := by
    unfold ScatterDims.start
    rw [dif_pos hm, hsi]
    rfl
  have hwin : d.window j 0 = 0 := by
    unfold ScatterDims.window
    rw [dif_neg hk]
  unfold ScatterDims.resultIdx?
  split_ifs with h
  · rw [Option.some.injEq]
    constructor
    · intro e
      have h1 : (d.start j idx 0 + (d.window j 0 : ℤ)).toNat = v.val := congrArg (fun g => (g 0).val) e
      have h0 := (h 0).1
      rw [hstart, hwin] at h1 h0
      omega
    · intro e
      funext a
      obtain rfl : a = 0 := Subsingleton.elim _ _
      apply Fin.ext
      show (d.start j idx 0 + (d.window j 0 : ℤ)).toNat = v.val
      rw [hstart, hwin, e]; simp
  · constructor
    · intro e; exact absurd e (by simp)
    · intro e
      exfalso; apply h
      intro a
      obtain rfl : a = 0 := Subsingleton.elim _ _
      rw [hstart, hwin, e]
      have hv := v.isLt
      constructor
      · omega
      · show (v.val : ℤ) + ((0 : ℕ) : ℤ) < ((N : ℕ) : ℤ)
        omega

/-- A left fold whose step adds one to cell `c` at the entries `p` marks, and leaves that cell alone at the others,
    ends with the cell at its start value plus the number of marked entries (induction on the list; the sum is taken
    in the words, where it may wrap). -/
private theorem foldl_count {ι κ : Type} (step : (ι → BitVec 32) → κ → (ι → BitVec 32)) (p : κ → Bool) (c : ι)
    (hstep : ∀ r n, step r n c = if p n then r c + 1#32 else r c) (L : List κ) (r : ι → BitVec 32) :
    (L.foldl step r) c = r c + BitVec.ofNat 32 (L.countP p) := by
  induction L generalizing r with
  | nil => simp
  | cons n L ih =>
    rw [List.foldl_cons, ih, hstep, List.countP_cons]
    by_cases h : p n = true
    · rw [if_pos h, if_pos h, BitVec.ofNat_add, BitVec.add_assoc, BitVec.add_comm (BitVec.ofNat 32 (List.countP p L))]
    · rw [if_neg h, if_neg h, Nat.add_zero]

/-- Counting the marked positions along the list `0, 1, …, m − 1` is the size of the set of marked positions. -/
private theorem countP_finRange {m : ℕ} (p : Fin m → Prop) [DecidablePred p] :
    (List.finRange m).countP (fun n => decide (p n)) = (Finset.univ.filter p).card := by
  rw [List.countP_eq_length_filter]
  rfl

/-- A position in the flat array of `N` entries, numbered in row-major order, is its one coordinate. -/
private def cellEquiv (N : ℕ) : Fin (⟨1, ![N]⟩ : Shape).numel ≃ Fin N :=
  (⟨1, ![N]⟩ : Shape).rowMajor.symm.trans
    { toFun := fun j => j 0, invFun := ix1, left_inv := fun j => (eq_ix1 j).symm, right_inv := fun _ => rfl }

/-- Cell `v` of the scatter of ones into zeros holds the number of entries whose index, read signed, is `v`. -/
theorem bins_toNat {N : ℕ} (hN : N < 2 ^ 31) (d : ScatterDims ⟨1, ![N]⟩ ⟨2, ![N, 1]⟩ ⟨1, ![N]⟩)
    (huw : d.updateWindowDims = []) (hiw : d.insertedWindowDims = [0]) (hsd : d.scatterDimsToOperandDims = [0])
    (hiv : d.indexVectorDim = 1)
    (x0 : IVec ⟨1, ![N]⟩ 32) (hx0 : ∀ i, x0 i = 0#32) (idx : IVec ⟨2, ![N, 1]⟩ 32)
    (upd : IVec ⟨1, ![N]⟩ 32) (hupd : ∀ i, upd i = 1#32) (v : Fin N) :
    (Host.scatter d IntOp.addi x0 idx upd (ix1 v)).toNat
      = (Finset.univ.filter fun n : Fin N => (idx (ix2 n (0 : Fin 1))).toInt = (v.val : ℤ)).card := by
  classical
  have hnum : (⟨1, ![N]⟩ : Shape).numel = N := Shape.numel_rank1 _
  unfold Host.scatter
  -- every entry adds one to cell `v` when it lands there and leaves the cell alone otherwise
  rw [foldl_count _ (fun n => decide (d.resultIdx? ((⟨1, ![N]⟩ : Shape).rowMajor.symm n) idx = some (ix1 v))) (ix1 v) ?hs]
  case hs =>
    intro r n
    rw [hupd]
    generalize d.resultIdx? _ idx = o
    cases o with
    | none => simp
    | some i =>
      by_cases h : ix1 v = i
      · subst h; simp [IntOp.addi]
      · have h' : ¬ i = ix1 v := fun e => h e.symm
        simp [h, h']
  -- so the cell holds the word of the number of entries landing there; fewer than `2^31` of them, the word is the number
  rw [hx0, BitVec.zero_add, BitVec.toNat_ofNat, Nat.mod_eq_of_lt, countP_finRange]
  · -- an entry lands in cell `v` exactly when its index reads `v`: the two sets correspond entry by entry
    refine Finset.card_equiv (cellEquiv N) fun n => ?_
    simp only [Finset.mem_filter, Finset.mem_univ, true_and]
    exact resultIdx?_eq_some_iff d hiw hsd hiv idx _ v
  · calc _ ≤ (List.finRange (⟨1, ![N]⟩ : Shape).numel).length := List.countP_le_length
      _ = N := by rw [List.length_finRange, hnum]
      _ < 2 ^ 32 := by omega

end Cert.IntLemmas
-- ==== Proof.LibIntDivMod.lean ====
/-
  Floor division and the sign-following remainder of a non-negative 32-bit integer by a positive one.

  Floor division is the truncating quotient, corrected by one when the operands' signs differ and the division is
  not exact; the sign-following remainder is the truncating remainder, corrected by the divisor when it is not zero
  and its sign differs from the divisor's. For a non-negative dividend and a positive divisor neither correction
  applies, and the results are the natural-number quotient and remainder.
-/
import Idealize.ShloMosaic.PureOps

namespace Cert.IntLemmas

open Idealize.ShloMosaic

/-- The sign of a word: `0`, `-1` or `1`. -/
def sgn (b : BitVec 32) : BitVec 32 := if b = 0 then 0 else if b.msb then -1 else 1

/-- Floor division of one word by another. -/
def floorDivS (a d : BitVec 32) : BitVec 32 :=
  Scalar.select
    (IntOp.andi (IntOp.cmpi .ne (sgn a) (sgn d)) (IntOp.cmpi .ne (IntOp.remsi .host a d) 0#32))
    (IntOp.subi (IntOp.divsi .host a d) 1#32)
    (IntOp.divsi .host a d)

/-- The divisor a remainder is taken by: one in place of zero. -/
def safeDivS (d : BitVec 32) : BitVec 32 := Scalar.select (IntOp.cmpi .eq d 0#32) 1#32 d

/-- The sign-following remainder of one word by another. -/
def floorRemS (a d : BitVec 32) : BitVec 32 :=
  Scalar.select
    (IntOp.andi
      (IntOp.cmpi .ne (IntOp.cmpi .slt (IntOp.remsi .host a (safeDivS d)) 0#32) (IntOp.cmpi .slt (safeDivS d) 0#32))
      (IntOp.cmpi .ne (IntOp.remsi .host a (safeDivS d)) 0#32))
    (IntOp.addi (IntOp.remsi .host a (safeDivS d)) (safeDivS d))
    (IntOp.remsi .host a (safeDivS d))

/-- A natural number below `2 ^ 31` is the value of the word it is written in. -/
private theorem toNat_ofNat_lt {n : ℕ} (hn' : n < 2 ^ 31) : (BitVec.ofNat 32 n).toNat = n := by
  rw [BitVec.toNat_ofNat]; exact Nat.mod_eq_of_lt (by omega)

/-- A word whose value is below `2 ^ 31` has a clear top bit: it is non-negative. -/
private theorem msb_false_of_lt {b : BitVec 32} (h : b.toNat < 2 ^ 31) : b.msb = false := by
  rw [BitVec.msb_eq_decide]
  simp only [decide_eq_false_iff_not, not_le]
  omega

/-- A positive number below `2 ^ 31` is not the zero word. -/
private theorem ofNat_ne_zero {n : ℕ} (hn : 0 < n) (hn' : n < 2 ^ 31) : BitVec.ofNat 32 n ≠ 0 := by
  have hd := toNat_ofNat_lt hn'
  intro h
  rw [h] at hd
  simp at hd
  omega

/-- A positive divisor below `2 ^ 31` is neither zero nor minus one, so the division is at no corner. -/
private theorem not_corner (a : BitVec 32) {n : ℕ} (hn : 0 < n) (hn' : n < 2 ^ 31) :
    ¬ IntOp.SDivCorner a (BitVec.ofNat 32 n) := by
  have hd := toNat_ofNat_lt hn'
  rintro (h | ⟨-, h⟩)
  · exact ofNat_ne_zero hn hn' h
  · rw [h] at hd
    have h1 : (-1 : BitVec 32).toNat = 4294967295 := by decide
    omega

/-- On non-negative operands the signed truncating quotient is the unsigned one, whose value is the
    natural-number quotient; it is no larger than the dividend, so it fits the word. -/
private theorem divsi_eq (a : BitVec 32) (n : ℕ) (hn : 0 < n) (hn' : n < 2 ^ 31) (ha : a.toNat < 2 ^ 31) :
    IntOp.divsi .host a (BitVec.ofNat 32 n) = BitVec.ofNat 32 (a.toNat / n) := by
  have hd := toNat_ofNat_lt hn'
  unfold IntOp.divsi
  rw [if_neg (not_corner a hn hn'), BitVec.sdiv_eq, msb_false_of_lt ha,
    msb_false_of_lt (b := BitVec.ofNat 32 n) (by rw [hd]; exact hn')]
  apply BitVec.eq_of_toNat_eq
  simp only [BitVec.udiv_eq, BitVec.toNat_udiv, hd, BitVec.toNat_ofNat]
  have hq : a.toNat / n < 2 ^ 32 := lt_of_le_of_lt (Nat.div_le_self _ _) (by omega)
  exact (Nat.mod_eq_of_lt hq).symm

/-- Likewise the signed remainder is the unsigned one, whose value is the natural-number remainder; it is
    below the divisor, so it fits the word. -/
private theorem remsi_eq (a : BitVec 32) (n : ℕ) (hn : 0 < n) (hn' : n < 2 ^ 31) (ha : a.toNat < 2 ^ 31) :
    IntOp.remsi .host a (BitVec.ofNat 32 n) = BitVec.ofNat 32 (a.toNat % n) := by
  have hd := toNat_ofNat_lt hn'
  unfold IntOp.remsi
  rw [if_neg (not_corner a hn hn'), BitVec.srem_eq, msb_false_of_lt ha,
    msb_false_of_lt (b := BitVec.ofNat 32 n) (by rw [hd]; exact hn')]
  apply BitVec.eq_of_toNat_eq
  simp only [BitVec.umod_eq, BitVec.toNat_umod, hd, BitVec.toNat_ofNat]
  have hr : a.toNat % n < 2 ^ 32 := lt_trans (Nat.mod_lt _ hn) (by omega)
  exact (Nat.mod_eq_of_lt hr).symm

/-- A non-zero, non-negative word has sign one. -/
private theorem sgn_pos {b : BitVec 32} (h0 : b ≠ 0) (h : b.toNat < 2 ^ 31) : sgn b = 1 := by
  unfold sgn
  rw [if_neg h0, msb_false_of_lt h]
  rfl

/-- A non-negative word is not below zero in the signed order. -/
private theorem slt_zero_of_lt {b : BitVec 32} (h : b.toNat < 2 ^ 31) : IntOp.cmpi .slt b 0#32 = 0#1 := by
  unfold IntOp.cmpi
  simp only [BitVec.slt_zero_eq_msb, msb_false_of_lt h]
  rfl

/-- A non-negative word floor-divided by a positive one is the natural-number quotient. -/
theorem floorDivS_eq (a : BitVec 32) (n : ℕ) (hn : 0 < n) (hn' : n < 2 ^ 31) (ha : a.toNat < 2 ^ 31) :
    floorDivS a (BitVec.ofNat 32 n) = BitVec.ofNat 32 (a.toNat / n) := by
  have hd := toNat_ofNat_lt hn'
  -- The correction is not taken: a non-zero dividend has the divisor's sign, and a zero one divides exactly.
  have hc : IntOp.andi (IntOp.cmpi .ne (sgn a) (sgn (BitVec.ofNat 32 n)))
      (IntOp.cmpi .ne (BitVec.ofNat 32 (a.toNat % n)) 0#32) = 0#1 := by
    by_cases h0 : a = 0
    · subst h0
      simp [IntOp.andi, IntOp.cmpi]
    · rw [sgn_pos h0 ha, sgn_pos (ofNat_ne_zero hn hn') (by rw [hd]; exact hn')]
      simp [IntOp.andi, IntOp.cmpi]
  unfold floorDivS
  rw [divsi_eq a n hn hn' ha, remsi_eq a n hn hn' ha, hc]
  simp [Scalar.select]

/-- Its sign-following remainder is the natural-number remainder. -/
theorem floorRemS_eq (a : BitVec 32) (n : ℕ) (hn : 0 < n) (hn' : n < 2 ^ 31) (ha : a.toNat < 2 ^ 31) :
    floorRemS a (BitVec.ofNat 32 n) = BitVec.ofNat 32 (a.toNat % n) := by
  have hd := toNat_ofNat_lt hn'
  -- The divisor is not zero, so it is taken as it is.
  have hsafe : safeDivS (BitVec.ofNat 32 n) = BitVec.ofNat 32 n := by
    have hb : (BitVec.ofNat 32 n == 0#32) = false := beq_eq_false_iff_ne.mpr (ofNat_ne_zero hn hn')
    unfold safeDivS
    simp [Scalar.select, IntOp.cmpi, hb]
  -- The remainder is below the divisor, hence below `2 ^ 31`: both are non-negative, their signs agree.
  have hr : (BitVec.ofNat 32 (a.toNat % n)).toNat < 2 ^ 31 := by
    have hlt : a.toNat % n < n := Nat.mod_lt _ hn
    rw [toNat_ofNat_lt (lt_trans hlt hn')]
    exact lt_trans hlt hn'
  have hc : IntOp.andi
      (IntOp.cmpi .ne (IntOp.cmpi .slt (BitVec.ofNat 32 (a.toNat % n)) 0#32)
        (IntOp.cmpi .slt (BitVec.ofNat 32 n) 0#32))
      (IntOp.cmpi .ne (BitVec.ofNat 32 (a.toNat % n)) 0#32) = 0#1 := by
    rw [slt_zero_of_lt hr, slt_zero_of_lt (b := BitVec.ofNat 32 n) (by rw [hd]; exact hn')]
    simp [IntOp.andi, IntOp.cmpi]
  unfold floorRemS
  rw [hsafe, remsi_eq a n hn hn' ha, hc]
  simp [Scalar.select]

end Cert.IntLemmas
-- ==== Proof.LibConcatCols.lean ====
/-
  Two columns laid side by side: entry `(k, 0)` of the result is the first column's entry `k`, entry `(k, 1)` the second's.
-/
import Idealize.ShloMosaic.PureOps
import Idealize.ShloMosaic.Lib.ValueIdx
import Idealize.ShloMosaic.Lib.Pipeline.Value

namespace Cert.IntLemmas

open Idealize.ShloMosaic Idealize.ShloMosaic.ValueIdx

/-- The concatenation of two `K × 1` columns along axis 1, read at `(k, 0)`. -/
theorem concat_cols_zero {α : Type} {K : ℕ} (a b : (⟨2, ![K, 1]⟩ : Shape).Idx → α)
    (h : Shape.Concatenates [(⟨2, ![K, 1]⟩ : Shape), ⟨2, ![K, 1]⟩] ⟨2, ![K, 2]⟩ 1) (k : Fin K) :
    concatenate ⟨2, ![K, 2]⟩ 1 [⟨⟨2, ![K, 1]⟩, a⟩, ⟨⟨2, ![K, 1]⟩, b⟩] h (ix2 k (0 : Fin 2)) = a (ix2 k (0 : Fin 1)) := by
  -- coordinate 0 along the joined axis lies below the first column's extent 1: the first column, at the same coordinates
  refine concatenate_pair_apply_left 1 a b h (ix2 k (0 : Fin 2)) rfl (ix2 k (0 : Fin 1)) fun c => ?_
  match c with
  | ⟨0, _⟩ => rfl
  | ⟨1, _⟩ => rfl

/-- The same read at `(k, 1)`. -/
theorem concat_cols_one {α : Type} {K : ℕ} (a b : (⟨2, ![K, 1]⟩ : Shape).Idx → α)
    (h : Shape.Concatenates [(⟨2, ![K, 1]⟩ : Shape), ⟨2, ![K, 1]⟩] ⟨2, ![K, 2]⟩ 1) (k : Fin K) :
    concatenate ⟨2, ![K, 2]⟩ 1 [⟨⟨2, ![K, 1]⟩, a⟩, ⟨⟨2, ![K, 1]⟩, b⟩] h (ix2 k (1 : Fin 2)) = b (ix2 k (0 : Fin 1)) := by
  -- coordinate 1 along the joined axis is the first column's extent 1 plus 0: the second column, at local coordinate 0
  refine concatenate_pair_apply_right 1 a b h (ix2 k (1 : Fin 2)) rfl rfl (ix2 k (0 : Fin 1)) (fun c => ?_) rfl
  match c with
  | ⟨0, _⟩ => exact fun _ => rfl
  | ⟨1, _⟩ => exact fun hne => absurd rfl hne

end Cert.IntLemmas
-- ==== Proof.RefIndex.lean ====
/-
  The integer part of the reference, read as natural numbers.

  For a real input the selection mask, flattened, is a predicate on the flat positions `0 … 524287`. Its running
  count, the count of positions per running-count value and the running sum of those counts are the three functions
  `pre`, `bin`, `flat` of the enumeration lemma, so list entry `k` below the number of selected positions holds the
  `k`-th selected flat position; its row is the position divided by 64 and its column the remainder, and both are in
  range, so the wrap of negative numbers changes nothing.
-/
import proofs.«162556_g44856638440002_cont_sun_c4_349_4_alg».proof.Proof.Gen.ReferenceIdeal
import proofs.«162556_g44856638440002_cont_sun_c4_349_4_alg».proof.Proof.RefTerm
import proofs.«162556_g44856638440002_cont_sun_c4_349_4_alg».proof.Proof.Spec
import proofs.«162556_g44856638440002_cont_sun_c4_349_4_alg».proof.Proof.LibEnum
import proofs.«162556_g44856638440002_cont_sun_c4_349_4_alg».proof.Proof.LibIntCumsum
import proofs.«162556_g44856638440002_cont_sun_c4_349_4_alg».proof.Proof.LibIntBincount
import proofs.«162556_g44856638440002_cont_sun_c4_349_4_alg».proof.Proof.LibIntDivMod
import proofs.«162556_g44856638440002_cont_sun_c4_349_4_alg».proof.Proof.LibConcatCols
import Idealize.ShloMosaic.Lib.ValueIdx
import Idealize.ShloMosaic.Lib.StableHlo.Predicate
import Idealize.ShloMosaic.Lib.Pipeline.Value

noncomputable section

namespace Cert.ReferenceIdeal.Index

open Idealize.ShloMosaic Idealize.ShloMosaic.ValueIdx Cert.ReferenceIdeal Cert.ReferenceIdeal.Gen
open scoped BigOperators

/-- A real array read as an array of extended reals. -/
abbrev lift (xR : Cert.Spec.SX.Idx → ℝ) : FVec Ideal S8192x64 .f32 := fun i => ((xR i : ℝ) : EReal)

/-- Flat position `i` (row `i / 64`, column `i % 64`) is selected. -/
def selAt (xR : Cert.Spec.SX.Idx → ℝ) (i : ℕ) : Prop :=
  ∃ h : i < 524288, Cert.Spec.sel xR ⟨i / 64, by omega⟩ ⟨i % 64, Nat.mod_lt _ (by decide)⟩

instance (xR : Cert.Spec.SX.Idx → ℝ) : DecidablePred (selAt xR) := fun _ => Classical.dec _

/-- The number of selected positions. -/
abbrev nSel (xR : Cert.Spec.SX.Idx → ℝ) : ℕ := Cert.Enum.cnt 524288 (selAt xR)

/-- The `k`-th selected flat position. -/
abbrev pos (xR : Cert.Spec.SX.Idx → ℝ) (k : ℕ) : ℕ := Cert.Enum.flat 524288 (selAt xR) k

/-! ## Words and sums -/

/-- A word whose value is below `2 ^ 31` is not below zero in the signed order. -/
private theorem slt_zero_of_lt {b : BitVec 32} (h : b.toNat < 2 ^ 31) : IntOp.cmpi .slt b 0#32 = 0#1 := by
  have hb : ¬ IntOp.cmpi .slt b 0#32 = 1#1 := by
    rw [StableHlo.Predicate.slt_iff_toNat h (by decide)]
    simp
  exact eq_zero_of_ne_one hb

/-- The larger of zero and a word whose value is below `2 ^ 31` is that word. -/
private theorem maxsi_zero_of_lt {b : BitVec 32} (h : b.toNat < 2 ^ 31) : IntOp.maxsi 0#32 b = b := by
  have hb : ¬ IntOp.cmpi .slt b 0#32 = 1#1 := by
    rw [StableHlo.Predicate.slt_iff_toNat h (by decide)]
    simp
  unfold IntOp.maxsi
  rw [if_neg]
  intro hs
  apply hb
  unfold IntOp.cmpi
  simp [hs]

/-- A sum over the positions of a flat array up to `j` is the sum over the numbers up to `j`. -/
private theorem sum_fin_le_eq_range {N : ℕ} (f : ℕ → ℕ) (j : Fin N) :
    ∑ i ∈ Finset.univ.filter (fun i : Fin N => i.val ≤ j.val), f i.val = ∑ i ∈ Finset.range (j.val + 1), f i := by
  rw [Finset.sum_filter, Fin.sum_univ_eq_sum_range (fun i => if i ≤ j.val then f i else 0) N, ← Finset.sum_filter]
  congr 1
  ext i
  have hj := j.isLt
  simp only [Finset.mem_filter, Finset.mem_range]
  omega

/-- Counting the positions of a flat array with a property of their number is counting the numbers below its length. -/
private theorem card_fin_filter {N : ℕ} (q : ℕ → Prop) [DecidablePred q] :
    (Finset.univ.filter fun n : Fin N => q n.val).card = ((Finset.range N).filter q).card := by
  rw [Finset.card_filter, Finset.card_filter, Fin.sum_univ_eq_sum_range (fun n => if q n then 1 else 0) N]

/-- A rank-0 value spread over the flat positions reads that value everywhere. -/
private theorem spread_apply [Facts] (v : IVec S_ 32) (i : S524288.Idx) : Term.spread v i = v ix0 :=
  congrArg v (funext fun a => a.elim0)

/-! ## The mask -/

/-- Flat position `i` is selected exactly when its entry, at row `i / 64` and column `i % 64`, is. -/
private theorem selAt_iff (xR : Cert.Spec.SX.Idx → ℝ) (i : Fin 524288) :
    selAt xR i.val ↔ Cert.Spec.sel xR ⟨i.val / 64, by have := i.isLt; omega⟩ ⟨i.val % 64, Nat.mod_lt _ (by decide)⟩ :=
  ⟨fun ⟨_, h⟩ => h, fun h => ⟨i.isLt, h⟩⟩

/-- The mask at an entry is one when the entry exceeds the threshold and zero otherwise. -/
private theorem cond_apply (xR : Cert.Spec.SX.Idx → ℝ) (r : Fin 8192) (c : Fin 64) :
    Term.cond (lift xR) (ix2 r c) = if Cert.Spec.sel xR r c then 1#1 else 0#1 := by
  show BitVec.ofBool (decide (Cert.Spec.thr < ((xR (ix2 r c) : ℝ) : EReal))) = _
  by_cases h : Cert.Spec.sel xR r c
  · have h' : Cert.Spec.thr < ((xR (ix2 r c) : ℝ) : EReal) := h
    rw [if_pos h, decide_eq_true h']; rfl
  · have h' : ¬ Cert.Spec.thr < ((xR (ix2 r c) : ℝ) : EReal) := h
    rw [if_neg h, decide_eq_false h']; rfl

/-- The flattened, widened mask at flat position `i`. -/
private theorem maskFlat_apply (xR : Cert.Spec.SX.Idx → ℝ) (i : Fin 524288) :
    Term.maskFlat (lift xR) (ix1 i) = if selAt xR i.val then 1#32 else 0#32 := by
  have hi := i.isLt
  have e : shapeCast S524288 (Term.cond (lift xR)) Facts₀.shapeCasts_S8192x64_S524288 (ix1 i)
      = Term.cond (lift xR) (ix2 (⟨i.val / 64, by omega⟩ : Fin 8192) (⟨i.val % 64, Nat.mod_lt _ (by decide)⟩ : Fin 64)) :=
    shapeCast_apply _ _ _ _ (by
      rw [Shape.rowMajor_val_two, Shape.rowMajor_val_one]
      show i.val / 64 * 64 + i.val % 64 = i.val
      omega)
  show (shapeCast S524288 (Term.cond (lift xR)) Facts₀.shapeCasts_S8192x64_S524288 (ix1 i)).setWidth 32 = _
  rw [e, cond_apply]
  by_cases h : selAt xR i.val
  · rw [if_pos h, if_pos ((selAt_iff xR i).1 h)]; rfl
  · rw [if_neg h, if_neg (fun h' => h ((selAt_iff xR i).2 h'))]; rfl

/-- The value of the mask at a flat position: one or zero. -/
private theorem maskFlat_toNat (xR : Cert.Spec.SX.Idx → ℝ) (i : Fin 524288) :
    (Term.maskFlat (lift xR) (ix1 i)).toNat = if selAt xR i.val then 1 else 0 := by
  rw [maskFlat_apply]
  by_cases h : selAt xR i.val
  · rw [if_pos h, if_pos h]; rfl
  · rw [if_neg h, if_neg h]; rfl

/-! ## The running count -/

/-- Entry `j` of the running sum of a flat array whose whole sum fits a word. -/
private theorem runSum_toNat' [Facts] (a : IVec S524288 32) (hsum : ∑ i : Fin 524288, (a (ix1 i)).toNat < 2 ^ 32)
    (j : Fin 524288) :
    (Term.runSum a (ix1 j)).toNat
      = ∑ i ∈ Finset.univ.filter (fun i : Fin 524288 => i.val ≤ j.val), (a (ix1 i)).toNat :=
  Cert.IntLemmas.runSum_toNat (N := 524288) (P := 524287) (by norm_num) a _ (fun _ => rfl) _ _ hsum j

/-- The whole mask sums to at most the number of positions. -/
private theorem maskFlat_sum_lt (xR : Cert.Spec.SX.Idx → ℝ) :
    ∑ i : Fin 524288, (Term.maskFlat (lift xR) (ix1 i)).toNat < 2 ^ 32 := by
  have h : ∑ i : Fin 524288, (Term.maskFlat (lift xR) (ix1 i)).toNat ≤ ∑ _i : Fin 524288, 1 :=
    Finset.sum_le_sum fun i _ => by rw [maskFlat_toNat]; split <;> omega
  rw [Finset.sum_const, Finset.card_univ, Fintype.card_fin, smul_eq_mul, mul_one] at h
  omega

/-- The running count at flat position `i` is the number of selected positions up to `i`. -/
private theorem count1_toNat (xR : Cert.Spec.SX.Idx → ℝ) (i : Fin 524288) :
    (Term.count1 (lift xR) (ix1 i)).toNat = Cert.Enum.pre (selAt xR) i.val := by
  show (Term.runSum (Term.maskFlat (lift xR)) (ix1 i)).toNat = _
  rw [runSum_toNat' _ (maskFlat_sum_lt xR) i]
  rw [Finset.sum_congr rfl fun n _ => maskFlat_toNat xR n]
  rw [sum_fin_le_eq_range (fun n => if selAt xR n then 1 else 0) i]
  unfold Cert.Enum.pre
  rw [Finset.card_filter]

/-- The running count is at most the number of positions, so it is a non-negative word. -/
private theorem count1_lt (xR : Cert.Spec.SX.Idx → ℝ) (i : Fin 524288) :
    (Term.count1 (lift xR) (ix1 i)).toNat < 2 ^ 31 := by
  rw [count1_toNat]
  have h1 := Cert.Enum.pre_le_cnt 524288 (selAt xR) i.isLt
  have h2 := Cert.Enum.cnt_le 524288 (selAt xR)
  omega

/-- The clipped running count at one position: the larger of zero and the running count. -/
private theorem clipped_eq [Facts] (x : FVec Ideal S8192x64 .f32) (i : S524288.Idx) :
    Term.clipped x i = IntOp.maxsi 0#32 (Term.count1 x i) := rfl

/-- The bin index at one position: the clipped count, plus the array's length when it is negative. -/
private theorem binIdx_eq [Facts] (x : FVec Ideal S8192x64 .f32) (i : S524288.Idx) :
    Term.binIdx x i = Scalar.select (IntOp.cmpi .slt (Term.clipped x i) 0#32)
      (IntOp.addi (Term.clipped x i) 524288#32) (Term.clipped x i) := rfl

/-- Clipping the running count below at zero changes nothing. -/
private theorem clipped_apply (xR : Cert.Spec.SX.Idx → ℝ) (i : Fin 524288) :
    Term.clipped (lift xR) (ix1 i) = Term.count1 (lift xR) (ix1 i) := by
  rw [clipped_eq]
  exact maxsi_zero_of_lt (count1_lt xR i)

/-- Nor does the wrap of a negative value: each position adds to the bin of its running count. -/
private theorem binIdx_apply (xR : Cert.Spec.SX.Idx → ℝ) (i : Fin 524288) :
    Term.binIdx (lift xR) (ix1 i) = Term.count1 (lift xR) (ix1 i) := by
  rw [binIdx_eq, clipped_apply, slt_zero_of_lt (count1_lt xR i), select_zero]

/-! ## The bins and the listed positions -/

/-- A flat array laid out as a column reads, at row `n`, its entry `n`. -/
private theorem col_apply {α : Type} (h : S524288.BroadcastsInDim S524288x1 (![0] : Fin 1 → Fin S524288x1.rank))
    (v : S524288.Idx → α) (n : Fin 524288) (c : Fin 1) :
    broadcastInDim S524288x1 ![0] h v (ix2 n c) = v (ix1 n) := by
  simp only [broadcastInDim]
  congr 1
  funext a
  have ha : a = 0 := Subsingleton.elim _ _
  subst ha
  apply Fin.ext
  split
  · next h1 => exact absurd h1 (by decide)
  · rfl

/-- Ones added into zeros at a column of indices: cell `v` holds the number of indices that, read signed, are `v`. -/
private theorem scatter_count [Facts] (x0 : IVec S524288 32) (hx0 : ∀ i, x0 i = 0#32) (idx : IVec S524288x1 32)
    (upd : IVec S524288 32) (hupd : ∀ i, upd i = 1#32) (v : Fin 524288) :
    (Host.scatter scatter_S524288_S524288x1_S524288_n_0_0_1 IntOp.addi x0 idx upd (ix1 v)).toNat
      = (Finset.univ.filter fun n : Fin 524288 => (idx (ix2 n (0 : Fin 1))).toInt = (v.val : ℤ)).card :=
  Cert.IntLemmas.bins_toNat (N := 524288) (by norm_num) scatter_S524288_S524288x1_S524288_n_0_0_1 rfl rfl rfl rfl
    x0 hx0 idx upd hupd v

/-- The bins: ones added into zeros at the column of bin indices. -/
private theorem bins_unfold [Facts] (x : FVec Ideal S8192x64 .f32) :
    Term.bins x = Host.scatter scatter_S524288_S524288x1_S524288_n_0_0_1 IntOp.addi (Term.spread (constantI S_ 32 0#32))
      (broadcastInDim S524288x1 ![0] Facts₀.bcast_S524288_S524288x1_0 (Term.binIdx x))
      (Term.spread (constantI S_ 32 1#32)) := rfl

/-- Bin `v` holds the number of positions whose running count is `v`. -/
private theorem bins_toNat' (xR : Cert.Spec.SX.Idx → ℝ) (v : Fin 524288) :
    (Term.bins (lift xR) (ix1 v)).toNat = Cert.Enum.bin 524288 (selAt xR) v.val := by
  rw [bins_unfold, scatter_count]
  rotate_left
  · intro _; rfl
  · intro _; rfl
  have hp : ∀ n : Fin 524288, n ∈ (Finset.univ : Finset (Fin 524288)) →
      ((broadcastInDim S524288x1 ![0] Facts₀.bcast_S524288_S524288x1_0 (Term.binIdx (lift xR))
          (ix2 n (0 : Fin 1))).toInt = (v.val : ℤ)
        ↔ Cert.Enum.pre (selAt xR) n.val = v.val) := fun n _ => by
    rw [col_apply, binIdx_apply, StableHlo.Predicate.toInt_eq_toNat_of_lt (count1_lt xR n), count1_toNat]
    exact Nat.cast_inj
  rw [Finset.filter_congr hp]
  unfold Cert.Enum.bin
  exact card_fin_filter (fun i => Cert.Enum.pre (selAt xR) i = v.val)

/-- All the bins together hold at most the number of positions. -/
private theorem bins_sum_lt (xR : Cert.Spec.SX.Idx → ℝ) :
    ∑ i : Fin 524288, (Term.bins (lift xR) (ix1 i)).toNat < 2 ^ 32 := by
  rw [Finset.sum_congr rfl fun n _ => bins_toNat' xR n,
    Fin.sum_univ_eq_sum_range (fun v => Cert.Enum.bin 524288 (selAt xR) v) 524288]
  have h := Cert.Enum.flat_le 524288 (selAt xR) 524287
  have e : Cert.Enum.flat 524288 (selAt xR) 524287
      = ∑ v ∈ Finset.range 524288, Cert.Enum.bin 524288 (selAt xR) v := rfl
  omega

/-- List entry `k` is the running sum of the bins up to `k`. -/
private theorem flatPos_toNat (xR : Cert.Spec.SX.Idx → ℝ) (k : Fin 524288) :
    (Term.flatPos (lift xR) (ix1 k)).toNat = pos xR k.val := by
  show (Term.runSum (Term.bins (lift xR)) (ix1 k)).toNat = _
  rw [runSum_toNat' _ (bins_sum_lt xR) k]
  rw [Finset.sum_congr rfl fun n _ => bins_toNat' xR n]
  rw [sum_fin_le_eq_range (fun v => Cert.Enum.bin 524288 (selAt xR) v) k]
  rfl

/-! ## The number of selected entries -/

/-- Flat position `c + 64 r` is entry `(r, c)`. -/
private theorem selAt_pair (xR : Cert.Spec.SX.Idx → ℝ) (r : Fin 8192) (c : Fin 64) :
    selAt xR (c.val + 64 * r.val) ↔ Cert.Spec.sel xR r c := by
  have hr := r.isLt
  have hc := c.isLt
  have e1 : (⟨(c.val + 64 * r.val) / 64, by omega⟩ : Fin 8192) = r :=
    Fin.ext (by show (c.val + 64 * r.val) / 64 = r.val; omega)
  have e2 : (⟨(c.val + 64 * r.val) % 64, Nat.mod_lt _ (by decide)⟩ : Fin 64) = c :=
    Fin.ext (by show (c.val + 64 * r.val) % 64 = c.val; omega)
  constructor
  · rintro ⟨_, h⟩
    rw [e1, e2] at h
    exact h
  · intro h
    refine ⟨by omega, ?_⟩
    rw [e1, e2]
    exact h

/-- Counting the selected entries row by row counts the selected flat positions. -/
private theorem sum_sel_eq (xR : Cert.Spec.SX.Idx → ℝ) :
    ∑ r : Fin 8192, ∑ c : Fin 64, (if Cert.Spec.sel xR r c then 1 else 0) = nSel xR := by
  show _ = ((Finset.range 524288).filter (selAt xR)).card
  rw [Finset.card_filter, ← Fin.sum_univ_eq_sum_range (fun i => if selAt xR i then 1 else 0) 524288]
  have e := Equiv.sum_comp (finProdFinEquiv (m := 8192) (n := 64))
    (fun i : Fin (8192 * 64) => if selAt xR i.val then 1 else 0)
  rw [Fintype.sum_prod_type] at e
  refine Eq.trans ?_ e
  refine Finset.sum_congr rfl fun r _ => Finset.sum_congr rfl fun c _ => ?_
  show _ = if selAt xR (c.val + 64 * r.val) then 1 else 0
  by_cases h : Cert.Spec.sel xR r c
  · rw [if_pos h, if_pos ((selAt_pair xR r c).2 h)]
  · rw [if_neg h, if_neg (fun h' => h ((selAt_pair xR r c).1 h'))]

/-- The number of selected entries: the widened mask summed over both axes from zero. -/
private theorem total_unfold [Facts] (x : FVec Ideal S8192x64 .f32) :
    Term.total x = Host.reduce IntOp.addi (extui 32 (Term.cond x) Facts₀.natLt_1_32) (constantI S_ 32 0#32)
      Facts₀.reducesTo_S8192x64_S_d0_1 Facts₀.h_S_ := rfl

/-- The sum of the widened mask over the whole input is the number of selected positions. -/
private theorem total_toNat (xR : Cert.Spec.SX.Idx → ℝ) : (Term.total (lift xR) ix0).toNat = nSel xR := by
  classical
  have hval : ∀ (r : Fin 8192) (c : Fin 64), (extui 32 (Term.cond (lift xR)) Facts₀.natLt_1_32 (ix2 r c)).toNat
      = if Cert.Spec.sel xR r c then 1 else 0 := fun r c => by
    show ((Term.cond (lift xR) (ix2 r c)).setWidth 32).toNat = _
    rw [cond_apply]
    by_cases h : Cert.Spec.sel xR r c
    · rw [if_pos h, if_pos h]; rfl
    · rw [if_neg h, if_neg h]; rfl
  have hsum : ∑ i : S8192x64.Idx, (extui 32 (Term.cond (lift xR)) Facts₀.natLt_1_32 i).toNat = nSel xR := by
    rw [sum_idx2, Finset.sum_congr rfl fun r _ => Finset.sum_congr rfl fun c _ => hval r c]
    exact sum_sel_eq xR
  have hn : nSel xR ≤ 524288 := Cert.Enum.cnt_le 524288 (selAt xR)
  rw [total_unfold, Host.reduce_eq_fold, Finset.filter_true_of_mem]
  · show (Finset.fold IntOp.addi 0#32 (extui 32 (Term.cond (lift xR)) Facts₀.natLt_1_32) Finset.univ).toNat = _
    rw [StableHlo.Predicate.toNat_fold_addi _ _ (by rw [hsum]; omega), hsum]
  · intro i _
    exact funext fun a => a.elim0

/-- A list index, as a word, has the index as its value. -/
private theorem toNat_ofNat_idx (k : Fin 524288) : (BitVec.ofNat 32 k.val).toNat = k.val := by
  rw [BitVec.toNat_ofNat]
  exact Nat.mod_eq_of_lt (by have := k.isLt; omega)

/-- Entry `k` is kept when the word of `k` is below the number of selected entries in the signed order, -/
private theorem valid_unfold [Facts] (x : FVec Ideal S8192x64 .f32) (k : Fin 524288) :
    Term.valid x (ix1 k) = IntOp.cmpi .slt (BitVec.ofNat 32 k.val) (Term.spread (Term.total x) (ix1 k)) := rfl

/-- and past the end when it is at or above it. -/
private theorem pastEnd_unfold [Facts] (x : FVec Ideal S8192x64 .f32) (k : Fin 524288) :
    Term.pastEnd x (ix1 k) = IntOp.cmpi .sge (BitVec.ofNat 32 k.val) (Term.spread (Term.total x) (ix1 k)) := rfl

/-- List entry `k` is kept exactly when `k` is below the number of selected positions. -/
theorem valid_iff (xR : Cert.Spec.SX.Idx → ℝ) (k : Fin 524288) :
    Term.valid (lift xR) (ix1 k) = 1#1 ↔ k.val < nSel xR := by
  have hk := k.isLt
  have hn : nSel xR ≤ 524288 := Cert.Enum.cnt_le 524288 (selAt xR)
  rw [valid_unfold, spread_apply, StableHlo.Predicate.slt_iff_toNat (by rw [toNat_ofNat_idx]; omega) (by rw [total_toNat]; omega),
    toNat_ofNat_idx, total_toNat]

/-- Below the number of selected positions a list index is not past the end. -/
private theorem pastEnd_apply (xR : Cert.Spec.SX.Idx → ℝ) (k : Fin 524288) (hk : k.val < nSel xR) :
    Term.pastEnd (lift xR) (ix1 k) = 0#1 := by
  have hkN := k.isLt
  have hn : nSel xR ≤ 524288 := Cert.Enum.cnt_le 524288 (selAt xR)
  apply eq_zero_of_ne_one
  rw [pastEnd_unfold, spread_apply, StableHlo.Predicate.sge_iff_toNat (by rw [toNat_ofNat_idx]; omega) (by rw [total_toNat]; omega),
    toNat_ofNat_idx, total_toNat]
  omega

/-! ## Rows and columns -/

/-- The row number at one position: the position floor-divided by 64, then its remainder by 8192. -/
private theorem rows0_unfold [Facts] (x : FVec Ideal S8192x64 .f32) (i : S524288.Idx) :
    Term.rows0 x i = Cert.IntLemmas.floorRemS (Cert.IntLemmas.floorDivS (Term.flatPos x i) 64#32) 8192#32 := rfl

/-- The column number at one position: the position floor-divided by 1, then its remainder by 64. -/
private theorem cols0_unfold [Facts] (x : FVec Ideal S8192x64 .f32) (i : S524288.Idx) :
    Term.cols0 x i = Cert.IntLemmas.floorRemS (Cert.IntLemmas.floorDivS (Term.flatPos x i) 1#32) 64#32 := rfl

/-- The row number, zero past the end of the list. -/
private theorem rows_unfold [Facts] (x : FVec Ideal S8192x64 .f32) (i : S524288.Idx) :
    Term.rows x i = Scalar.select (Term.pastEnd x i) 0#32 (Term.rows0 x i) := rfl

/-- The column number, zero past the end of the list. -/
private theorem cols_unfold [Facts] (x : FVec Ideal S8192x64 .f32) (i : S524288.Idx) :
    Term.cols x i = Scalar.select (Term.pastEnd x i) 0#32 (Term.cols0 x i) := rfl

/-- A pair entry with a negative number wrapped by the number of rows. -/
private theorem pairsWrapped_unfold [Facts] (x : FVec Ideal S8192x64 .f32) (j : S524288x2.Idx) :
    Term.pairsWrapped x j = Scalar.select (IntOp.cmpi .slt (Term.pairs x j) 0#32)
      (IntOp.addi (Term.pairs x j) 8192#32) (Term.pairs x j) := rfl

/-- A number below `2 ^ 31` is the value of the word it is written in. -/
private theorem toNat_ofNat_lt {n : ℕ} (hn : n < 2 ^ 31) : (BitVec.ofNat 32 n).toNat = n := by
  rw [BitVec.toNat_ofNat]
  exact Nat.mod_eq_of_lt (by omega)

/-- The row number of a listed position: the position divided by 64, which is below 8192. -/
private theorem rows0_apply (xR : Cert.Spec.SX.Idx → ℝ) (k : Fin 524288) (hk : k.val < nSel xR) :
    Term.rows0 (lift xR) (ix1 k) = BitVec.ofNat 32 (pos xR k.val / 64) := by
  have hp : pos xR k.val < 524288 := Cert.Enum.flat_lt 524288 (selAt xR) hk
  have hq := toNat_ofNat_lt (n := pos xR k.val / 64) (by omega)
  rw [rows0_unfold,
    Cert.IntLemmas.floorDivS_eq _ 64 (by norm_num) (by norm_num) (by rw [flatPos_toNat]; omega), flatPos_toNat,
    Cert.IntLemmas.floorRemS_eq _ 8192 (by norm_num) (by norm_num) (by rw [hq]; omega), hq]
  congr 1
  omega

/-- The column number of a listed position: its remainder by 64. -/
private theorem cols0_apply (xR : Cert.Spec.SX.Idx → ℝ) (k : Fin 524288) (hk : k.val < nSel xR) :
    Term.cols0 (lift xR) (ix1 k) = BitVec.ofNat 32 (pos xR k.val % 64) := by
  have hp : pos xR k.val < 524288 := Cert.Enum.flat_lt 524288 (selAt xR) hk
  have hq := toNat_ofNat_lt (n := pos xR k.val / 1) (by omega)
  rw [cols0_unfold,
    Cert.IntLemmas.floorDivS_eq _ 1 (by norm_num) (by norm_num) (by rw [flatPos_toNat]; omega), flatPos_toNat,
    Cert.IntLemmas.floorRemS_eq _ 64 (by norm_num) (by norm_num) (by rw [hq]; omega), hq]
  congr 1
  omega

/-- Below the number of selected positions the row number is kept as it is. -/
private theorem rows_apply (xR : Cert.Spec.SX.Idx → ℝ) (k : Fin 524288) (hk : k.val < nSel xR) :
    Term.rows (lift xR) (ix1 k) = BitVec.ofNat 32 (pos xR k.val / 64) := by
  rw [rows_unfold, pastEnd_apply xR k hk, select_zero, rows0_apply xR k hk]

/-- And so is the column number. -/
private theorem cols_apply (xR : Cert.Spec.SX.Idx → ℝ) (k : Fin 524288) (hk : k.val < nSel xR) :
    Term.cols (lift xR) (ix1 k) = BitVec.ofNat 32 (pos xR k.val % 64) := by
  rw [cols_unfold, pastEnd_apply xR k hk, select_zero, cols0_apply xR k hk]

/-- The first entry of pair `k` is the row number, -/
private theorem pairs_zero (xR : Cert.Spec.SX.Idx → ℝ) (k : Fin 524288) (hk : k.val < nSel xR) :
    Term.pairs (lift xR) (ix2 k (0 : Fin 2)) = BitVec.ofNat 32 (pos xR k.val / 64) := by
  refine (Cert.IntLemmas.concat_cols_zero _ _ Facts₀.concatenates_S524288x1_S524288x1_S524288x2_d1 k).trans ?_
  rw [col_apply, rows_apply xR k hk]

/-- and the second the column number. -/
private theorem pairs_one (xR : Cert.Spec.SX.Idx → ℝ) (k : Fin 524288) (hk : k.val < nSel xR) :
    Term.pairs (lift xR) (ix2 k (1 : Fin 2)) = BitVec.ofNat 32 (pos xR k.val % 64) := by
  refine (Cert.IntLemmas.concat_cols_one _ _ Facts₀.concatenates_S524288x1_S524288x1_S524288x2_d1 k).trans ?_
  rw [col_apply, cols_apply xR k hk]

/-- Below that number, the row read for entry `k` is the `k`-th selected position divided by 64, -/
theorem row_eq (xR : Cert.Spec.SX.Idx → ℝ) (k : Fin 524288) (hk : k.val < nSel xR) :
    (Term.pairsWrapped (lift xR) (ix2 k (0 : Fin 2))).toInt = ((pos xR k.val / 64 : ℕ) : ℤ) := by
  have hp : pos xR k.val < 524288 := Cert.Enum.flat_lt 524288 (selAt xR) hk
  have hq := toNat_ofNat_lt (n := pos xR k.val / 64) (by omega)
  rw [pairsWrapped_unfold, pairs_zero xR k hk, slt_zero_of_lt (by rw [hq]; omega), select_zero,
    StableHlo.Predicate.toInt_ofNat_small _ (by omega)]

/-- and the second row read is its remainder by 64. -/
theorem col_eq (xR : Cert.Spec.SX.Idx → ℝ) (k : Fin 524288) (hk : k.val < nSel xR) :
    (Term.pairsWrapped (lift xR) (ix2 k (1 : Fin 2))).toInt = ((pos xR k.val % 64 : ℕ) : ℤ) := by
  have hq := toNat_ofNat_lt (n := pos xR k.val % 64) (by omega)
  rw [pairsWrapped_unfold, pairs_one xR k hk, slt_zero_of_lt (by rw [hq]; omega), select_zero,
    StableHlo.Predicate.toInt_ofNat_small _ (by omega)]

end Cert.ReferenceIdeal.Index

end
-- ==== Proof.LibGatherRows.lean ====
/-
  Reading rows of a table by a list of row numbers, two per list entry.

  The table is `R × C`; entry `(k, e)` of the list names a row by a signed integer, clamped into `[0, R - 1]`; the result
  at `(k, e, j)` is the table at that row, column `j`.
-/
import Idealize.ShloMosaic.PureOps
import Idealize.ShloMosaic.Lib.ValueIdx

namespace Cert.IntLemmas

open Idealize.ShloMosaic Idealize.ShloMosaic.ValueIdx

/-- The gather of whole rows, read at `(k, e, j)`: the row the list names at `(k, e)`, clamped, at column `j`. -/
theorem gather_rows {α : Type} {R C K w : ℕ} (hR : 0 < R)
    (d : GatherDims ⟨2, ![R, C]⟩ ⟨3, ![K, 2, 1]⟩ ⟨3, ![K, 2, C]⟩)
    (hoff : d.offsetDims = [2]) (hcoll : d.collapsedSliceDims = [0]) (hob : d.operandBatchingDims = [])
    (hsb : d.startIndicesBatchingDims = []) (hsim : d.startIndexMap = [0]) (hivd : d.indexVectorDim = 2)
    (hss : d.sliceSizes = ![1, C])
    (x : (⟨2, ![R, C]⟩ : Shape).Idx → α) (idx : IVec ⟨3, ![K, 2, 1]⟩ w) (k : Fin K) (e : Fin 2) (j : Fin C) :
    Host.gather d x idx (ix3 k e j)
      = x (ix2 ⟨min (idx (ix3 k e (0 : Fin 1))).toInt.toNat (R - 1), by omega⟩ j) := by
  -- the record is determined by its seven entries, which are the given ones
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    -- the row axis: collapsed, so no offset; not batching; its start is the clamped start index at (k, e, 0)
    show GatherDims.start _ (ix3 k e j) idx 0 + GatherDims.batchCoord _ (ix3 k e j) 0 + GatherDims.offCoord _ (ix3 k e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the slice is one row long, so the clamp is into [0, R - 1]; the start index is read at the result's batch
    -- coordinates (k, e), with component 0 on the index vector's axis
    refine congrArg (fun q => min (idx q).toInt.toNat (R - 1)) ?_
    funext b
    refine Fin.ext ?_
    match b with
    | ⟨0, _⟩ => rfl
    | ⟨1, _⟩ => rfl
    | ⟨2, _⟩ => rfl
  | ⟨1, _⟩ =>
    -- the column axis: not start-indexed, not batching; kept, so it reads the result's offset coordinate j
    show GatherDims.start _ (ix3 k e j) idx 1 + GatherDims.batchCoord _ (ix3 k e j) 1 + GatherDims.offCoord _ (ix3 k e j) 1 = j.val
    have h10 : (1 : Fin 2) ∉ ([0] : List (Fin 2)) := by decide
    rw [GatherDims.batchCoord_eq_zero _ _ _ List.not_mem_nil]
    unfold GatherDims.start
    rw [dif_neg h10, Nat.zero_add]
    unfold GatherDims.offCoord
    rw [dif_pos ((GatherDims.mem_sKept _ _).mpr ⟨h10, List.not_mem_nil⟩)]
    rfl

end Cert.IntLemmas
-- ==== Proof.RefValue.lean ====
/-
  The reference's result for a real input: `0.01 · (√total / 64)`.

  Each kept list entry `k` reads rows `pos k / 64` and `pos k % 64` of the input, adds them channel by channel, and
  contributes `∑ j, (1 - sum / 64)²`, which is the contribution of the selected position `pos k`; entries past the
  number of selected positions contribute zero. Summing over the list is summing over the selected positions, by the
  enumeration lemma, and the flat positions are the pairs (row, column).
-/
import proofs.«162556_g44856638440002_cont_sun_c4_349_4_alg».proof.Proof.RefIndex
import proofs.«162556_g44856638440002_cont_sun_c4_349_4_alg».proof.Proof.LibRealSums
import proofs.«162556_g44856638440002_cont_sun_c4_349_4_alg».proof.Proof.LibGatherRows
import Idealize.ShloMosaic.PureOps.Ideal.Laws
import Idealize.ShloMosaic.Lib.IdealHost

noncomputable section

namespace Cert.ReferenceIdeal.RefValue

open Idealize.ShloMosaic Idealize.ShloMosaic.ValueIdx Cert.ReferenceIdeal Cert.ReferenceIdeal.Gen
open Cert.ReferenceIdeal.Index

/-- Row `r` of the input at channel `j`, zero when `r` is not a row number. -/
private def rowR (xR : Cert.Spec.SX.Idx → ℝ) (r : ℕ) (j : Fin 64) : ℝ :=
  if h : r < 8192 then xR (ix2 ⟨r, h⟩ j) else 0

/-- The word `0x42800000` is the number sixty-four. -/
private theorem word_64 : Ideal.ofBits .f32 0x42800000#32 = ((64 : ℝ) : EReal) := by
  simp [Ideal.ofBits, Ideal.ieee, -EReal.coe_mul]
  norm_num

/-- The list of pairs laid out with a trailing unit axis reads, at `(k, e, 0)`, the pair list at `(k, e)`. -/
private theorem bcast_pairs (p : IVec S524288x2 32) (k : Fin 524288) (e : Fin 2) :
    broadcastInDim S524288x2x1 ![0, 1] Gen.bcast_S524288x2_S524288x2x1_0_1 p (ix3 k e (0 : Fin 1)) = p (ix2 k e) := by
  unfold broadcastInDim
  congr 1
  funext a
  match a with
  | ⟨0, _⟩ => rfl
  | ⟨1, _⟩ => rfl

/-- The rows read by the printed gather: at `(k, e, j)` the row the list names at `(k, e, 0)`, clamped, at column `j`. -/
private theorem gather_here {α : Type} (x : S8192x64.Idx → α) (idx : IVec S524288x2x1 32) (k : Fin 524288) (e : Fin 2) (j : Fin 64) :
    Host.gather gather_S8192x64_S524288x2x1_S524288x2x64_2_0_n_n_0_2_164 x idx (ix3 k e j)
      = x (ix2 ⟨min (idx (ix3 k e (0 : Fin 1))).toInt.toNat (8192 - 1), by omega⟩ j) :=
  Cert.IntLemmas.gather_rows (R := 8192) (C := 64) (K := 524288) (by decide)
      gather_S8192x64_S524288x2x1_S524288x2x64_2_0_n_n_0_2_164 rfl rfl rfl rfl rfl rfl rfl x idx k e j

/-- A list entry whose row number, read signed, is `r`, a row of the input, reads that row. -/
private theorem gather_of_toInt (xR : Cert.Spec.SX.Idx → ℝ) (idx : IVec S524288x2x1 32) (k : Fin 524288) (e : Fin 2) (j : Fin 64)
    (r : ℕ) (hr : r < 8192) (he : (idx (ix3 k e (0 : Fin 1))).toInt = (r : ℤ)) :
    Host.gather gather_S8192x64_S524288x2x1_S524288x2x64_2_0_n_n_0_2_164 (lift xR) idx (ix3 k e j)
      = ((rowR xR r j : ℝ) : EReal) := by
  rw [gather_here]
  unfold rowR
  rw [dif_pos hr]
  show ((xR _ : ℝ) : EReal) = _
  congr 2
  funext a
  match a with
  | ⟨0, _⟩ =>
    refine Fin.ext ?_
    show min (idx (ix3 k e (0 : Fin 1))).toInt.toNat (8192 - 1) = r
    rw [he, Int.toNat_natCast]
    omega
  | ⟨1, _⟩ => rfl

/-- Below the number of selected positions, the rows read for list entry `k` are rows `pos k / 64` and `pos k % 64`. -/
private theorem gathered_apply (xR : Cert.Spec.SX.Idx → ℝ) (k : Fin 524288) (hk : k.val < nSel xR) (j : Fin 64) :
    Term.gathered (lift xR) (ix3 k (0 : Fin 2) j) = ((rowR xR (pos xR k.val / 64) j : ℝ) : EReal)
    ∧ Term.gathered (lift xR) (ix3 k (1 : Fin 2) j) = ((rowR xR (pos xR k.val % 64) j : ℝ) : EReal) := by
  have hp : pos xR k.val < 524288 := Cert.Enum.flat_lt 524288 (selAt xR) hk
  unfold Term.gathered
  constructor
  · refine gather_of_toInt xR _ k 0 j _ (by omega) ?_
    rw [bcast_pairs]
    exact row_eq xR k hk
  · refine gather_of_toInt xR _ k 1 j _ (by omega) ?_
    rw [bcast_pairs]
    exact col_eq xR k hk

/-- The two rows added: below the number of selected positions, the sum at `(k, j)` of rows `pos k / 64` and
    `pos k % 64` at channel `j`. -/
private theorem pairSum_apply (xR : Cert.Spec.SX.Idx → ℝ) (k : Fin 524288) (hk : k.val < nSel xR) (j : Fin 64) :
    Term.pairSum (lift xR) (ix2 k j)
      = ((rowR xR (pos xR k.val / 64) j + rowR xR (pos xR k.val % 64) j : ℝ) : EReal) := by
  have h : S524288x2x64.Reduces [1] S524288x64 := by decide
  obtain ⟨g0, g1⟩ := gathered_apply xR k hk j
  unfold Term.pairSum
  rw [hostReduceAdd_apply, Ideal.hostReduceAdd_single _ h, constant_apply, Ideal.ofBits_zero_f32, zero_add]
  have e0 : h.lift (ix2 k j) (0 : Fin 2) = ix3 k (0 : Fin 2) j := by
    funext c; refine Fin.ext ?_
    match c with
    | ⟨0, _⟩ => rfl
    | ⟨1, _⟩ => rfl
    | ⟨2, _⟩ => rfl
  have e1 : h.lift (ix2 k j) (1 : Fin 2) = ix3 k (1 : Fin 2) j := by
    funext c; refine Fin.ext ?_
    match c with
    | ⟨0, _⟩ => rfl
    | ⟨1, _⟩ => rfl
    | ⟨2, _⟩ => rfl
  show ∑ e : Fin 2, Term.gathered (lift xR) (h.lift (ix2 k j) e) = _
  rw [Fin.sum_univ_two, e0, e1, g0, g1, EReal.coe_add]

/-- `1 - sum / 64` at `(k, j)`, below the number of selected positions. -/
private theorem dist_apply (xR : Cert.Spec.SX.Idx → ℝ) (k : Fin 524288) (hk : k.val < nSel xR) (j : Fin 64) :
    Term.dist (lift xR) (ix2 k j)
      = ((1 - (rowR xR (pos xR k.val / 64) j + rowR xR (pos xR k.val % 64) j) / 64 : ℝ) : EReal) := by
  unfold Term.dist
  rw [subf_apply, hostDivf_apply, broadcastInDim_scalar_apply, broadcastInDim_scalar_apply, constant_apply,
    constant_apply, Ideal.ofBits_one_f32, word_64, pairSum_apply xR k hk j,
    Ideal.div_coe (by norm_num : (64 : ℝ) ≠ 0), ← EReal.coe_mul, ← EReal.coe_one, ← EReal.coe_sub]
  congr 1
  ring

/-- The value kept at `(k, j)`: the square below the number of selected positions, zero from there on. -/
private def keptR (xR : Cert.Spec.SX.Idx → ℝ) (k : ℕ) (j : Fin 64) : ℝ :=
  if k < nSel xR then (1 - (rowR xR (pos xR k / 64) j + rowR xR (pos xR k % 64) j) / 64) ^ 2 else 0

/-- A flat mask laid along the rows of the `524288 × 64` rectangle reads, at `(k, j)`, the mask at `k`. -/
private theorem bcast_valid (v : IVec S524288 1) (k : Fin 524288) (j : Fin 64) :
    broadcastInDim S524288x64 ![0, 1] Gen.bcast_S524288x1_S524288x64_0_1
      (broadcastInDim S524288x1 ![0] Gen.bcast_S524288_S524288x1_0 v) (ix2 k j) = v (ix1 k) := by
  unfold broadcastInDim
  congr 1
  funext a
  match a with
  | ⟨0, _⟩ => rfl

/-- The kept squares as real numbers. -/
private theorem kept_apply (xR : Cert.Spec.SX.Idx → ℝ) (k : Fin 524288) (j : Fin 64) :
    Term.kept (lift xR) (ix2 k j) = ((keptR xR k.val j : ℝ) : EReal) := by
  unfold Term.kept keptR
  rw [select_apply, bcast_valid]
  by_cases hk : k.val < nSel xR
  · rw [(valid_iff xR k).mpr hk, select_one, if_pos hk, mulf_apply, dist_apply xR k hk j, ← EReal.coe_mul, sq]
  · have hv : Term.valid (lift xR) (ix1 k) = 0#1 := eq_zero_of_ne_one fun h => hk ((valid_iff xR k).mp h)
    rw [hv, select_zero, if_neg hk, broadcastInDim_scalar_apply]
    show Ideal.ofBits .f32 0x00000000#32 = _
    rw [Ideal.ofBits_zero_f32, EReal.coe_zero]

/-- The sum of the kept squares is the real double sum over the list and the channels. -/
private theorem sumSq_apply (xR : Cert.Spec.SX.Idx → ℝ) (i : S_.Idx) :
    Term.sumSq (lift xR) i = ((∑ k : Fin 524288, ∑ j : Fin 64, keptR xR k.val j : ℝ) : EReal) := by
  unfold Term.sumSq
  rw [hostReduceAdd_apply, Ideal.hostReduceAdd_total _ (fun b => b.elim0), constant_apply, Ideal.ofBits_zero_f32,
    zero_add, sum_idx2, RealSums.coe_sum]
  refine Finset.sum_congr rfl fun k _ => ?_
  rw [RealSums.coe_sum]
  exact Finset.sum_congr rfl fun j _ => kept_apply xR k j

/-- The contribution of flat position `i`: rows `i / 64` and `i % 64` against the all-ones vector. -/
private def termAt (xR : Cert.Spec.SX.Idx → ℝ) (i : ℕ) : ℝ :=
  ∑ j : Fin 64, (1 - (rowR xR (i / 64) j + rowR xR (i % 64) j) / 64) ^ 2

/-- Summed over the channels, list entry `k` contributes the term of the `k`-th selected position, or nothing. -/
private theorem sum_keptR_row (xR : Cert.Spec.SX.Idx → ℝ) (k : ℕ) :
    ∑ j : Fin 64, keptR xR k j = if k < nSel xR then termAt xR (pos xR k) else 0 := by
  unfold keptR termAt
  by_cases hk : k < nSel xR
  · simp only [if_pos hk]
  · simp only [if_neg hk, Finset.sum_const_zero]

/-- A sum over the flat positions `0 … m·n - 1` is the double sum over rows and columns, position `c + n·r`. -/
private theorem sum_range_mul (m n : ℕ) (F : ℕ → ℝ) :
    ∑ i ∈ Finset.range (m * n), F i = ∑ r : Fin m, ∑ c : Fin n, F (c.val + n * r.val) := by
  rw [Finset.sum_range, ← Equiv.sum_comp finProdFinEquiv, Fintype.sum_prod_type]
  rfl

/-- Flat position `c + 64 r` is selected exactly when `(r, c)` is. -/
private theorem selAt_iff (xR : Cert.Spec.SX.Idx → ℝ) (r : Fin 8192) (c : Fin 64) :
    selAt xR (c.val + 64 * r.val) ↔ Cert.Spec.sel xR r c := by
  have hr := r.isLt
  have hc := c.isLt
  have key : ∀ (a : Fin 8192) (b : Fin 64), a = r → b = c → (Cert.Spec.sel xR a b ↔ Cert.Spec.sel xR r c) := by
    rintro _ _ rfl rfl; exact Iff.rfl
  have e1 : ∀ h : (c.val + 64 * r.val) / 64 < 8192, (⟨(c.val + 64 * r.val) / 64, h⟩ : Fin 8192) = r :=
    fun h => Fin.ext (by show (c.val + 64 * r.val) / 64 = r.val; omega)
  have e2 : ∀ h : (c.val + 64 * r.val) % 64 < 64, (⟨(c.val + 64 * r.val) % 64, h⟩ : Fin 64) = c :=
    fun h => Fin.ext (by show (c.val + 64 * r.val) % 64 = c.val; omega)
  constructor
  · rintro ⟨h, hs⟩
    exact (key _ _ (e1 _) (e2 _)).mp hs
  · intro hs
    exact ⟨by omega, (key _ _ (e1 _) (e2 _)).mpr hs⟩

/-- The term of flat position `c + 64 r` is the contribution of `(r, c)`. -/
private theorem termAt_eq (xR : Cert.Spec.SX.Idx → ℝ) (r : Fin 8192) (c : Fin 64) :
    termAt xR (c.val + 64 * r.val) = Cert.Spec.pairTerm xR r c := by
  have hc := c.isLt
  unfold termAt Cert.Spec.pairTerm
  have h1 : (c.val + 64 * r.val) / 64 = r.val := by omega
  have h2 : (c.val + 64 * r.val) % 64 = c.val := by omega
  rw [h1, h2]
  refine Finset.sum_congr rfl fun j _ => ?_
  have e1 : rowR xR r.val j = xR (ix2 r j) := by unfold rowR; rw [dif_pos r.isLt]
  have e2 : rowR xR c.val j = xR (ix2 (Cert.Spec.rowOf c) j) := by unfold rowR; rw [dif_pos (by omega)]
  rw [e1, e2]

/-- The double sum of the kept squares is the sum of the contributions of the selected positions. -/
private theorem sum_keptR (xR : Cert.Spec.SX.Idx → ℝ) :
    ∑ k : Fin 524288, ∑ j : Fin 64, keptR xR k.val j = Cert.Spec.total xR := by
  have h1 : ∑ k : Fin 524288, ∑ j : Fin 64, keptR xR k.val j
      = ∑ k ∈ Finset.range 524288, (if k < nSel xR then termAt xR (pos xR k) else 0) :=
    (Finset.sum_congr rfl fun k _ => sum_keptR_row xR k.val).trans
      (Fin.sum_univ_eq_sum_range (fun k => if k < nSel xR then termAt xR (pos xR k) else 0) 524288)
  rw [h1]
  refine (Cert.Enum.sum_enum 524288 (selAt xR) (termAt xR)).trans ?_
  refine (sum_range_mul 8192 64 fun i => if selAt xR i then termAt xR i else 0).trans ?_
  unfold Cert.Spec.total
  refine Finset.sum_congr rfl fun r _ => Finset.sum_congr rfl fun c _ => ?_
  show (if selAt xR (c.val + 64 * r.val) then termAt xR (c.val + 64 * r.val) else 0) = _
  rw [termAt_eq]
  exact if_congr (selAt_iff xR r c) rfl rfl

/-- The host's square root at an index is the extended reals' square root of the element. -/
private theorem hostSqrt_apply {s : Shape} {φ : FTy} (a : FVec Ideal s φ) (i : s.Idx) : Host.sqrt a i = Ideal.sqrt (a i) := rfl

/-- The reference's result at a real input. -/
theorem out_eq (xR : Cert.Spec.SX.Idx → ℝ) :
    Term.out (lift xR)
      = fun _ => Ideal.ofBits .f32 0x3C23D70A#32
          * Ideal.div (Ideal.sqrt ((Cert.Spec.total xR : ℝ) : EReal)) (Ideal.ofBits .f32 0x42800000#32) := by
  funext i
  unfold Term.out
  rw [mulf_apply, hostDivf_apply, hostSqrt_apply, constant_apply, constant_apply, sumSq_apply, sum_keptR]

end Cert.ReferenceIdeal.RefValue

end
-- ==== Proof.Finite.lean ====
/-
  The precondition says every entry of the input is a finite number: the input is a real array.
-/
import proofs.«162556_g44856638440002_cont_sun_c4_349_4_alg».proof.Pre_finite_inputs
import proofs.«162556_g44856638440002_cont_sun_c4_349_4_alg».proof.Proof.Gen.Pre_finite_inputs
import proofs.«162556_g44856638440002_cont_sun_c4_349_4_alg».proof.Proof.Spec
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

private instance : Subsingleton Cert.Pre_finite_inputs.S_.Idx := ⟨fun a b => funext fun d => d.elim0⟩

/-- The single-precision pattern of positive infinity denotes the top of the extended reals. -/
private theorem inf_eq_top : Ideal.ofBits .f32 0x7F800000#32 = (⊤ : EReal) := by
  simp [Ideal.ofBits, Ideal.ieee]

/-- A one-bit word made from a truth value is 1 only when the truth value is true. -/
private theorem of_ofBool_eq_one {p : Prop} [Decidable p] (e : BitVec.ofBool (decide p) = 1#1) : p := by
  by_contra hn
  rw [decide_eq_false hn] at e
  exact absurd e (by decide)

/-- Under the precondition the magnitude of every entry, the larger of the entry and its negation,
    lies strictly below the top: the conjunction over all entries is 1, so each conjunct is 1, and a
    conjunct is the comparison of that entry's magnitude with positive infinity. -/
private theorem abs_lt_top (x : FVec Ideal Cert.Pre_finite_inputs.S8192x64 .f32)
    (h : Cert.Pre_finite_inputs.fn (F := Ideal) x = fun _ => 1#1) (i : Cert.Pre_finite_inputs.S8192x64.Idx) :
    max (x i) (-(x i)) < (⊤ : EReal) := by
  have h0 := congrFun h ValueIdx.ix0
  dsimp only [Cert.Pre_finite_inputs.fn] at h0
  have h1 := Host.reduce_andi_all _ _ _ _ _ h0 i
  have h2 : BitVec.ofBool (decide (max (x i) (-(x i)) < Ideal.ofBits .f32 0x7F800000#32)) = 1#1 := h1
  rw [inf_eq_top] at h2
  exact of_ofBool_eq_one h2

/-- An input of which the precondition holds is the coercion of an array of real numbers. -/
theorem real_of_pre (x : FVec Ideal Cert.Pre_finite_inputs.S8192x64 .f32)
    (h : Cert.Pre_finite_inputs.fn (F := Ideal) x = fun _ => 1#1) :
    ∃ xR : Cert.Spec.SX.Idx → ℝ, x = fun i => ((xR i : ℝ) : EReal) := by
  -- the witness is the real part of each entry; an entry that is neither infinity is the coercion of it
  refine ⟨fun i => (x i).toReal, funext fun i => ?_⟩
  have hlt : max (x i) (-(x i)) < (⊤ : EReal) := abs_lt_top x h i
  -- the entry is below its magnitude, hence below the top
  have htop : x i ≠ ⊤ := (lt_of_le_of_lt (le_max_left _ _) hlt).ne
  -- so is its negation; the negation of the bottom is the top, so the entry is not the bottom
  have hbot : x i ≠ ⊥ := fun e => by
    have hneg : -(x i) < (⊤ : EReal) := lt_of_le_of_lt (le_max_right _ _) hlt
    rw [e, EReal.neg_bot] at hneg
    exact lt_irrefl _ hneg
  exact (EReal.coe_toReal htop hbot).symm

end Cert.Finite

end
-- ==== Proof.Scale.lean ====
/-
  The two programs' constants: the kernel multiplies by the word that denotes a sixty-fourth of what the reference's
  `0.01` denotes (its exponent is six less), and the reference divides by 64 before it multiplies. On the extended
  reals the product is commutative and associative and dividing by 64 is multiplying by 1/64, so the two agree on
  every extended real.
-/
import Idealize.ShloMosaic.PureOps.Ideal
import Idealize.ShloMosaic.PureOps.Ideal.Laws

noncomputable section

namespace Cert.Scale

open Idealize.ShloMosaic

/-- Sign 0, exponent field 133, zero mantissa: `2^23 · 2^(133 - 127 - 23) = 64`. -/
private theorem word_sixty_four : Ideal.ofBits .f32 0x42800000#32 = ((64 : ℝ) : EReal) := by
  simp [Ideal.ofBits, Ideal.ieee, -EReal.coe_mul]
  norm_num

/-- Sign 0, exponent field 120, mantissa `0x23D70A`: the significand `2^23 + 0x23D70A = 10737418` scaled by
`2^(120 - 127 - 23) = 2^(-30)`. -/
private theorem word_c :
    Ideal.ofBits .f32 0x3C23D70A#32 = ((10737418 * (2 : ℝ) ^ (-30 : Int) : ℝ) : EReal) := by
  simp [Ideal.ofBits, Ideal.ieee, -EReal.coe_mul]

/-- The same significand with exponent field 114, six less: scaled by `2^(114 - 127 - 23) = 2^(-36)`. -/
private theorem word_c_sixty_fourth :
    Ideal.ofBits .f32 0x3923D70A#32 = ((10737418 * (2 : ℝ) ^ (-36 : Int) : ℝ) : EReal) := by
  simp [Ideal.ofBits, Ideal.ieee, -EReal.coe_mul]

/-- `(c / 64) · s = c · (s / 64)` for the two printed words and every extended real `s`. -/
theorem scale (s : EReal) :
    Ideal.ofBits .f32 0x3923D70A#32 * s
      = Ideal.ofBits .f32 0x3C23D70A#32 * Ideal.div s (Ideal.ofBits .f32 0x42800000#32) := by
  rw [word_c_sixty_fourth, word_c, word_sixty_four, Ideal.div_coe (by norm_num : (64 : ℝ) ≠ 0)]
  have hc : (10737418 * (2 : ℝ) ^ (-36 : Int) : ℝ) = 10737418 * (2 : ℝ) ^ (-30 : Int) * (1 / 64) := by
    norm_num
  rw [hc, EReal.coe_mul (10737418 * (2 : ℝ) ^ (-30 : Int)) (1 / 64), mul_left_comm, mul_comm s]

end Cert.Scale

end
-- ==== Proof.lean ====
/-
  The kernel and the reference compute the same number from a finite 8192 × 64 input `x`.

  Call a position `(r, c)` selected when `x r c` exceeds the threshold. The reference lists the selected positions (a
  running count of the mask, the count of positions per running-count value, and the running sum of those counts give
  the `k`-th selected flat position), reads rows `r` and `c` of `x` for each, and sums `∑ j, (1 - (x r j + x c j) / 64)²`
  over the list; it returns `0.01 · (√total / 64)`. The kernel never lists anything: with the row sums, the row sums of
  squares and the inner products of every row with the first 64 rows it adds the expanded square
  `64 - (S r + S c) / 32 + (Q r + Q c) / 4096 + G r c / 2048` over the selected positions and returns `(0.01 / 64) · √total`.
  Over the real numbers, which the precondition puts the input in, the expanded square is the square, the list is the
  set of selected positions, and `(c / 64) · s = c · (s / 64)`.
-/
import proofs.«162556_g44856638440002_cont_sun_c4_349_4_alg».proof.Defs
import proofs.«162556_g44856638440002_cont_sun_c4_349_4_alg».proof.Proof.Gen.Kernel
import proofs.«162556_g44856638440002_cont_sun_c4_349_4_alg».proof.Proof.Gen.Kernel.Skeleton
import proofs.«162556_g44856638440002_cont_sun_c4_349_4_alg».proof.Proof.Gen.Kernel.Launch
import proofs.«162556_g44856638440002_cont_sun_c4_349_4_alg».proof.Proof.Gen.Kernel.Points
import proofs.«162556_g44856638440002_cont_sun_c4_349_4_alg».proof.Proof.Gen.Kernel.Frame
import proofs.«162556_g44856638440002_cont_sun_c4_349_4_alg».proof.Proof.Gen.KernelIdeal
import proofs.«162556_g44856638440002_cont_sun_c4_349_4_alg».proof.Proof.Gen.KernelIdeal.Skeleton
import proofs.«162556_g44856638440002_cont_sun_c4_349_4_alg».proof.Proof.Gen.KernelIdeal.Launch
import proofs.«162556_g44856638440002_cont_sun_c4_349_4_alg».proof.Proof.Gen.KernelIdeal.Points
import proofs.«162556_g44856638440002_cont_sun_c4_349_4_alg».proof.Proof.Gen.KernelIdeal.Frame
import proofs.«162556_g44856638440002_cont_sun_c4_349_4_alg».proof.Proof.Gen.ReferenceIdeal
import proofs.«162556_g44856638440002_cont_sun_c4_349_4_alg».proof.Proof.Gen.Pre_finite_inputs
import proofs.«162556_g44856638440002_cont_sun_c4_349_4_alg».proof.Proof.KernelRun
import proofs.«162556_g44856638440002_cont_sun_c4_349_4_alg».proof.Proof.KernelValue
import proofs.«162556_g44856638440002_cont_sun_c4_349_4_alg».proof.Proof.RefRun
import proofs.«162556_g44856638440002_cont_sun_c4_349_4_alg».proof.Proof.RefValue
import proofs.«162556_g44856638440002_cont_sun_c4_349_4_alg».proof.Proof.Finite
import proofs.«162556_g44856638440002_cont_sun_c4_349_4_alg».proof.Proof.Scale
import Idealize.ShloMosaic.Adequacy
import Idealize.ShloMosaic.Init

noncomputable section

namespace Cert.Proof

open Idealize.ShloMosaic Idealize.SL.Sem

/-- The kernel's program runs and leaves its input unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its input unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From inputs that agree and are finite, both programs end at `(0.01 / 64) · √total` of the real input. -/
theorem algebraic : Cert.algebraic_KernelIdeal_ReferenceIdeal := by
  intro m ρ m' ρ' hpre hagree
  choose xR hxR using fun c => Cert.Finite.real_of_pre _ (hpre c)
  refine ⟨fun c _ => Ideal.ofBits .f32 0x3923D70A#32 * Ideal.sqrt ((Cert.Spec.total (xR c) : ℝ) : EReal), ?_, ?_⟩
  · refine (θ_run Cert.KernelIdeal.defs _ _).mono (fun _ h c => ⟨(h c).1.trans ?_, (h c).2⟩)
      (Cert.KernelIdeal.Value.run (F := Ideal) m ρ)
    funext _
    rw [hxR c]
    exact Cert.KernelIdeal.KValue.pay_eq (xR c)
  · refine (θ_run Cert.ReferenceIdeal.defs _ _).mono (fun _ h c => ⟨(h c).1.trans ?_, (h c).2⟩)
      (Cert.ReferenceIdeal.Value.run (F := Ideal) m' ρ')
    rw [hagree c, hxR c, Cert.ReferenceIdeal.RefValue.out_eq]
    funext _
    exact (Cert.Scale.scale _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
